-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v25)) (v3 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_v34) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v89) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S50000x32 : Shape := ⟨2, ![50000, 32]⟩
abbrev S800000x32 : Shape := ⟨2, ![800000, 32]⟩
abbrev S800000 : Shape := ⟨1, ![800000]⟩
abbrev S128x128 : Shape := ⟨2, ![128, 128]⟩
abbrev S128 : Shape := ⟨1, ![128]⟩
abbrev S32x32 : Shape := ⟨2, ![32, 32]⟩
abbrev S32 : Shape := ⟨1, ![32]⟩
abbrev S160x128 : Shape := ⟨2, ![160, 128]⟩
abbrev S288x128 : Shape := ⟨2, ![288, 128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S50000x32 : S_.BroadcastsInDim S50000x32 (![] : Fin 0 → Fin S50000x32.rank)
  reducesTo_S50000x32_S_d0_1 : S50000x32.ReducesTo [0, 1] S_
  bcast_S_S800000x32 : S_.BroadcastsInDim S800000x32 (![] : Fin 0 → Fin S800000x32.rank)
  reducesTo_S800000x32_S_d0_1 : S800000x32.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S160x128 : S_.BroadcastsInDim S160x128 (![] : Fin 0 → Fin S160x128.rank)
  reducesTo_S160x128_S_d0_1 : S160x128.ReducesTo [0, 1] S_
  bcast_S_S288x128 : S_.BroadcastsInDim S288x128 (![] : Fin 0 → Fin S288x128.rank)
  reducesTo_S288x128_S_d0_1 : S288x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S800000 : S_.BroadcastsInDim S800000 (![] : Fin 0 → Fin S800000.rank)
  reducesTo_S800000_S_d0 : S800000.ReducesTo [0] S_

variable [Facts]

def fn_part6 {F : FTy → Type} [FloatOps F] (main_v95 : IVec S_ 1) (main_v101 : IVec S_ 1) : IVec S_ 1 :=
  let main_v102 : IVec S_ 1 := andi main_v95 main_v101
  main_v102

def fn_part5 {F : FTy → Type} [FloatOps F] (main_arg4 : IVec S800000 32) (main_arg5 : IVec S800000 32) (main_v83 : IVec S_ 1) (main_v84 : FVec F S2 .f32) (main_cst_32 : FVec F S_ .f32) : IVec S_ 1 :=
  let main_v85 : FVec F S2 .f32 := broadcastInDim S2 ![] bcast_S_S2 main_cst_32
  let main_v86 : IVec S2 1 := cmpf .olt main_v84 main_v85
  let main_c_33 : IVec S_ 1 := constantI S_ 1 1#1
  let main_v87 : IVec S_ 1 := (fun x v => Host.reduce IntOp.andi x v reducesTo_S2_S_d0 h_S_) main_v86 main_c_33
  let main_v88 : IVec S_ 1 := andi main_v83 main_v87
  let main_c_34 : IVec S_ 32 := constantI S_ 32 0#32
  let main_v89 : IVec S800000 32 := broadcastInDim S800000 ![] bcast_S_S800000 main_c_34
  let main_v90 : IVec S800000 1 := cmpi .sge main_arg4 main_v89
  let main_c_35 : IVec S_ 32 := constantI S_ 32 50000#32
  let main_v91 : IVec S800000 32 := broadcastInDim S800000 ![] bcast_S_S800000 main_c_35
  let main_v92 : IVec S800000 1 := cmpi .slt main_arg4 main_v91
  let main_v93 : IVec S800000 1 := andi main_v90 main_v92
  let main_c_36 : IVec S_ 1 := constantI S_ 1 1#1
  let main_v94 : IVec S_ 1 := (fun x v => Host.reduce IntOp.andi x v reducesTo_S800000_S_d0 h_S_) main_v93 main_c_36
  let main_v95 : IVec S_ 1 := andi main_v88 main_v94
  let main_c_37 : IVec S_ 32 := constantI S_ 32 0#32
  let main_v96 : IVec S800000 32 := broadcastInDim S800000 ![] bcast_S_S800000 main_c_37
  let main_v97 : IVec S800000 1 := cmpi .sge main_arg5 main_v96
  let main_c_38 : IVec S_ 32 := constantI S_ 32 50000#32
  let main_v98 : IVec S800000 32 := broadcastInDim S800000 ![] bcast_S_S800000 main_c_38
  let main_v99 : IVec S800000 1 := cmpi .slt main_arg5 main_v98
  let main_v100 : IVec S800000 1 := andi main_v97 main_v99
  let main_c_39 : IVec S_ 1 := constantI S_ 1 1#1
  let main_v101 : IVec S_ 1 := (fun x v => Host.reduce IntOp.andi x v reducesTo_S800000_S_d0 h_S_) main_v100 main_c_39
  fn_part6 (F := F) main_v95 main_v101

def fn_part4 {F : FTy → Type} [FloatOps F] (main_arg4 : IVec S800000 32) (main_arg5 : IVec S800000 32) (main_arg16 : FVec F S128x2 .f32) (main_arg17 : FVec F S2 .f32) (main_arg18 : FVec F S128x2 .f32) (main_arg19 : FVec F S2 .f32) (main_v63 : IVec S_ 1) (main_v67 : IVec S_ 1) : IVec S_ 1 :=
  let main_v68 : IVec S_ 1 := andi main_v63 main_v67
  let main_v69 : FVec F S128x2 .f32 := Host.absf main_arg16
  let main_cst_26 : FVec F S_ .f32 := constant S_ .f32 0x7F800000#32
  let main_v70 : FVec F S128x2 .f32 := broadcastInDim S128x2 ![] bcast_S_S128x2 main_cst_26
  let main_v71 : IVec S128x2 1 := cmpf .olt main_v69 main_v70
  let main_c_27 : IVec S_ 1 := constantI S_ 1 1#1
  let main_v72 : IVec S_ 1 := (fun x v => Host.reduce IntOp.andi x v reducesTo_S128x2_S_d0_1 h_S_) main_v71 main_c_27
  let main_v73 : IVec S_ 1 := andi main_v68 main_v72
  let main_v74 : FVec F S2 .f32 := Host.absf main_arg17
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  let main_v79 : FVec F S128x2 .f32 := Host.absf main_arg18
  let main_cst_30 : FVec F S_ .f32 := constant S_ .f32 0x7F800000#32
  let main_v80 : FVec F S128x2 .f32 := broadcastInDim S128x2 ![] bcast_S_S128x2 main_cst_30
  let main_v81 : IVec S128x2 1 := cmpf .olt main_v79 main_v80
  let main_c_31 : IVec S_ 1 := constantI S_ 1 1#1
  let main_v82 : IVec S_ 1 := (fun x v => Host.reduce IntOp.andi x v reducesTo_S128x2_S_d0_1 h_S_) main_v81 main_c_31
  let main_v83 : IVec S_ 1 := andi main_v78 main_v82
  let main_v84 : FVec F S2 .f32 := Host.absf main_arg19
  let main_cst_32 : FVec F S_ .f32 := constant S_ .f32 0x7F800000#32
  fn_part5 (F := F) main_arg4 main_arg5 main_v83 main_v84 main_cst_32

def fn_part3 {F : FTy → Type} [FloatOps F] (main_arg4 : IVec S800000 32) (main_arg5 : IVec S800000 32) (main_arg13 : FVec F S128 .f32) (main_arg14 : FVec F S288x128 .f32) (main_arg15 : FVec F S128 .f32) (main_arg16 : FVec F S128x2 .f32) (main_arg17 : FVec F S2 .f32) (main_arg18 : FVec F S128x2 .f32) (main_arg19 : FVec F S2 .f32) (main_v48 : IVec S_ 1) (main_v49 : FVec F S160x128 .f32) (main_v50 : FVec F S160x128 .f32) : IVec S_ 1 :=
  let main_v51 : IVec S160x128 1 := cmpf .olt main_v49 main_v50
  let main_c_19 : IVec S_ 1 := constantI S_ 1 1#1
  let main_v52 : IVec S_ 1 := (fun x v => Host.reduce IntOp.andi x v reducesTo_S160x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S288x128 .f32 := Host.absf main_arg14
  let main_cst_22 : FVec F S_ .f32 := constant S_ .f32 0x7F800000#32
  let main_v60 : FVec F S288x128 .f32 := broadcastInDim S288x128 ![] bcast_S_S288x128 main_cst_22
  let main_v61 : IVec S288x128 1 := cmpf .olt main_v59 main_v60
  let main_c_23 : IVec S_ 1 := constantI S_ 1 1#1
  let main_v62 : IVec S_ 1 := (fun x v => Host.reduce IntOp.andi x v reducesTo_S288x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg4 main_arg5 main_arg16 main_arg17 main_arg18 main_arg19 main_v63 main_v67

def fn_part2 {F : FTy → Type} [FloatOps F] (main_arg4 : IVec S800000 32) (main_arg5 : IVec S800000 32) (main_arg9 : FVec F S32 .f32) (main_arg10 : FVec F S32x32 .f32) (main_arg11 : FVec F S32 .f32) (main_arg12 : FVec F S160x128 .f32) (main_arg13 : FVec F S128 .f32) (main_arg14 : FVec F S288x128 .f32) (main_arg15 : FVec F S128 .f32) (main_arg16 : FVec F S128x2 .f32) (main_arg17 : FVec F S2 .f32) (main_arg18 : FVec F S128x2 .f32) (main_arg19 : FVec F S2 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg10
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S160x128 .f32 := Host.absf main_arg12
  let main_cst_18 : FVec F S_ .f32 := constant S_ .f32 0x7F800000#32
  let main_v50 : FVec F S160x128 .f32 := broadcastInDim S160x128 ![] bcast_S_S160x128 main_cst_18
  fn_part3 (F := F) main_arg4 main_arg5 main_arg13 main_arg14 main_arg15 main_arg16 main_arg17 main_arg18 main_arg19 main_v48 main_v49 main_v50

def fn_part1 {F : FTy → Type} [FloatOps F] (main_arg4 : IVec S800000 32) (main_arg5 : IVec S800000 32) (main_arg6 : FVec F S128x128 .f32) (main_arg7 : FVec F S128 .f32) (main_arg8 : FVec F S32x32 .f32) (main_arg9 : FVec F S32 .f32) (main_arg10 : FVec F S32x32 .f32) (main_arg11 : FVec F S32 .f32) (main_arg12 : FVec F S160x128 .f32) (main_arg13 : FVec F S128 .f32) (main_arg14 : FVec F S288x128 .f32) (main_arg15 : FVec F S128 .f32) (main_arg16 : FVec F S128x2 .f32) (main_arg17 : FVec F S2 .f32) (main_arg18 : FVec F S128x2 .f32) (main_arg19 : FVec F S2 .f32) (main_v13 : IVec S_ 1) (main_v16 : IVec S800000x32 1) : IVec S_ 1 :=
  let main_c_5 : IVec S_ 1 := constantI S_ 1 1#1
  let main_v17 : IVec S_ 1 := (fun x v => Host.reduce IntOp.andi x v reducesTo_S800000x32_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S32x32 .f32 := Host.absf main_arg8
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg4 main_arg5 main_arg9 main_arg10 main_arg11 main_arg12 main_arg13 main_arg14 main_arg15 main_arg16 main_arg17 main_arg18 main_arg19 main_v33

def fn {F : FTy → Type} [FloatOps F] (main_arg0 : FVec F S50000x128 .f32) (main_arg1 : FVec F S800000x128 .f32) (main_arg2 : FVec F S50000x32 .f32) (main_arg3 : FVec F S800000x32 .f32) (main_arg4 : IVec S800000 32) (main_arg5 : IVec S800000 32) (main_arg6 : FVec F S128x128 .f32) (main_arg7 : FVec F S128 .f32) (main_arg8 : FVec F S32x32 .f32) (main_arg9 : FVec F S32 .f32) (main_arg10 : FVec F S32x32 .f32) (main_arg11 : FVec F S32 .f32) (main_arg12 : FVec F S160x128 .f32) (main_arg13 : FVec F S128 .f32) (main_arg14 : FVec F S288x128 .f32) (main_arg15 : FVec F S128 .f32) (main_arg16 : FVec F S128x2 .f32) (main_arg17 : FVec F S2 .f32) (main_arg18 : FVec F S128x2 .f32) (main_arg19 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S50000x32 .f32 := Host.absf main_arg2
  let main_cst_2 : FVec F S_ .f32 := constant S_ .f32 0x7F800000#32
  let main_v10 : FVec F S50000x32 .f32 := broadcastInDim S50000x32 ![] bcast_S_S50000x32 main_cst_2
  let main_v11 : IVec S50000x32 1 := cmpf .olt main_v9 main_v10
  let main_c_3 : IVec S_ 1 := constantI S_ 1 1#1
  let main_v12 : IVec S_ 1 := (fun x v => Host.reduce IntOp.andi x v reducesTo_S50000x32_S_d0_1 h_S_) main_v11 main_c_3
  let main_v13 : IVec S_ 1 := andi main_v8 main_v12
  let main_v14 : FVec F S800000x32 .f32 := Host.absf main_arg3
  let main_cst_4 : FVec F S_ .f32 := constant S_ .f32 0x7F800000#32
  let main_v15 : FVec F S800000x32 .f32 := broadcastInDim S800000x32 ![] bcast_S_S800000x32 main_cst_4
  let main_v16 : IVec S800000x32 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S800000x128 : Shape := ⟨2, ![800000, 128]⟩
abbrev S50000x32 : Shape := ⟨2, ![50000, 32]⟩
abbrev S800000x32 : Shape := ⟨2, ![800000, 32]⟩
abbrev S800000 : Shape := ⟨1, ![800000]⟩
abbrev S128x128 : Shape := ⟨2, ![128, 128]⟩
abbrev S128 : Shape := ⟨1, ![128]⟩
abbrev S32x32 : Shape := ⟨2, ![32, 32]⟩
abbrev S32 : Shape := ⟨1, ![32]⟩
abbrev S160x128 : Shape := ⟨2, ![160, 128]⟩
abbrev S288x128 : Shape := ⟨2, ![288, 128]⟩
abbrev S128x2 : Shape := ⟨2, ![128, 2]⟩
abbrev S2 : Shape := ⟨1, ![2]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S8000x128 : Shape := ⟨2, ![8000, 128]⟩
abbrev S50000x2 : Shape := ⟨2, ![50000, 2]⟩
abbrev S5000x128 : Shape := ⟨2, ![5000, 128]⟩
abbrev S5000x32 : Shape := ⟨2, ![5000, 32]⟩
abbrev S5000x2 : Shape := ⟨2, ![5000, 2]⟩
abbrev S1x128 : Shape := ⟨2, ![1, 128]⟩
abbrev S1x32 : Shape := ⟨2, ![1, 32]⟩
abbrev S5000x160 : Shape := ⟨2, ![5000, 160]⟩
abbrev S1x2 : Shape := ⟨2, ![1, 2]⟩
abbrev S800000x2 : Shape := ⟨2, ![800000, 2]⟩
abbrev S8000x32 : Shape := ⟨2, ![8000, 32]⟩
abbrev S8000x2 : Shape := ⟨2, ![8000, 2]⟩
abbrev S8000x256 : Shape := ⟨2, ![8000, 256]⟩
abbrev S8000x288 : Shape := ⟨2, ![8000, 288]⟩
abbrev S50000x1 : Shape := ⟨2, ![50000, 1]⟩
abbrev S50000 : Shape := ⟨1, ![50000]⟩

abbrev nBuf : Space → Nat
  | .hbm => 141
  | .vmem => 38
  | .smem => 0
  | _ => 0

abbrev hbmTy0_0 (i : Nat) : BufTy := match i % 128 with
  | 0 => ⟨S50000x128, .f32⟩
  | 1 => ⟨S800000x128, .f32⟩
  | 2 => ⟨S50000x32, .f32⟩
  | 3 => ⟨S800000x32, .f32⟩
  | 4 => ⟨S800000, .i32⟩
  | 5 => ⟨S800000, .i32⟩
  | 6 => ⟨S128x128, .f32⟩
  | 7 => ⟨S128, .f32⟩
  | 8 => ⟨S32x32, .f32⟩
  | 9 => ⟨S32, .f32⟩
  | 10 => ⟨S32x32, .f32⟩
  | 11 => ⟨S32, .f32⟩
  | 12 => ⟨S160x128, .f32⟩
  | 13 => ⟨S128, .f32⟩
  | 14 => ⟨S288x128, .f32⟩
  | 15 => ⟨S128, .f32⟩
  | 16 => ⟨S128x2, .f32⟩
  | 17 => ⟨S2, .f32⟩
  | 18 => ⟨S128x2, .f32⟩
  | 19 => ⟨S2, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S1, .i32⟩
  | 29 => ⟨S_, .i32⟩
  | 30 => ⟨S800000x1, .i32⟩
  | 31 => ⟨S800000x1, .i1⟩
  | 32 => ⟨S1x1, .i32⟩
  | 33 => ⟨S800000x1, .i32⟩
  | 34 => ⟨S800000x1, .i1⟩
  | 35 => ⟨S800000x1, .i1⟩
  | 36 => ⟨S_, .i1⟩
  | 37 => ⟨S800000, .i1⟩
  | 38 => ⟨S800000x128, .f32⟩
  | 39 => ⟨S800000x128, .i1⟩
  | 40 => ⟨S_, .f32⟩
  | 41 => ⟨S800000x128, .f32⟩
  | 42 => ⟨S800000x128, .f32⟩
  | 43 => ⟨S800000x128, .f32⟩
  | 44 => ⟨S_, .f32⟩
  | 45 => ⟨S50000x128, .f32⟩
  | 46 => ⟨S800000x1, .i32⟩
  | 47 => ⟨S50000x128, .f32⟩
  | 48 => ⟨S50000x128, .f32⟩
  | 49 => ⟨S50000x2, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S1, .i32⟩
  | 59 => ⟨S_, .i32⟩
  | 60 => ⟨S800000x1, .i32⟩
  | 61 => ⟨S800000x1, .i1⟩
  | 62 => ⟨S1x1, .i32⟩
  | 63 => ⟨S800000x1, .i32⟩
  | 64 => ⟨S800000x1, .i1⟩
  | 65 => ⟨S800000x1, .i1⟩
  | 66 => ⟨S_, .i1⟩
  | 67 => ⟨S800000, .i1⟩
  | 68 => ⟨S800000x128, .f32⟩
  | 69 => ⟨S800000x128, .i1⟩
  | 70 => ⟨S_, .f32⟩
  | 71 => ⟨S800000x128, .f32⟩
  | 72 => ⟨S800000x128, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S1, .i32⟩
  | 82 => ⟨S_, .i32⟩
  | 83 => ⟨S800000x1, .i32⟩
  | 84 => ⟨S800000x1, .i1⟩
  | 85 => ⟨S1x1, .i32⟩
  | 86 => ⟨S800000x1, .i32⟩
  | 87 => ⟨S800000x1, .i1⟩
  | 88 => ⟨S800000x1, .i1⟩
  | 89 => ⟨S_, .i1⟩
  | 90 => ⟨S800000, .i1⟩
  | 91 => ⟨S800000x128, .f32⟩
  | 92 => ⟨S800000x128, .i1⟩
  | 93 => ⟨S_, .f32⟩
  | 94 => ⟨S800000x128, .f32⟩
  | 95 => ⟨S800000x128, .f32⟩
  | 96 => ⟨S800000x2, .f32⟩
  | 97 => ⟨S50000x1, .f32⟩
  | 98 => ⟨S50000, .f32⟩
  | 99 => ⟨S_, .f32⟩
  | 100 => ⟨S_, .f32⟩
  | 101 => ⟨S_, .f32⟩
  | 102 => ⟨S50000, .f32⟩
  | 103 => ⟨S50000, .f32⟩
  | 104 => ⟨S_, .f32⟩
  | 105 => ⟨S50000, .f32⟩
  | 106 => ⟨S50000, .f32⟩
  | 107 => ⟨S50000x1, .f32⟩
  | 108 => ⟨S50000x1, .f32⟩
  | 109 => ⟨S50000, .f32⟩
  | 110 => ⟨S50000, .f32⟩
  | 111 => ⟨S50000, .f32⟩
  | 112 => ⟨S_, .f32⟩
  | 113 => ⟨S50000, .f32⟩
  | 114 => ⟨S50000, .f32⟩
  | 115 => ⟨S_, .f32⟩
  | 116 => ⟨S50000, .f32⟩
  | 117 => ⟨S50000, .f32⟩
  | 118 => ⟨S50000x1, .f32⟩
  | 119 => ⟨S800000x1, .f32⟩
  | 120 => ⟨S800000, .f32⟩
  | 121 => ⟨S_, .f32⟩
  | 122 => ⟨S_, .f32⟩
  | 123 => ⟨S_, .f32⟩
  | 124 => ⟨S800000, .f32⟩
  | 125 => ⟨S800000, .f32⟩
  | 126 => ⟨S_, .f32⟩
  | 127 => ⟨S800000, .f32⟩
  | _ => ⟨S50000x128, .f32⟩

abbrev hbmTy0_1 (i : Nat) : BufTy := match i % 128 with
  | 0 => ⟨S800000, .f32⟩
  | 1 => ⟨S800000x1, .f32⟩
  | 2 => ⟨S800000x1, .f32⟩
  | 3 => ⟨S800000, .f32⟩
  | 4 => ⟨S800000, .f32⟩
  | 5 => ⟨S800000, .f32⟩
  | 6 => ⟨S_, .f32⟩
  | 7 => ⟨S800000, .f32⟩
  | 8 => ⟨S800000, .f32⟩
  | 9 => ⟨S_, .f32⟩
  | 10 => ⟨S800000, .f32⟩
  | 11 => ⟨S800000, .f32⟩
  | 12 => ⟨S800000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S8000x128, .f32⟩
  | .local _ .vmem, ⟨5, _⟩ => ⟨S8000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x32, .f32⟩
  | .local _ .vmem, ⟨11, _⟩ => ⟨S5000x32, .f32⟩
  | .local _ .vmem, ⟨12, _⟩ => ⟨S128x128, .f32⟩
  | .local _ .vmem, ⟨13, _⟩ => ⟨S128, .f32⟩
  | .local _ .vmem, ⟨14, _⟩ => ⟨S32x32, .f32⟩
  | .local _ .vmem, ⟨15, _⟩ => ⟨S32, .f32⟩
  | .local _ .vmem, ⟨16, _⟩ => ⟨S160x128, .f32⟩
  | .local _ .vmem, ⟨17, _⟩ => ⟨S128, .f32⟩
  | .local _ .vmem, ⟨18, _⟩ => ⟨S128x2, .f32⟩
  | .local _ .vmem, ⟨19, _⟩ => ⟨S2, .f32⟩
  | .local _ .vmem, ⟨20, _⟩ => ⟨S5000x128, .f32⟩
  | .local _ .vmem, ⟨21, _⟩ => ⟨S5000x128, .f32⟩
  | .local _ .vmem, ⟨22, _⟩ => ⟨S5000x2, .f32⟩
  | .local _ .vmem, ⟨23, _⟩ => ⟨S5000x2, .f32⟩
  | .local _ .vmem, ⟨24, _⟩ => ⟨S8000x128, .f32⟩
  | .local _ .vmem, ⟨25, _⟩ => ⟨S8000x128, .f32⟩
  | .local _ .vmem, ⟨26, _⟩ => ⟨S8000x128, .f32⟩
  | .local _ .vmem, ⟨27, _⟩ => ⟨S8000x128, .f32⟩
  | .local _ .vmem, ⟨28, _⟩ => ⟨S8000x32, .f32⟩
  | .local _ .vmem, ⟨29, _⟩ => ⟨S8000x32, .f32⟩
  | .local _ .vmem, ⟨30, _⟩ => ⟨S32x32, .f32⟩
  | .local _ .vmem, ⟨31, _⟩ => ⟨S32, .f32⟩
  | .local _ .vmem, ⟨32, _⟩ => ⟨S288x128, .f32⟩
  | .local _ .vmem, ⟨33, _⟩ => ⟨S128, .f32⟩
  | .local _ .vmem, ⟨34, _⟩ => ⟨S128x2, .f32⟩
  | .local _ .vmem, ⟨35, _⟩ => ⟨S2, .f32⟩
  | .local _ .vmem, ⟨36, _⟩ => ⟨S8000x2, .f32⟩
  | .local _ .vmem, ⟨37, _⟩ => ⟨S8000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v0 : Ref sig .tc := ⟨.hbm, 42, rfl⟩
abbrev main_v1 : Ref sig .tc := ⟨.hbm, 43, rfl⟩
abbrev main_cst : Ref sig .tc := ⟨.hbm, 44, rfl⟩
abbrev main_v2 : Ref sig .tc := ⟨.hbm, 45, rfl⟩
abbrev main_v3 : Ref sig .tc := ⟨.hbm, 46, rfl⟩
abbrev main_v4 : Ref sig .tc := ⟨.hbm, 47, rfl⟩
abbrev main_v5_0 : Ref sig .tc := ⟨.hbm, 48, rfl⟩
abbrev main_v5_1 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v6 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_call2_cst : Ref sig .tc := ⟨.hbm, 93, rfl⟩
abbrev main_call2_v15 : Ref sig .tc := ⟨.hbm, 94, rfl⟩
abbrev main_v7 : Ref sig .tc := ⟨.hbm, 95, rfl⟩
abbrev main_v8 : Ref sig .tc := ⟨.hbm, 96, rfl⟩
abbrev main_v9 : Ref sig .tc := ⟨.hbm, 97, rfl⟩
abbrev main_v10 : Ref sig .tc := ⟨.hbm, 98, rfl⟩
abbrev main_cst_0 : Ref sig .tc := ⟨.hbm, 99, rfl⟩
abbrev main_cst_1 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_v11 : Ref sig .tc := ⟨.hbm, 106, rfl⟩
abbrev main_v12 : Ref sig .tc := ⟨.hbm, 107, rfl⟩
abbrev main_v13 : Ref sig .tc := ⟨.hbm, 108, rfl⟩
abbrev main_v14 : Ref sig .tc := ⟨.hbm, 109, rfl⟩
abbrev main_v15 : Ref sig .tc := ⟨.hbm, 110, rfl⟩
abbrev main_v16 : Ref sig .tc := ⟨.hbm, 111, rfl⟩
abbrev main_cst_2 : Ref sig .tc := ⟨.hbm, 112, rfl⟩
abbrev main_v17 : Ref sig .tc := ⟨.hbm, 113, rfl⟩
abbrev main_v18 : Ref sig .tc := ⟨.hbm, 114, rfl⟩
abbrev main_cst_3 : Ref sig .tc := ⟨.hbm, 115, rfl⟩
abbrev main_v19 : Ref sig .tc := ⟨.hbm, 116, rfl⟩
abbrev main_v20 : Ref sig .tc := ⟨.hbm, 117, rfl⟩
abbrev main_v21 : Ref sig .tc := ⟨.hbm, 118, rfl⟩
abbrev main_v22 : Ref sig .tc := ⟨.hbm, 119, rfl⟩
abbrev main_v23 : Ref sig .tc := ⟨.hbm, 120, rfl⟩
abbrev main_cst_4 : Ref sig .tc := ⟨.hbm, 121, rfl⟩
abbrev main_cst_5 : Ref sig .tc := ⟨.hbm, 122, rfl⟩
abbrev main_call4_v0 : Ref sig .tc := ⟨.hbm, 123, rfl⟩
abbrev main_call4_v1 : Ref sig .tc := ⟨.hbm, 124, rfl⟩
abbrev main_call4_v2 : Ref sig .tc := ⟨.hbm, 125, rfl⟩
abbrev main_call4_v3 : Ref sig .tc := ⟨.hbm, 126, rfl⟩
abbrev main_call4_v4 : Ref sig .tc := ⟨.hbm, 127, rfl⟩
abbrev main_v24 : Ref sig .tc := ⟨.hbm, 128, rfl⟩
abbrev main_v25 : Ref sig .tc := ⟨.hbm, 129, rfl⟩
abbrev main_v26 : Ref sig .tc := ⟨.hbm, 130, rfl⟩
abbrev main_v27 : Ref sig .tc := ⟨.hbm, 131, rfl⟩
abbrev main_v28 : Ref sig .tc := ⟨.hbm, 132, rfl⟩
abbrev main_v29 : Ref sig .tc := ⟨.hbm, 133, rfl⟩
abbrev main_cst_6 : Ref sig .tc := ⟨.hbm, 134, rfl⟩
abbrev main_v30 : Ref sig .tc := ⟨.hbm, 135, rfl⟩
abbrev main_v31 : Ref sig .tc := ⟨.hbm, 136, rfl⟩
abbrev main_cst_7 : Ref sig .tc := ⟨.hbm, 137, rfl⟩
abbrev main_v32 : Ref sig .tc := ⟨.hbm, 138, rfl⟩
abbrev main_v33 : Ref sig .tc := ⟨.hbm, 139, rfl⟩
abbrev main_v34 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg11_1 : Ref sig .tc := ⟨.vmem, 21, rfl⟩
abbrev cc1_stg12_0 : Ref sig .tc := ⟨.vmem, 22, rfl⟩
abbrev cc1_stg12_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg8_0 : Ref sig .tc := ⟨.vmem, 35, rfl⟩
abbrev cc2_stg9_0 : Ref sig .tc := ⟨.vmem, 36, rfl⟩
abbrev cc2_stg9_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem11_1 : DmaSem sig := 21
abbrev cc1_sem12_0 : DmaSem sig := 22
abbrev cc1_sem12_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem8_0 : DmaSem sig := 35
abbrev cc2_sem9_0 : DmaSem sig := 36
abbrev cc2_sem9_1 : DmaSem sig := 37

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S160x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x2 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S2 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S5000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S5000x2 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S288x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x2 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S2 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S8000x2 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x32_S5000x32_0_0 : ∀ a, (![0, 0] : Fin 2 → Nat) a + S5000x32.size a ≤ S5000x32.size a
  h_S5000x32 : 0 < S5000x32.numel
  inb_S32x32_S32x32_0_0 : ∀ a, (![0, 0] : Fin 2 → Nat) a + S32x32.size a ≤ S32x32.size a
  h_S32x32 : 0 < S32x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  concatenates_S5000x128_S5000x32_S5000x160_d1 : Shape.Concatenates [S5000x128, S5000x32] S5000x160 1
  inb_S160x128_S160x128_0_0 : ∀ a, (![0, 0] : Fin 2 → Nat) a + S160x128.size a ≤ S160x128.size a
  h_S160x128 : 0 < S160x128.numel
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  inb_S8000x32_S8000x32_0_0 : ∀ a, (![0, 0] : Fin 2 → Nat) a + S8000x32.size a ≤ S8000x32.size a
  h_S8000x32 : 0 < S8000x32.numel
  broadcasts_S1x32_S8000x32 : S1x32.Broadcasts S8000x32
  concatenates_S8000x128_S8000x128_S8000x256_d1 : Shape.Concatenates [S8000x128, S8000x128] S8000x256 1
  concatenates_S8000x256_S8000x32_S8000x288_d1 : Shape.Concatenates [S8000x256, S8000x32] S8000x288 1
  inb_S288x128_S288x128_0_0 : ∀ a, (![0, 0] : Fin 2 → Nat) a + S288x128.size a ≤ S288x128.size a
  h_S288x128 : 0 < S288x128.numel
  broadcasts_S1x128_S8000x128 : S1x128.Broadcasts S8000x128
  broadcasts_S1x2_S8000x2 : S1x2.Broadcasts S8000x2
  inb_S8000x2_S8000x2_0_0 : ∀ a, (![0, 0] : Fin 2 → Nat) a + S8000x2.size a ≤ S8000x2.size a
  h_S8000x2 : 0 < S8000x2.numel
  slices_S50000x2_S50000x1_0_0 : S50000x2.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S50000x2_S50000x1_0_1 : S50000x2.Slices ![0, 1] S50000x1
  slices_S800000x2_S800000x1_0_0 : S800000x2.Slices ![0, 0] S800000x1
  shapeCasts_S800000x1_S800000 : S800000x1.ShapeCasts S800000
  slices_S800000x2_S800000x1_0_1 : S800000x2.Slices ![0, 1] S800000x1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x32_S32x32_S5000x32_1_0_0_1_n_n_wf : DotDims.WF S5000x32 S32x32 S5000x32 [1] [0] [0] [1] [] []
  dot_S5000x160_S160x128_S5000x128_1_0_0_1_n_n_wf : DotDims.WF S5000x160 S160x128 S5000x128 [1] [0] [0] [1] [] []
  dot_S5000x128_S128x2_S5000x2_1_0_0_1_n_n_wf : DotDims.WF S5000x128 S128x2 S5000x2 [1] [0] [0] [1] [] []
  dot_S8000x32_S32x32_S8000x32_1_0_0_1_n_n_wf : DotDims.WF S8000x32 S32x32 S8000x32 [1] [0] [0] [1] [] []
  dot_S8000x288_S288x128_S8000x128_1_0_0_1_n_n_wf : DotDims.WF S8000x288 S288x128 S8000x128 [1] [0] [0] [1] [] []
  dot_S8000x128_S128x2_S8000x2_1_0_0_1_n_n_wf : DotDims.WF S8000x128 S128x2 S8000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .f32 = 32 ∨ (Rect.block (s := S800000x128) S8000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S800000x128.size a
  hwx0_2 : ∀ i : grid0.Coords, EltTy.bits .f32 = 32 ∨ (Rect.block (s := S800000x128) S8000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S50000x32.size a
  hwx1_2 : ∀ i : grid1.Coords, EltTy.bits .f32 = 32 ∨ (Rect.block (s := S50000x32) S5000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x32.size a ≤ S32x32.size a
  hwx1_5 : ∀ i : grid1.Coords, EltTy.bits .f32 = 32 ∨ (Rect.block (s := S32x32) S32x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32.size a ≤ S32.size a
  hwx1_6 : ∀ i : grid1.Coords, EltTy.bits .f32 = 32 ∨ (Rect.block (s := S32) S32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S160x128.size a ≤ S160x128.size a
  hwx1_7 : ∀ i : grid1.Coords, EltTy.bits .f32 = 32 ∨ (Rect.block (s := S160x128) S160x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x2.size a ≤ S128x2.size a
  hwx1_9 : ∀ i : grid1.Coords, EltTy.bits .f32 = 32 ∨ (Rect.block (s := S128x2) S128x2.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S2.size a ≤ S2.size a
  hwx1_10 : ∀ i : grid1.Coords, EltTy.bits .f32 = 32 ∨ (Rect.block (s := S2) S2.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x128.size a ≤ S50000x128.size a
  hwx1_11 : ∀ i : grid1.Coords, EltTy.bits .f32 = 32 ∨ (Rect.block (s := S50000x128) S5000x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S5000x2.size a ≤ S50000x2.size a
  hwx1_12 : ∀ i : grid1.Coords, EltTy.bits .f32 = 32 ∨ (Rect.block (s := S50000x2) S5000x2.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S800000x128.size a
  hwx2_0 : ∀ i : grid2.Coords, EltTy.bits .f32 = 32 ∨ (Rect.block (s := S800000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S800000x128.size a
  hwx2_1 : ∀ i : grid2.Coords, EltTy.bits .f32 = 32 ∨ (Rect.block (s := S800000x128) S8000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x32.size a ≤ S800000x32.size a
  hwx2_2 : ∀ i : grid2.Coords, EltTy.bits .f32 = 32 ∨ (Rect.block (s := S800000x32) S8000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32.size a ≤ S32.size a
  hwx2_4 : ∀ i : grid2.Coords, EltTy.bits .f32 = 32 ∨ (Rect.block (s := S32) S32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S288x128.size a ≤ S288x128.size a
  hwx2_5 : ∀ i : grid2.Coords, EltTy.bits .f32 = 32 ∨ (Rect.block (s := S288x128) S288x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x2.size a ≤ S128x2.size a
  hwx2_7 : ∀ i : grid2.Coords, EltTy.bits .f32 = 32 ∨ (Rect.block (s := S128x2) S128x2.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S2.size a ≤ S2.size a
  hwx2_8 : ∀ i : grid2.Coords, EltTy.bits .f32 = 32 ∨ (Rect.block (s := S2) S2.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S8000x2.size a ≤ S800000x2.size a
  hwx2_9 : ∀ i : grid2.Coords, EltTy.bits .f32 = 32 ∨ (Rect.block (s := S800000x2) S8000x2.size (cc2_transform_9 i) (hinb2_9 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x160_S160x128_S5000x128_1_0_0_1_n_n : DotDims S5000x160 S160x128 S5000x128 where
  lhsContracting := [1]
  rhsContracting := [0]
  lhsNonContracting := [0]
  rhsNonContracting := [1]
  lhsBatch := []
  rhsBatch := []
  wf := dot_S5000x160_S160x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def dot_S8000x32_S32x32_S8000x32_1_0_0_1_n_n : DotDims S8000x32 S32x32 S8000x32 where
  lhsContracting := [1]
  rhsContracting := [0]
  lhsNonContracting := [0]
  rhsNonContracting := [1]
  lhsBatch := []
  rhsBatch := []
  wf := dot_S8000x32_S32x32_S8000x32_1_0_0_1_n_n_wf
def dot_S8000x288_S288x128_S8000x128_1_0_0_1_n_n : DotDims S8000x288 S288x128 S8000x128 where
  lhsContracting := [1]
  rhsContracting := [0]
  lhsNonContracting := [0]
  rhsNonContracting := [1]
  lhsBatch := []
  rhsBatch := []
  wf := dot_S8000x288_S288x128_S8000x128_1_0_0_1_n_n_wf
def dot_S8000x128_S128x2_S8000x2_1_0_0_1_n_n : DotDims S8000x128 S128x2 S8000x2 where
  lhsContracting := [1]
  rhsContracting := [0]
  lhsNonContracting := [0]
  rhsNonContracting := [1]
  lhsBatch := []
  rhsBatch := []
  wf := dot_S8000x128_S128x2_S8000x2_1_0_0_1_n_n_wf

abbrev win0_0 : Pipeline.Window sig grid0 :=
  Pipeline.Window.ofSpec (Memref.whole main_v0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S5000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S32x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S160x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg13) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg16) S128x2.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg17) S2.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v5_0) S5000x128.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v5_1) S5000x2.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v6) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S8000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S288x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg15) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg18) S128x2.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg19) S2.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v8) S8000x2.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S50000x32 : Shape := ⟨2, ![50000, 32]⟩
abbrev S800000x32 : Shape := ⟨2, ![800000, 32]⟩
abbrev S800000 : Shape := ⟨1, ![800000]⟩
abbrev S128x128 : Shape := ⟨2, ![128, 128]⟩
abbrev S128 : Shape := ⟨1, ![128]⟩
abbrev S32x32 : Shape := ⟨2, ![32, 32]⟩
abbrev S32 : Shape := ⟨1, ![32]⟩
abbrev S160x128 : Shape := ⟨2, ![160, 128]⟩
abbrev S288x128 : Shape := ⟨2, ![288, 128]⟩
abbrev S128x2 : Shape := ⟨2, ![128, 2]⟩
abbrev S2 : Shape := ⟨1, ![2]⟩
abbrev S_ : Shape := ⟨0, ![]⟩
abbrev S800000x1 : Shape := ⟨2, ![800000, 1]⟩
abbrev S1x128 : Shape := ⟨2, ![1, 128]⟩
abbrev S1x32 : Shape := ⟨2, ![1, 32]⟩
abbrev S50000x160 : Shape := ⟨2, ![50000, 160]⟩
abbrev S50000x2 : Shape := ⟨2, ![50000, 2]⟩
abbrev S1x2 : Shape := ⟨2, ![1, 2]⟩
abbrev S800000x256 : Shape := ⟨2, ![800000, 256]⟩
abbrev S800000x288 : Shape := ⟨2, ![800000, 288]⟩
abbrev S800000x2 : Shape := ⟨2, ![800000, 2]⟩
abbrev S50000x1 : Shape := ⟨2, ![50000, 1]⟩
abbrev S50000 : Shape := ⟨1, ![50000]⟩

abbrev nBuf : Space → Nat
  | .hbm => 149
  | .vmem => 0
  | .smem => 0
  | _ => 0

abbrev hbmTy0_0 (i : Nat) : BufTy := match i % 128 with
  | 0 => ⟨S50000x128, .f32⟩
  | 1 => ⟨S800000x128, .f32⟩
  | 2 => ⟨S50000x32, .f32⟩
  | 3 => ⟨S800000x32, .f32⟩
  | 4 => ⟨S800000, .i32⟩
  | 5 => ⟨S800000, .i32⟩
  | 6 => ⟨S128x128, .f32⟩
  | 7 => ⟨S128, .f32⟩
  | 8 => ⟨S32x32, .f32⟩
  | 9 => ⟨S32, .f32⟩
  | 10 => ⟨S32x32, .f32⟩
  | 11 => ⟨S32, .f32⟩
  | 12 => ⟨S160x128, .f32⟩
  | 13 => ⟨S128, .f32⟩
  | 14 => ⟨S288x128, .f32⟩
  | 15 => ⟨S128, .f32⟩
  | 16 => ⟨S128x2, .f32⟩
  | 17 => ⟨S2, .f32⟩
  | 18 => ⟨S128x2, .f32⟩
  | 19 => ⟨S2, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S800000x128, .f32⟩
  | 30 => ⟨S_, .f32⟩
  | 31 => ⟨S800000x128, .f32⟩
  | 32 => ⟨S800000x128, .f32⟩
  | 33 => ⟨S_, .f32⟩
  | 34 => ⟨S50000x128, .f32⟩
  | 35 => ⟨S800000x1, .i32⟩
  | 36 => ⟨S50000x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S50000x32, .f32⟩
  | 46 => ⟨S1x32, .f32⟩
  | 47 => ⟨S50000x32, .f32⟩
  | 48 => ⟨S50000x32, .f32⟩
  | 49 => ⟨S_, .f32⟩
  | 50 => ⟨S50000x32, .f32⟩
  | 51 => ⟨S50000x32, .f32⟩
  | 52 => ⟨S800000x32, .f32⟩
  | 53 => ⟨S1x32, .f32⟩
  | 54 => ⟨S800000x32, .f32⟩
  | 55 => ⟨S800000x32, .f32⟩
  | 56 => ⟨S_, .f32⟩
  | 57 => ⟨S800000x32, .f32⟩
  | 58 => ⟨S800000x32, .f32⟩
  | 59 => ⟨S50000x160, .f32⟩
  | 60 => ⟨S50000x128, .f32⟩
  | 61 => ⟨S1x128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S50000x2, .f32⟩
  | 68 => ⟨S1x2, .f32⟩
  | 69 => ⟨S50000x2, .f32⟩
  | 70 => ⟨S50000x2, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x128, .f32⟩
  | 89 => ⟨S800000x256, .f32⟩
  | 90 => ⟨S_, .f32⟩
  | 91 => ⟨S800000x256, .f32⟩
  | 92 => ⟨S800000x256, .f32⟩
  | 93 => ⟨S800000x288, .f32⟩
  | 94 => ⟨S800000x128, .f32⟩
  | 95 => ⟨S1x128, .f32⟩
  | 96 => ⟨S800000x128, .f32⟩
  | 97 => ⟨S800000x128, .f32⟩
  | 98 => ⟨S_, .f32⟩
  | 99 => ⟨S800000x128, .f32⟩
  | 100 => ⟨S800000x128, .f32⟩
  | 101 => ⟨S800000x2, .f32⟩
  | 102 => ⟨S1x2, .f32⟩
  | 103 => ⟨S800000x2, .f32⟩
  | 104 => ⟨S800000x2, .f32⟩
  | 105 => ⟨S50000x1, .f32⟩
  | 106 => ⟨S50000, .f32⟩
  | 107 => ⟨S_, .f32⟩
  | 108 => ⟨S_, .f32⟩
  | 109 => ⟨S_, .f32⟩
  | 110 => ⟨S50000, .f32⟩
  | 111 => ⟨S50000, .f32⟩
  | 112 => ⟨S_, .f32⟩
  | 113 => ⟨S50000, .f32⟩
  | 114 => ⟨S50000, .f32⟩
  | 115 => ⟨S50000x1, .f32⟩
  | 116 => ⟨S50000x1, .f32⟩
  | 117 => ⟨S50000, .f32⟩
  | 118 => ⟨S50000, .f32⟩
  | 119 => ⟨S50000, .f32⟩
  | 120 => ⟨S_, .f32⟩
  | 121 => ⟨S50000, .f32⟩
  | 122 => ⟨S50000, .f32⟩
  | 123 => ⟨S_, .f32⟩
  | 124 => ⟨S50000, .f32⟩
  | 125 => ⟨S50000, .f32⟩
  | 126 => ⟨S50000x1, .f32⟩
  | 127 => ⟨S800000x1, .f32⟩
  | _ => ⟨S50000x128, .f32⟩

abbrev hbmTy0_1 (i : Nat) : BufTy := match i % 128 with
  | 0 => ⟨S800000, .f32⟩
  | 1 => ⟨S_, .f32⟩
  | 2 => ⟨S_, .f32⟩
  | 3 => ⟨S_, .f32⟩
  | 4 => ⟨S800000, .f32⟩
  | 5 => ⟨S800000, .f32⟩
  | 6 => ⟨S_, .f32⟩
  | 7 => ⟨S800000, .f32⟩
  | 8 => ⟨S800000, .f32⟩
  | 9 => ⟨S800000x1, .f32⟩
  | 10 => ⟨S800000x1, .f32⟩
  | 11 => ⟨S800000, .f32⟩
  | 12 => ⟨S800000, .f32⟩
  | 13 => ⟨S800000, .f32⟩
  | 14 => ⟨S_, .f32⟩
  | 15 => ⟨S800000, .f32⟩
  | 16 => ⟨S800000, .f32⟩
  | 17 => ⟨S_, .f32⟩
  | 18 => ⟨S800000, .f32⟩
  | 19 => ⟨S800000, .f32⟩
  | 20 => ⟨S800000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_call0_cst : Ref sig .tc := ⟨.hbm, 30, rfl⟩
abbrev main_call0_v0 : Ref sig .tc := ⟨.hbm, 31, rfl⟩
abbrev main_v8 : Ref sig .tc := ⟨.hbm, 32, rfl⟩
abbrev main_cst : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_call1_cst : Ref sig .tc := ⟨.hbm, 42, rfl⟩
abbrev main_call1_v0 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_call2_cst : Ref sig .tc := ⟨.hbm, 49, rfl⟩
abbrev main_call2_v0 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_call3_cst : Ref sig .tc := ⟨.hbm, 56, rfl⟩
abbrev main_call3_v0 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_call4_cst : Ref sig .tc := ⟨.hbm, 64, rfl⟩
abbrev main_call4_v0 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_c_1 : Ref sig .tc := ⟨.hbm, 71, rfl⟩
abbrev main_v38 : Ref sig .tc := ⟨.hbm, 72, rfl⟩
abbrev main_v39 : Ref sig .tc := ⟨.hbm, 73, rfl⟩
abbrev main_c_2 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_c_3 : Ref sig .tc := ⟨.hbm, 80, rfl⟩
abbrev main_v45 : Ref sig .tc := ⟨.hbm, 81, rfl⟩
abbrev main_v46 : Ref sig .tc := ⟨.hbm, 82, rfl⟩
abbrev main_c_4 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_call5_cst : Ref sig .tc := ⟨.hbm, 90, rfl⟩
abbrev main_call5_v0 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_call6_cst : Ref sig .tc := ⟨.hbm, 98, rfl⟩
abbrev main_call6_v0 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_5 : Ref sig .tc := ⟨.hbm, 107, rfl⟩
abbrev main_cst_6 : Ref sig .tc := ⟨.hbm, 108, rfl⟩
abbrev main_call7_v0 : Ref sig .tc := ⟨.hbm, 109, rfl⟩
abbrev main_call7_v1 : Ref sig .tc := ⟨.hbm, 110, rfl⟩
abbrev main_call7_v2 : Ref sig .tc := ⟨.hbm, 111, rfl⟩
abbrev main_call7_v3 : Ref sig .tc := ⟨.hbm, 112, rfl⟩
abbrev main_call7_v4 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_cst_7 : Ref sig .tc := ⟨.hbm, 120, rfl⟩
abbrev main_v72 : Ref sig .tc := ⟨.hbm, 121, rfl⟩
abbrev main_v73 : Ref sig .tc := ⟨.hbm, 122, rfl⟩
abbrev main_cst_8 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_cst_9 : Ref sig .tc := ⟨.hbm, 129, rfl⟩
abbrev main_cst_10 : Ref sig .tc := ⟨.hbm, 130, rfl⟩
abbrev main_call8_v0 : Ref sig .tc := ⟨.hbm, 131, rfl⟩
abbrev main_call8_v1 : Ref sig .tc := ⟨.hbm, 132, rfl⟩
abbrev main_call8_v2 : Ref sig .tc := ⟨.hbm, 133, rfl⟩
abbrev main_call8_v3 : Ref sig .tc := ⟨.hbm, 134, rfl⟩
abbrev main_call8_v4 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_cst_11 : Ref sig .tc := ⟨.hbm, 142, rfl⟩
abbrev main_v85 : Ref sig .tc := ⟨.hbm, 143, rfl⟩
abbrev main_v86 : Ref sig .tc := ⟨.hbm, 144, rfl⟩
abbrev main_cst_12 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S1x32_S800000x32_0_1 : S1x32.BroadcastsInDim S800000x32 (![0, 1] : Fin 2 → Fin S800000x32.rank)
  bcast_S_S800000x32 : S_.BroadcastsInDim S800000x32 (![] : Fin 0 → Fin S800000x32.rank)
  concatenates_S50000x128_S50000x32_S50000x160_d1 : Shape.Concatenates [S50000x128, S50000x32] S50000x160 1
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  concatenates_S800000x128_S800000x128_S800000x256_d1 : Shape.Concatenates [S800000x128, S800000x128] S800000x256 1
  bcast_S_S800000x256 : S_.BroadcastsInDim S800000x256 (![] : Fin 0 → Fin S800000x256.rank)
  concatenates_S800000x256_S800000x32_S800000x288_d1 : Shape.Concatenates [S800000x256, S800000x32] S800000x288 1
  bcast_S1x128_S800000x128_0_1 : S1x128.BroadcastsInDim S800000x128 (![0, 1] : Fin 2 → Fin S800000x128.rank)
  bcast_S1x2_S800000x2_0_1 : S1x2.BroadcastsInDim S800000x2 (![0, 1] : Fin 2 → Fin S800000x2.rank)
  slices_S50000x2_S50000x1_0_0 : S50000x2.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S50000x2_S50000x1_0_1 : S50000x2.Slices ![0, 1] S50000x1
  slices_S800000x2_S800000x1_0_0 : S800000x2.Slices ![0, 0] S800000x1
  shapeCasts_S800000x1_S800000 : S800000x1.ShapeCasts S800000
  slices_S800000x2_S800000x1_0_1 : S800000x2.Slices ![0, 1] S800000x1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x32_S32x32_S50000x32_1_0_0_1_n_n_wf : DotDims.WF S50000x32 S32x32 S50000x32 [1] [0] [0] [1] [] []
  dot_S800000x32_S32x32_S800000x32_1_0_0_1_n_n_wf : DotDims.WF S800000x32 S32x32 S800000x32 [1] [0] [0] [1] [] []
  dot_S50000x160_S160x128_S50000x128_1_0_0_1_n_n_wf : DotDims.WF S50000x160 S160x128 S50000x128 [1] [0] [0] [1] [] []
  dot_S50000x128_S128x2_S50000x2_1_0_0_1_n_n_wf : DotDims.WF S50000x128 S128x2 S50000x2 [1] [0] [0] [1] [] []
  dot_S800000x288_S288x128_S800000x128_1_0_0_1_n_n_wf : DotDims.WF S800000x288 S288x128 S800000x128 [1] [0] [0] [1] [] []
  dot_S800000x128_S128x2_S800000x2_1_0_0_1_n_n_wf : DotDims.WF S800000x128 S128x2 S800000x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf
def dot_S800000x32_S32x32_S800000x32_1_0_0_1_n_n : DotDims S800000x32 S32x32 S800000x32 where
  lhsContracting := [1]
  rhsContracting := [0]
  lhsNonContracting := [0]
  rhsNonContracting := [1]
  lhsBatch := []
  rhsBatch := []
  wf := dot_S800000x32_S32x32_S800000x32_1_0_0_1_n_n_wf
def dot_S50000x160_S160x128_S50000x128_1_0_0_1_n_n : DotDims S50000x160 S160x128 S50000x128 where
  lhsContracting := [1]
  rhsContracting := [0]
  lhsNonContracting := [0]
  rhsNonContracting := [1]
  lhsBatch := []
  rhsBatch := []
  wf := dot_S50000x160_S160x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf
def dot_S800000x288_S288x128_S800000x128_1_0_0_1_n_n : DotDims S800000x288 S288x128 S800000x128 where
  lhsContracting := [1]
  rhsContracting := [0]
  lhsNonContracting := [0]
  rhsNonContracting := [1]
  lhsBatch := []
  rhsBatch := []
  wf := dot_S800000x288_S288x128_S800000x128_1_0_0_1_n_n_wf
def dot_S800000x128_S128x2_S800000x2_1_0_0_1_n_n : DotDims S800000x128 S128x2 S800000x2 where
  lhsContracting := [1]
  rhsContracting := [0]
  lhsNonContracting := [0]
  rhsNonContracting := [1]
  lhsBatch := []
  rhsBatch := []
  wf := dot_S800000x128_S128x2_S800000x2_1_0_0_1_n_n_wf

class Facts : Prop extends Facts₀ where

variable [Facts]
-- ==== Proof.Spec.lean ====
/-
  The arithmetic both programs perform, written once over the extended reals and row by row.

  Every float array here is a matrix of rows; every layer acts on each row by itself: an affine map
  `row ↦ row · W + b`, a rectifier `max · 0`, a sum of two matrices, and the concatenation of two rows.
  Because a layer never mixes rows, it commutes with taking a band of consecutive rows out of a matrix
  (`rows`): the layer of a band is the band of the layer. That is the whole reason a kernel that walks a
  matrix band by band computes what a whole-matrix program computes.
-/
import Idealize.ShloMosaic.PureOps.Ideal
import Idealize.ShloMosaic.Lib.ValueIdx

noncomputable section

open scoped BigOperators

namespace Cert.Spec

open Idealize.ShloMosaic Idealize.ShloMosaic.ValueIdx

/-- A matrix of `R` rows and `C` columns of extended reals, indexed the way the programs index a rank-2 array. -/
abbrev Mat (R C : ℕ) : Type := (⟨2, ![R, C]⟩ : Shape).Idx → EReal
/-- A vector of `C` extended reals, indexed the way the programs index a rank-1 array. -/
abbrev Vc (C : ℕ) : Type := (⟨1, ![C]⟩ : Shape).Idx → EReal

/-- The row coordinate of a matrix index. -/
def rowOf {R C : ℕ} (i : (⟨2, ![R, C]⟩ : Shape).Idx) : Fin R := ⟨(i 0).val, idx2_lt0 i⟩
/-- The column coordinate of a matrix index. -/
def colOf {R C : ℕ} (i : (⟨2, ![R, C]⟩ : Shape).Idx) : Fin C := ⟨(i 1).val, idx2_lt1 i⟩

@[simp] theorem rowOf_ix2 {R C : ℕ} (r : Fin R) (c : Fin C) : rowOf (ix2 r c) = r := rfl
@[simp] theorem colOf_ix2 {R C : ℕ} (r : Fin R) (c : Fin C) : colOf (ix2 r c) = c := rfl
theorem ix2_rowOf_colOf {R C : ℕ} (i : (⟨2, ![R, C]⟩ : Shape).Idx) : ix2 (rowOf i) (colOf i) = i := by
  funext a; match a with | ⟨0, _⟩ => rfl | ⟨1, _⟩ => rfl

/-- The number zero as the f32 word `0x00000000` both programs write for it. -/
def zero : EReal := Ideal.ofBits .f32 0x00000000#32

/-- `A · W + b`: entry `(r, j)` is the sum over `k` of `A r k · W k j`, plus `b j`. -/
def affine {R K M : ℕ} (A : Mat R K) (W : Mat K M) (b : Vc M) : Mat R M :=
  fun i => (∑ k : Fin K, A (ix2 (rowOf i) k) * W (ix2 k (colOf i))) + b (ix1 (colOf i))

/-- The rectifier, entry by entry: `max x 0`. -/
def relu {R C : ℕ} (A : Mat R C) : Mat R C := fun i => max (A i) zero

/-- The sum of two matrices, entry by entry. -/
def add {R C : ℕ} (A B : Mat R C) : Mat R C := fun i => A i + B i

/-- Two matrices with the same rows laid side by side: columns below `A` come from the first, the rest from the second. -/
def cat {R A B : ℕ} (C : ℕ) (hC : A + B = C) (x : Mat R A) (y : Mat R B) : Mat R C :=
  fun i => if h : (colOf i).val < A then x (ix2 (rowOf i) ⟨(colOf i).val, h⟩)
    else y (ix2 (rowOf i) ⟨(colOf i).val - A, by have := (colOf i).isLt; omega⟩)

/-- The band of `R0` consecutive rows of `A` that starts at row `t * R0`. -/
def rows {R C : ℕ} (R0 t : ℕ) (h : t * R0 + R0 ≤ R) (A : Mat R C) : Mat R0 C :=
  fun i => A (ix2 ⟨t * R0 + (rowOf i).val, by have := (rowOf i).isLt; omega⟩ (colOf i))

theorem rows_apply {R C : ℕ} (R0 t : ℕ) (h : t * R0 + R0 ≤ R) (A : Mat R C) (r : Fin R0) (c : Fin C) :
    rows R0 t h A (ix2 r c) = A (ix2 ⟨t * R0 + r.val, by have := r.isLt; omega⟩ c) := rfl

/-! ## A layer of a band is the band of the layer -/

theorem affine_rows {R K M : ℕ} (R0 t : ℕ) (h : t * R0 + R0 ≤ R) (A : Mat R K) (W : Mat K M) (b : Vc M) :
    affine (rows R0 t h A) W b = rows R0 t h (affine A W b) := rfl

theorem relu_rows {R C : ℕ} (R0 t : ℕ) (h : t * R0 + R0 ≤ R) (A : Mat R C) :
    relu (rows R0 t h A) = rows R0 t h (relu A) := rfl

theorem add_rows {R C : ℕ} (R0 t : ℕ) (h : t * R0 + R0 ≤ R) (A B : Mat R C) :
    add (rows R0 t h A) (rows R0 t h B) = rows R0 t h (add A B) := rfl

theorem cat_rows {R A B : ℕ} (C : ℕ) (hC : A + B = C) (R0 t : ℕ) (h : t * R0 + R0 ≤ R) (x : Mat R A) (y : Mat R B) :
    cat C hC (rows R0 t h x) (rows R0 t h y) = rows R0 t h (cat C hC x y) := rfl

/-- Every entry of an edge-endpoint vector is a row number of a table of 50000 rows: at least 0 and below 50000,
    read as signed integers. -/
def InRange {E : ℕ} (a : (⟨1, ![E]⟩ : Shape).Idx → BitVec 32) : Prop :=
  ∀ e, IntOp.cmpi .sge (a e) 0#32 = 1#1 ∧ IntOp.cmpi .slt (a e) 50000#32 = 1#1

/-! ## The three kernels' layers -/

/-- The edge message: the rectified sum of the gathered source-node row and the edge's own row. -/
def msg {R : ℕ} (ns ef : Mat R 128) : Mat R 128 := relu (add ns ef)

/-- The node update: the rectified affine image of the node's row plus what its edges sent. -/
def nodeX {R : ℕ} (nf ag : Mat R 128) (W : Mat 128 128) (b : Vc 128) : Mat R 128 := relu (affine (add nf ag) W b)

/-- A rectified affine layer (both distance projections, and both hidden layers). -/
def dense {R K M : ℕ} (A : Mat R K) (W : Mat K M) (b : Vc M) : Mat R M := relu (affine A W b)

/-- The node head: the hidden layer over the node state beside its projected distances, then the two logits. -/
def nodeO {R : ℕ} (x : Mat R 128) (nd : Mat R 32) (Wf : Mat 160 128) (bf : Vc 128) (Wp : Mat 128 2) (bp : Vc 2) : Mat R 2 :=
  affine (dense (cat 160 rfl x nd) Wf bf) Wp bp

/-- The edge head: the two endpoint states side by side and rectified, beside the projected distances, a hidden
    layer, then the two logits. -/
def edgeO {R : ℕ} (xs xd : Mat R 128) (ed : Mat R 32) (Wf : Mat 288 128) (bf : Vc 128) (Wp : Mat 128 2) (bp : Vc 2) : Mat R 2 :=
  affine (dense (cat 288 rfl (relu (cat 256 rfl xs xd)) ed) Wf bf) Wp bp

theorem msg_rows {R : ℕ} (R0 t : ℕ) (h : t * R0 + R0 ≤ R) (ns ef : Mat R 128) :
    msg (rows R0 t h ns) (rows R0 t h ef) = rows R0 t h (msg ns ef) := rfl
theorem nodeX_rows {R : ℕ} (R0 t : ℕ) (h : t * R0 + R0 ≤ R) (nf ag : Mat R 128) (W : Mat 128 128) (b : Vc 128) :
    nodeX (rows R0 t h nf) (rows R0 t h ag) W b = rows R0 t h (nodeX nf ag W b) := rfl
theorem dense_rows {R K M : ℕ} (R0 t : ℕ) (h : t * R0 + R0 ≤ R) (A : Mat R K) (W : Mat K M) (b : Vc M) :
    dense (rows R0 t h A) W b = rows R0 t h (dense A W b) := rfl
theorem nodeO_rows {R : ℕ} (R0 t : ℕ) (h : t * R0 + R0 ≤ R) (x : Mat R 128) (nd : Mat R 32) (Wf : Mat 160 128) (bf : Vc 128)
    (Wp : Mat 128 2) (bp : Vc 2) :
    nodeO (rows R0 t h x) (rows R0 t h nd) Wf bf Wp bp = rows R0 t h (nodeO x nd Wf bf Wp bp) := rfl
theorem edgeO_rows {R : ℕ} (R0 t : ℕ) (h : t * R0 + R0 ≤ R) (xs xd : Mat R 128) (ed : Mat R 32) (Wf : Mat 288 128) (bf : Vc 128)
    (Wp : Mat 128 2) (bp : Vc 2) :
    edgeO (rows R0 t h xs) (rows R0 t h xd) (rows R0 t h ed) Wf bf Wp bp = rows R0 t h (edgeO xs xd ed Wf bf Wp bp) := rfl

end Cert.Spec

end
-- ==== Proof.Reg0.lean ====
/-
  The first kernel walks the 800000 edge rows in 100 bands of 8000. At each band it adds the band of gathered
  source-node rows to the band of edge rows and rectifies, and writes the band back. Since that is done row by
  row, the array it leaves is the rectified sum of the two whole arrays.
-/
import proofs.«426157_j56246891709114_1_alg».proof.Proof.Gen.KernelIdeal.Frame
import proofs.«426157_j56246891709114_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered: any contents at all
variable (V : (c : Dev nD) → (b : Ref sig .tc) → Buf (Elt Ideal) ((c : Thread nD τ).loc b))

/-! ## The body's arithmetic -/

/-- What the body stores is the rectified sum of the two blocks it loaded, entry by entry: the cast to the same
    shape changes nothing, and a sum and a maximum with the splat zero are read at each index. -/
theorem pay_eq (x0 x1 : Vec Ideal S8000x128 .f32) : k0_pay1 (F := Ideal) x0 x1 = Spec.msg x0 x1 := by
  funext i
  unfold k0_pay1
  rw [shapeCast_self]
  rfl

/-! ## The blocks are bands of rows -/

theorem hz : (![0, 0] : Fin 2 → Nat) = fun _ => 0 := funext fun a => by fin_cases a <;> rfl

/-- The three index maps, decided over the 100 points: at point `t` every window sits on block row `t`, block
    column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Band `t` of 8000 rows lies inside the 800000 rows. -/
theorem band_le (t : Fin cfg0.N) : t.val * 8000 + 8000 ≤ 800000 := by
  have h : t.val < 100 := t.isLt
  omega

/-- Window 0's block at point `t` is band `t` of the gathered source rows. -/
theorem iblk_0 (c : Dev nD) (t : Fin cfg0.N) :
    iblk0 (F := Ideal) V c 0 t = Spec.rows 8000 t.val (band_le t) (V c main_v0) := by
  obtain ⟨e0, e1, -⟩ := idx_facts t
  funext y
  show V c main_v0 (((cfg0.win 0).blk t).view.emb y) = V c main_v0 _
  refine congrArg (V c main_v0) ?_
  funext a; apply Fin.ext
  match a with
  | ⟨0, _⟩ => show win0_0.index t (0 : Fin 2) * 8000 + 1 * (y 0).val = t.val * 8000 + (y 0).val; omega
  | ⟨1, _⟩ => show win0_0.index t (1 : Fin 2) * 128 + 1 * (y 1).val = (y 1).val; omega

/-- Window 1's block at point `t` is band `t` of the edge rows. -/
theorem iblk_1 (c : Dev nD) (t : Fin cfg0.N) :
    iblk0 (F := Ideal) V c 1 t = Spec.rows 8000 t.val (band_le t) (V c main_arg1) := by
  obtain ⟨-, -, e0, e1, -⟩ := idx_facts t
  funext y
  show V c main_arg1 (((cfg0.win 1).blk t).view.emb y) = V c main_arg1 _
  refine congrArg (V c main_arg1) ?_
  funext a; apply Fin.ext
  match a with
  | ⟨0, _⟩ => show win0_1.index t (0 : Fin 2) * 8000 + 1 * (y 0).val = t.val * 8000 + (y 0).val; omega
  | ⟨1, _⟩ => show win0_1.index t (1 : Fin 2) * 128 + 1 * (y 1).val = (y 1).val; omega

/-- Any matrix of the message array's shape, read through window 2's block at point `t`, is its band `t`. -/
theorem read_blk_2 (t : Fin cfg0.N) (G : Spec.Mat 800000 128) :
    ((cfg0.win 2).blk t).view.read (Elt Ideal) G = Spec.rows 8000 t.val (band_le t) G := by
  obtain ⟨-, -, -, -, e0, e1⟩ := idx_facts t
  funext y
  show G (((cfg0.win 2).blk t).view.emb y) = G _
  refine congrArg G ?_
  funext a; apply Fin.ext
  match a with
  | ⟨0, _⟩ => show win0_2.index t (0 : Fin 2) * 8000 + 1 * (y 0).val = t.val * 8000 + (y 0).val; omega
  | ⟨1, _⟩ => show win0_2.index t (1 : Fin 2) * 128 + 1 * (y 1).val = (y 1).val; omega

/-! ## What a point writes back -/

/-- What point `t` writes back is band `t` of the rectified sum of the two whole arrays: the body's store is the
    rectified sum of its two blocks, the blocks are bands, and the layer of a band is the band of the layer. -/
theorem flushed_eq (c : Dev nD) (t : Fin cfg0.N) :
    (dat0 (F := Ideal) V c).flushed 2 t
      = ((cfg0.win 2).blk t).view.read (Elt Ideal) (Spec.msg (V c main_v0) (V c main_arg1)) := by
  show (cfg0.win 2).cut (grid0.coords t) ((dat0 V c).after 2 t) = _
  rw [after0_2]
  unfold out0_2
  rw [View.canon_unit_zero hz]
  simp only [View.ld_unit_zero (S := S8000x128) hz]
  rw [pay_eq, iblk_0, iblk_1, Spec.msg_rows, read_blk_2]
  rfl

/-! ## The blocks cover the array -/

/-- An index of the message array is in point `t`'s block iff each coordinate is in the block's range on its axis. -/
theorem mem_blk (t : Fin cfg0.N) (i : S800000x128.Idx) :
    i ∈ ((cfg0.win 2).blk t).view.set ↔ ∀ a : Fin 2, win0_2.index t a * S8000x128.size a ≤ (i a).val ∧ (i a).val < win0_2.index t a * S8000x128.size a + S8000x128.size a := by
  show i ∈ ((View.whole main_v1).slice (win0_2.rect t)).set ↔ _
  rw [View.set_slice_whole, Rect.mem_set_unit]
  exact Iff.rfl

/-- Row `r` of the message array lies in the block of point `r / 8000`, and every point writes its block back. -/
theorem cover (i : S800000x128.Idx) :
    ∃ t : Fin cfg0.N, (cfg0.win 2).flush t = true ∧ i ∈ ((cfg0.win 2).blk t).view.set := by
  have hi0 : (i 0).val < 800000 := (i 0).isLt
  have hi1 : (i 1).val < 128 := (i 1).isLt
  obtain ⟨t, ht⟩ : ∃ t : Fin cfg0.N, t.val = (i 0).val / 8000 :=
    ⟨⟨(i 0).val / 8000, by show _ < 100; omega⟩, rfl⟩
  obtain ⟨-, -, -, -, e0, e1⟩ := idx_facts t
  refine ⟨t, flush0_2 t, ?_⟩
  rw [mem_blk]
  intro a
  match a with
  | ⟨0, _⟩ => show win0_2.index t (0 : Fin 2) * 8000 ≤ (i 0).val ∧ (i 0).val < win0_2.index t (0 : Fin 2) * 8000 + 8000; omega
  | ⟨1, _⟩ => show win0_2.index t (1 : Fin 2) * 128 ≤ (i 1).val ∧ (i 1).val < win0_2.index t (1 : Fin 2) * 128 + 128; omega

/-! ## The array the region leaves -/

/-- After the region the message array is the rectified sum of the gathered source rows and the edge rows. -/
theorem final (c : Dev nD) :
    (dat0 (F := Ideal) V c).arrAt 2 cfg0.N = Spec.msg (V c main_v0) (V c main_arg1) :=
  (dat0 (F := Ideal) V c).arrAt_eq_of_cover 2 (Spec.msg (V c main_v0) (V c main_arg1))
    (fun t _ => flushed_eq V c t) cover

end Cert.KernelIdeal.Reg0

end
-- ==== Proof.Reg1.lean ====
/-
  The second kernel walks the 50000 node rows in 10 bands of 5000. At each band it computes, row by row, the
  node state (the rectified affine image of the node's row plus its aggregated messages), the projected node
  distances, the hidden layer over the two side by side, and the two logits; it writes back the node state and
  the logits. Every weight matrix and bias is staged whole at every band. Since all of it is row by row, each
  array it leaves is that layer of the whole input arrays.
-/
import proofs.«426157_j56246891709114_1_alg».proof.Proof.Gen.KernelIdeal.Frame
import proofs.«426157_j56246891709114_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-! ## Each product into a zero accumulator is the plain sum over the contracted column -/

theorem lhs_gin_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_gin_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_gin_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_gin_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The node update's product: entry `(r, j)` is the sum over `k` of `A r k · W k j`. -/
theorem mm_gin (A : FVec Ideal S5000x128 .f32) (W : FVec Ideal S128x128 .f32) (r : Fin 5000) (j : Fin 128) :
    matmul dot_S5000x128_S128x128_S5000x128_1_0_0_1_n_n none A W (constant (F := Ideal) S5000x128 .f32 0x00000000#32) (ix2 r j)
      = ∑ k : Fin 128, A (ix2 r k) * W (ix2 k j) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r j) ((ValueIdx.contrEquiv1 dot_S5000x128_S128x128_S5000x128_1_0_0_1_n_n 128 rfl rfl).symm k) = ix2 r k := funext fun a => Fin.ext (by
    match a with
    | ⟨0, _⟩ => exact lhs_gin_0 _ _
    | ⟨1, _⟩ => exact (lhs_gin_1 _ _).trans hk)
  have er : dot_S5000x128_S128x128_S5000x128_1_0_0_1_n_n.rhsIdx (ix2 r j) ((ValueIdx.contrEquiv1 dot_S5000x128_S128x128_S5000x128_1_0_0_1_n_n 128 rfl rfl).symm k) = ix2 k j := funext fun a => Fin.ext (by
    match a with
    | ⟨0, _⟩ => exact (rhs_gin_0 _ _).trans hk
    | ⟨1, _⟩ => exact rhs_gin_1 _ _)
  rw [el, er]

theorem lhs_dist_0 (i : S5000x32.Idx) (q : dot_S5000x32_S32x32_S5000x32_1_0_0_1_n_n.contr.Idx) :
    (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
theorem lhs_dist_1 (i : S5000x32.Idx) (q : dot_S5000x32_S32x32_S5000x32_1_0_0_1_n_n.contr.Idx) :
    (dot_S5000x32_S32x32_S5000x32_1_0_0_1_n_n.lhsIdx i q 1).val = (q ⟨0, by decide⟩).val :=
  dot_S5000x32_S32x32_S5000x32_1_0_0_1_n_n.lhsIdx_val_of_single rfl i q
theorem rhs_dist_0 (i : S5000x32.Idx) (q : dot_S5000x32_S32x32_S5000x32_1_0_0_1_n_n.contr.Idx) :
    (dot_S5000x32_S32x32_S5000x32_1_0_0_1_n_n.rhsIdx i q 0).val = (q ⟨0, by decide⟩).val :=
  dot_S5000x32_S32x32_S5000x32_1_0_0_1_n_n.rhsIdx_val_of_single rfl i q
theorem rhs_dist_1 (i : S5000x32.Idx) (q : dot_S5000x32_S32x32_S5000x32_1_0_0_1_n_n.contr.Idx) :
    (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl

/-- The distance projection's product: entry `(r, j)` is the sum over `k` of `A r k · W k j`. -/
theorem mm_dist (A : FVec Ideal S5000x32 .f32) (W : FVec Ideal S32x32 .f32) (r : Fin 5000) (j : Fin 32) :
    matmul dot_S5000x32_S32x32_S5000x32_1_0_0_1_n_n none A W (constant (F := Ideal) S5000x32 .f32 0x00000000#32) (ix2 r j)
      = ∑ k : Fin 32, A (ix2 r k) * W (ix2 k j) := by
  simp only [matmul]
  rw [Ideal.matmul_constant_zero_apply, ← Equiv.sum_comp (ValueIdx.contrEquiv1 dot_S5000x32_S32x32_S5000x32_1_0_0_1_n_n 32 rfl rfl).symm]
  refine Finset.sum_congr rfl fun k _ => ?_
  have hk := ValueIdx.contrEquiv1_symm_val dot_S5000x32_S32x32_S5000x32_1_0_0_1_n_n 32 rfl rfl k
  have el : dot_S5000x32_S32x32_S5000x32_1_0_0_1_n_n.lhsIdx (ix2 r j) ((ValueIdx.contrEquiv1 dot_S5000x32_S32x32_S5000x32_1_0_0_1_n_n 32 rfl rfl).symm k) = ix2 r k := funext fun a => Fin.ext (by
    match a with
    | ⟨0, _⟩ => exact lhs_dist_0 _ _
    | ⟨1, _⟩ => exact (lhs_dist_1 _ _).trans hk)
  have er : dot_S5000x32_S32x32_S5000x32_1_0_0_1_n_n.rhsIdx (ix2 r j) ((ValueIdx.contrEquiv1 dot_S5000x32_S32x32_S5000x32_1_0_0_1_n_n 32 rfl rfl).symm k) = ix2 k j := funext fun a => Fin.ext (by
    match a with
    | ⟨0, _⟩ => exact (rhs_dist_0 _ _).trans hk
    | ⟨1, _⟩ => exact rhs_dist_1 _ _)
  rw [el, er]

theorem lhs_hid_0 (i : S5000x128.Idx) (q : dot_S5000x160_S160x128_S5000x128_1_0_0_1_n_n.contr.Idx) :
    (dot_S5000x160_S160x128_S5000x128_1_0_0_1_n_n.lhsIdx i q 0).val = (i 0).val := by
  unfold DotDims.lhsIdx
  rw [dif_neg (show ¬(0 : Fin S5000x160.rank) ∈ dot_S5000x160_S160x128_S5000x128_1_0_0_1_n_n.lhsBatch by decide), dif_pos (show (0 : Fin S5000x160.rank) ∈ dot_S5000x160_S160x128_S5000x128_1_0_0_1_n_n.lhsNonContracting by decide)]
  rfl
theorem lhs_hid_1 (i : S5000x128.Idx) (q : dot_S5000x160_S160x128_S5000x128_1_0_0_1_n_n.contr.Idx) :
    (dot_S5000x160_S160x128_S5000x128_1_0_0_1_n_n.lhsIdx i q 1).val = (q ⟨0, by decide⟩).val :=
  dot_S5000x160_S160x128_S5000x128_1_0_0_1_n_n.lhsIdx_val_of_single rfl i q
theorem rhs_hid_0 (i : S5000x128.Idx) (q : dot_S5000x160_S160x128_S5000x128_1_0_0_1_n_n.contr.Idx) :
    (dot_S5000x160_S160x128_S5000x128_1_0_0_1_n_n.rhsIdx i q 0).val = (q ⟨0, by decide⟩).val :=
  dot_S5000x160_S160x128_S5000x128_1_0_0_1_n_n.rhsIdx_val_of_single rfl i q
theorem rhs_hid_1 (i : S5000x128.Idx) (q : dot_S5000x160_S160x128_S5000x128_1_0_0_1_n_n.contr.Idx) :
    (dot_S5000x160_S160x128_S5000x128_1_0_0_1_n_n.rhsIdx i q 1).val = (i 1).val := by
  unfold DotDims.rhsIdx
  rw [dif_neg (show ¬(1 : Fin S160x128.rank) ∈ dot_S5000x160_S160x128_S5000x128_1_0_0_1_n_n.rhsBatch by decide), dif_pos (show (1 : Fin S160x128.rank) ∈ dot_S5000x160_S160x128_S5000x128_1_0_0_1_n_n.rhsNonContracting by decide)]
  rfl

/-- The hidden layer's product: entry `(r, j)` is the sum over `k` of `A r k · W k j`. -/
theorem mm_hid (A : FVec Ideal S5000x160 .f32) (W : FVec Ideal S160x128 .f32) (r : Fin 5000) (j : Fin 128) :
    matmul dot_S5000x160_S160x128_S5000x128_1_0_0_1_n_n none A W (constant (F := Ideal) S5000x128 .f32 0x00000000#32) (ix2 r j)
      = ∑ k : Fin 160, A (ix2 r k) * W (ix2 k j) := by
  simp only [matmul]
  rw [Ideal.matmul_constant_zero_apply, ← Equiv.sum_comp (ValueIdx.contrEquiv1 dot_S5000x160_S160x128_S5000x128_1_0_0_1_n_n 160 rfl rfl).symm]
  refine Finset.sum_congr rfl fun k _ => ?_
  have hk := ValueIdx.contrEquiv1_symm_val dot_S5000x160_S160x128_S5000x128_1_0_0_1_n_n 160 rfl rfl k
  have el : dot_S5000x160_S160x128_S5000x128_1_0_0_1_n_n.lhsIdx (ix2 r j) ((ValueIdx.contrEquiv1 dot_S5000x160_S160x128_S5000x128_1_0_0_1_n_n 160 rfl rfl).symm k) = ix2 r k := funext fun a => Fin.ext (by
    match a with
    | ⟨0, _⟩ => exact lhs_hid_0 _ _
    | ⟨1, _⟩ => exact (lhs_hid_1 _ _).trans hk)
  have er : dot_S5000x160_S160x128_S5000x128_1_0_0_1_n_n.rhsIdx (ix2 r j) ((ValueIdx.contrEquiv1 dot_S5000x160_S160x128_S5000x128_1_0_0_1_n_n 160 rfl rfl).symm k) = ix2 k j := funext fun a => Fin.ext (by
    match a with
    | ⟨0, _⟩ => exact (rhs_hid_0 _ _).trans hk
    | ⟨1, _⟩ => exact rhs_hid_1 _ _)
  rw [el, er]

theorem lhs_logit_0 (i : S5000x2.Idx) (q : dot_S5000x128_S128x2_S5000x2_1_0_0_1_n_n.contr.Idx) :
    (dot_S5000x128_S128x2_S5000x2_1_0_0_1_n_n.lhsIdx i q 0).val = (i 0).val := by
  unfold DotDims.lhsIdx
  rw [dif_neg (show ¬(0 : Fin S5000x128.rank) ∈ dot_S5000x128_S128x2_S5000x2_1_0_0_1_n_n.lhsBatch by decide), dif_pos (show (0 : Fin S5000x128.rank) ∈ dot_S5000x128_S128x2_S5000x2_1_0_0_1_n_n.lhsNonContracting by decide)]
  rfl
theorem lhs_logit_1 (i : S5000x2.Idx) (q : dot_S5000x128_S128x2_S5000x2_1_0_0_1_n_n.contr.Idx) :
    (dot_S5000x128_S128x2_S5000x2_1_0_0_1_n_n.lhsIdx i q 1).val = (q ⟨0, by decide⟩).val :=
  dot_S5000x128_S128x2_S5000x2_1_0_0_1_n_n.lhsIdx_val_of_single rfl i q
theorem rhs_logit_0 (i : S5000x2.Idx) (q : dot_S5000x128_S128x2_S5000x2_1_0_0_1_n_n.contr.Idx) :
    (dot_S5000x128_S128x2_S5000x2_1_0_0_1_n_n.rhsIdx i q 0).val = (q ⟨0, by decide⟩).val :=
  dot_S5000x128_S128x2_S5000x2_1_0_0_1_n_n.rhsIdx_val_of_single rfl i q
theorem rhs_logit_1 (i : S5000x2.Idx) (q : dot_S5000x128_S128x2_S5000x2_1_0_0_1_n_n.contr.Idx) :
    (dot_S5000x128_S128x2_S5000x2_1_0_0_1_n_n.rhsIdx i q 1).val = (i 1).val := by
  unfold DotDims.rhsIdx
  rw [dif_neg (show ¬(1 : Fin S128x2.rank) ∈ dot_S5000x128_S128x2_S5000x2_1_0_0_1_n_n.rhsBatch by decide), dif_pos (show (1 : Fin S128x2.rank) ∈ dot_S5000x128_S128x2_S5000x2_1_0_0_1_n_n.rhsNonContracting by decide)]
  rfl

/-- The logits' product: entry `(r, j)` is the sum over `k` of `A r k · W k j`. -/
theorem mm_logit (A : FVec Ideal S5000x128 .f32) (W : FVec Ideal S128x2 .f32) (r : Fin 5000) (j : Fin 2) :
    matmul dot_S5000x128_S128x2_S5000x2_1_0_0_1_n_n none A W (constant (F := Ideal) S5000x2 .f32 0x00000000#32) (ix2 r j)
      = ∑ k : Fin 128, A (ix2 r k) * W (ix2 k j) := by
  simp only [matmul]
  rw [Ideal.matmul_constant_zero_apply, ← Equiv.sum_comp (ValueIdx.contrEquiv1 dot_S5000x128_S128x2_S5000x2_1_0_0_1_n_n 128 rfl rfl).symm]
  refine Finset.sum_congr rfl fun k _ => ?_
  have hk := ValueIdx.contrEquiv1_symm_val dot_S5000x128_S128x2_S5000x2_1_0_0_1_n_n 128 rfl rfl k
  have el : dot_S5000x128_S128x2_S5000x2_1_0_0_1_n_n.lhsIdx (ix2 r j) ((ValueIdx.contrEquiv1 dot_S5000x128_S128x2_S5000x2_1_0_0_1_n_n 128 rfl rfl).symm k) = ix2 r k := funext fun a => Fin.ext (by
    match a with
    | ⟨0, _⟩ => exact lhs_logit_0 _ _
    | ⟨1, _⟩ => exact (lhs_logit_1 _ _).trans hk)
  have er : dot_S5000x128_S128x2_S5000x2_1_0_0_1_n_n.rhsIdx (ix2 r j) ((ValueIdx.contrEquiv1 dot_S5000x128_S128x2_S5000x2_1_0_0_1_n_n 128 rfl rfl).symm k) = ix2 k j := funext fun a => Fin.ext (by
    match a with
    | ⟨0, _⟩ => exact (rhs_logit_0 _ _).trans hk
    | ⟨1, _⟩ => exact rhs_logit_1 _ _)
  rw [el, er]

/-! ## The layers of one band of rows -/

/-- A bias vector laid out as one row and repeated down the band reads, at `(r, j)`, the bias at `j`. -/
theorem bias_apply {R n : ℕ} (b : (⟨1, ![n]⟩ : Shape).Idx → EReal)
    (h1 : (⟨1, ![n]⟩ : Shape).ShapeCasts ⟨2, ![1, n]⟩) (h2 : (⟨2, ![1, n]⟩ : Shape).Broadcasts ⟨2, ![R, n]⟩)
    (r : Fin R) (j : Fin n) :
    broadcastTo ⟨2, ![R, n]⟩ (shapeCast ⟨2, ![1, n]⟩ b h1) h2 (ix2 r j) = b (ix1 j) :=
  (broadcastTo_1b_ab_apply _ h2 r j).trans (shapeCast_a_1a_apply b h1 0 j)

/-- The node state of a band: the rectified affine image of the node rows plus the aggregated rows. -/
theorem pay_x (v0 v1 : Vec Ideal S5000x128 .f32) (v4 : Vec Ideal S128x128 .f32) (v6 : Vec Ideal S128 .f32) :
    k1_pay2 (F := Ideal) v0 v1 v4 v6 = Spec.nodeX v0 v1 v4 v6 := by
  funext i
  obtain ⟨r, j, rfl⟩ : ∃ (r : Fin 5000) (j : Fin 128), i = ix2 r j :=
    ⟨Spec.rowOf i, Spec.colOf i, (Spec.ix2_rowOf_colOf i).symm⟩
  unfold k1_pay2
  show max (matmul dot_S5000x128_S128x128_S5000x128_1_0_0_1_n_n none (addf v0 (shapeCast S5000x128 v1 shapeCasts_S5000x128_S5000x128)) v4
        (constant (F := Ideal) S5000x128 .f32 0x00000000#32) (ix2 r j)
      + broadcastTo S5000x128 (shapeCast S1x128 v6 shapeCasts_S128_S1x128) broadcasts_S1x128_S5000x128 (ix2 r j))
      (Ideal.ofBits .f32 0x00000000#32)
    = max ((∑ k : Fin 128, (v0 (ix2 r k) + v1 (ix2 r k)) * v4 (ix2 k j)) + v6 (ix1 j)) Spec.zero
  rw [mm_gin, bias_apply, shapeCast_self]
  rfl

/-- The projected distances of a band: a rectified affine layer. -/
theorem dist_layer (v12 : FVec Ideal S5000x32 .f32) (v13 : FVec Ideal S32x32 .f32) (v15 : FVec Ideal S32 .f32) :
    maximumf (addf (matmul dot_S5000x32_S32x32_S5000x32_1_0_0_1_n_n none v12 v13 (constant (F := Ideal) S5000x32 .f32 0x00000000#32))
        (broadcastTo S5000x32 (shapeCast S1x32 v15 shapeCasts_S32_S1x32) broadcasts_S1x32_S5000x32))
      (broadcast S5000x32 (Scalar.ofBits (F := Ideal) .f32 0x00000000#32))
    = Spec.dense v12 v13 v15 := by
  funext i
  obtain ⟨r, j, rfl⟩ : ∃ (r : Fin 5000) (j : Fin 32), i = ix2 r j :=
    ⟨Spec.rowOf i, Spec.colOf i, (Spec.ix2_rowOf_colOf i).symm⟩
  show max (matmul dot_S5000x32_S32x32_S5000x32_1_0_0_1_n_n none v12 v13 (constant (F := Ideal) S5000x32 .f32 0x00000000#32) (ix2 r j)
      + broadcastTo S5000x32 (shapeCast S1x32 v15 shapeCasts_S32_S1x32) broadcasts_S1x32_S5000x32 (ix2 r j))
      (Ideal.ofBits .f32 0x00000000#32)
    = max ((∑ k : Fin 32, v12 (ix2 r k) * v13 (ix2 k j)) + v15 (ix1 j)) Spec.zero
  rw [mm_dist, bias_apply]
  rfl

/-- Two bands laid side by side: a column below 128 reads the first, the others the second 128 columns back. -/
theorem cat_eq (x : FVec Ideal S5000x128 .f32) (y : FVec Ideal S5000x32 .f32) :
    concatenate S5000x160 1 [⟨S5000x128, x⟩, ⟨S5000x32, y⟩] concatenates_S5000x128_S5000x32_S5000x160_d1
      = Spec.cat 160 rfl x y := by
  funext i
  obtain ⟨r, j, rfl⟩ : ∃ (r : Fin 5000) (j : Fin 160), i = ix2 r j :=
    ⟨Spec.rowOf i, Spec.colOf i, (Spec.ix2_rowOf_colOf i).symm⟩
  show _ = (if h : j.val < 128 then x (ix2 r ⟨j.val, h⟩) else y (ix2 r ⟨j.val - 128, by have := j.isLt; omega⟩))
  by_cases h : j.val < 128
  · rw [dif_pos h]
    refine concatenate_pair_apply_left 1 x y _ (ix2 r j) rfl (ix2 r ⟨j.val, h⟩) (fun b => ?_)
    match b with
    | ⟨0, _⟩ => rfl
    | ⟨1, _⟩ => rfl
  · rw [dif_neg h]
    refine concatenate_pair_apply_right 1 x y _ (ix2 r j) rfl rfl (ix2 r ⟨j.val - 128, by have := j.isLt; omega⟩) (fun b => ?_) ?_
    · match b with
      | ⟨0, _⟩ => exact fun _ => rfl
      | ⟨1, _⟩ => exact fun hb => absurd rfl hb
    · show j.val - 128 + 128 = j.val
      omega

/-- The hidden layer of a band: a rectified affine layer over 160 columns. -/
theorem hid_layer (z : FVec Ideal S5000x160 .f32) (v22 : FVec Ideal S160x128 .f32) (v24 : FVec Ideal S128 .f32) :
    maximumf (addf (matmul dot_S5000x160_S160x128_S5000x128_1_0_0_1_n_n none z v22 (constant (F := Ideal) S5000x128 .f32 0x00000000#32))
        (broadcastTo S5000x128 (shapeCast S1x128 v24 shapeCasts_S128_S1x128) broadcasts_S1x128_S5000x128))
      (broadcast S5000x128 (Scalar.ofBits (F := Ideal) .f32 0x00000000#32))
    = Spec.dense z v22 v24 := by
  funext i
  obtain ⟨r, j, rfl⟩ : ∃ (r : Fin 5000) (j : Fin 128), i = ix2 r j :=
    ⟨Spec.rowOf i, Spec.colOf i, (Spec.ix2_rowOf_colOf i).symm⟩
  show max (matmul dot_S5000x160_S160x128_S5000x128_1_0_0_1_n_n none z v22 (constant (F := Ideal) S5000x128 .f32 0x00000000#32) (ix2 r j)
      + broadcastTo S5000x128 (shapeCast S1x128 v24 shapeCasts_S128_S1x128) broadcasts_S1x128_S5000x128 (ix2 r j))
      (Ideal.ofBits .f32 0x00000000#32)
    = max ((∑ k : Fin 160, z (ix2 r k) * v22 (ix2 k j)) + v24 (ix1 j)) Spec.zero
  rw [mm_hid, bias_apply]
  rfl

/-- The two logits of a band: an affine layer. -/
theorem logit_layer (h : FVec Ideal S5000x128 .f32) (v30 : FVec Ideal S128x2 .f32) (v32 : FVec Ideal S2 .f32) :
    addf (matmul dot_S5000x128_S128x2_S5000x2_1_0_0_1_n_n none h v30 (constant (F := Ideal) S5000x2 .f32 0x00000000#32))
        (broadcastTo S5000x2 (shapeCast S1x2 v32 shapeCasts_S2_S1x2) broadcasts_S1x2_S5000x2)
    = Spec.affine h v30 v32 := by
  funext i
  obtain ⟨r, j, rfl⟩ : ∃ (r : Fin 5000) (j : Fin 2), i = ix2 r j :=
    ⟨Spec.rowOf i, Spec.colOf i, (Spec.ix2_rowOf_colOf i).symm⟩
  show matmul dot_S5000x128_S128x2_S5000x2_1_0_0_1_n_n none h v30 (constant (F := Ideal) S5000x2 .f32 0x00000000#32) (ix2 r j)
      + broadcastTo S5000x2 (shapeCast S1x2 v32 shapeCasts_S2_S1x2) broadcasts_S1x2_S5000x2 (ix2 r j)
    = (∑ k : Fin 128, h (ix2 r k) * v30 (ix2 k j)) + v32 (ix1 j)
  rw [mm_logit, bias_apply]

/-- The logits of a band: the node head over the band's node state and projected distances. -/
theorem pay_o (v0 v1 : Vec Ideal S5000x128 .f32) (v4 : Vec Ideal S128x128 .f32) (v6 : Vec Ideal S128 .f32)
    (v12 : Vec Ideal S5000x32 .f32) (v13 : Vec Ideal S32x32 .f32) (v15 : Vec Ideal S32 .f32)
    (v22 : Vec Ideal S160x128 .f32) (v24 : Vec Ideal S128 .f32) (v30 : Vec Ideal S128x2 .f32) (v32 : Vec Ideal S2 .f32) :
    k1_pay1 (F := Ideal) (k1_pay3 v0 v1 v4 v6 v12 v13 v15 v22 v24 v30) (k1_pay4 v32)
      = Spec.nodeO (Spec.nodeX v0 v1 v4 v6) (Spec.dense v12 v13 v15) v22 v24 v30 v32 := by
  unfold k1_pay1 k1_pay3 k1_pay4
  show addf (matmul dot_S5000x128_S128x2_S5000x2_1_0_0_1_n_n none
        (maximumf (addf (matmul dot_S5000x160_S160x128_S5000x128_1_0_0_1_n_n none
            (concatenate S5000x160 1 [⟨S5000x128, k1_pay2 (F := Ideal) v0 v1 v4 v6⟩,
              ⟨S5000x32, maximumf (addf (matmul dot_S5000x32_S32x32_S5000x32_1_0_0_1_n_n none v12 v13 (constant (F := Ideal) S5000x32 .f32 0x00000000#32))
                  (broadcastTo S5000x32 (shapeCast S1x32 v15 shapeCasts_S32_S1x32) broadcasts_S1x32_S5000x32))
                (broadcast S5000x32 (Scalar.ofBits (F := Ideal) .f32 0x00000000#32))⟩]
              concatenates_S5000x128_S5000x32_S5000x160_d1)
            v22 (constant (F := Ideal) S5000x128 .f32 0x00000000#32))
          (broadcastTo S5000x128 (shapeCast S1x128 v24 shapeCasts_S128_S1x128) broadcasts_S1x128_S5000x128))
        (broadcast S5000x128 (Scalar.ofBits (F := Ideal) .f32 0x00000000#32)))
        v30 (constant (F := Ideal) S5000x2 .f32 0x00000000#32))
      (broadcastTo S5000x2 (shapeCast S1x2 v32 shapeCasts_S2_S1x2) broadcasts_S1x2_S5000x2) = _
  rw [pay_x, dist_layer, cat_eq, hid_layer, logit_layer]
  rfl

/-! ## Each window's block at band `t`

  The three row windows and the two output windows move down their arrays one band of 5000 rows per point; the
  eight weight and bias windows stay on their whole array. A block's element sits at block index × block
  size + its coordinate inside the block. -/

theorem hz2 : (![0, 0] : Fin 2 → Nat) = fun _ => 0 := funext fun a => by fin_cases a <;> rfl
theorem hz1 : (![0] : Fin 1 → Nat) = fun _ => 0 := funext fun a => by fin_cases a <;> rfl

/-- Band `t` of 5000 rows lies inside the 50000 rows. -/
theorem band_le (t : Fin cfg1.N) : t.val * 5000 + 5000 ≤ 50000 := by
  have h : t.val < 10 := lt_of_lt_of_eq t.isLt N_1
  omega

/-- The index maps of the row windows, decided over the ten points: block `(t, 0)`. -/
theorem idx_rows : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_11.index t (0 : Fin 2) = t.val ∧ win1_11.index t (1 : Fin 2) = 0)
    ∧ (win1_12.index t (0 : Fin 2) = t.val ∧ win1_12.index t (1 : Fin 2) = 0) :=
  (by decide +kernel : ∀ t : Fin grid1.N, _)

/-- The index maps of the weight and bias windows, decided over the ten points: always block 0. -/
theorem idx_whole : ∀ t : Fin cfg1.N,
    (win1_3.index t (0 : Fin 2) = 0 ∧ win1_3.index t (1 : Fin 2) = 0)
    ∧ win1_4.index t (0 : Fin 1) = 0
    ∧ (win1_5.index t (0 : Fin 2) = 0 ∧ win1_5.index t (1 : Fin 2) = 0)
    ∧ win1_6.index t (0 : Fin 1) = 0
    ∧ (win1_7.index t (0 : Fin 2) = 0 ∧ win1_7.index t (1 : Fin 2) = 0)
    ∧ win1_8.index t (0 : Fin 1) = 0
    ∧ (win1_9.index t (0 : Fin 2) = 0 ∧ win1_9.index t (1 : Fin 2) = 0)
    ∧ win1_10.index t (0 : Fin 1) = 0 :=
  (by decide +kernel : ∀ t : Fin grid1.N, _)

/-- Window 0's block at `t`, read off any array of its shape, is that array's band `t`. -/
theorem read_blk0 (t : Fin cfg1.N) (G : Spec.Mat 50000 128) :
    @Eq (Spec.Mat 5000 128) (((cfg1.win 0).blk t).view.read (Elt Ideal) G) (Spec.rows 5000 t.val (band_le t) G) := by
  obtain ⟨⟨e0, e1⟩, -⟩ := idx_rows t
  funext y
  show G (((cfg1.win 0).blk t).view.emb y) = G _
  refine congrArg G (funext fun a => Fin.ext ?_)
  match a with
  | ⟨0, _⟩ => show win1_0.index t (0 : Fin 2) * 5000 + 1 * (y 0).val = t.val * 5000 + (y 0).val; rw [e0]; omega
  | ⟨1, _⟩ => show win1_0.index t (1 : Fin 2) * 128 + 1 * (y 1).val = (y 1).val; rw [e1]; omega

/-- Window 1's block at `t` is band `t` of its array. -/
theorem read_blk1 (t : Fin cfg1.N) (G : Spec.Mat 50000 128) :
    @Eq (Spec.Mat 5000 128) (((cfg1.win 1).blk t).view.read (Elt Ideal) G) (Spec.rows 5000 t.val (band_le t) G) := by
  obtain ⟨-, ⟨e0, e1⟩, -⟩ := idx_rows t
  funext y
  show G (((cfg1.win 1).blk t).view.emb y) = G _
  refine congrArg G (funext fun a => Fin.ext ?_)
  match a with
  | ⟨0, _⟩ => show win1_1.index t (0 : Fin 2) * 5000 + 1 * (y 0).val = t.val * 5000 + (y 0).val; rw [e0]; omega
  | ⟨1, _⟩ => show win1_1.index t (1 : Fin 2) * 128 + 1 * (y 1).val = (y 1).val; rw [e1]; omega

/-- Window 2's block at `t` is band `t` of its array of 32 columns. -/
theorem read_blk2 (t : Fin cfg1.N) (G : Spec.Mat 50000 32) :
    @Eq (Spec.Mat 5000 32) (((cfg1.win 2).blk t).view.read (Elt Ideal) G) (Spec.rows 5000 t.val (band_le t) G) := by
  obtain ⟨-, -, ⟨e0, e1⟩, -⟩ := idx_rows t
  funext y
  show G (((cfg1.win 2).blk t).view.emb y) = G _
  refine congrArg G (funext fun a => Fin.ext ?_)
  match a with
  | ⟨0, _⟩ => show win1_2.index t (0 : Fin 2) * 5000 + 1 * (y 0).val = t.val * 5000 + (y 0).val; rw [e0]; omega
  | ⟨1, _⟩ => show win1_2.index t (1 : Fin 2) * 32 + 1 * (y 1).val = (y 1).val; rw [e1]; omega

/-- Output window 11's block at `t` is band `t` of its array. -/
theorem read_blk11 (t : Fin cfg1.N) (G : Spec.Mat 50000 128) :
    @Eq (Spec.Mat 5000 128) (((cfg1.win 11).blk t).view.read (Elt Ideal) G) (Spec.rows 5000 t.val (band_le t) G) := by
  obtain ⟨-, -, -, ⟨e0, e1⟩, -⟩ := idx_rows t
  funext y
  show G (((cfg1.win 11).blk t).view.emb y) = G _
  refine congrArg G (funext fun a => Fin.ext ?_)
  match a with
  | ⟨0, _⟩ => show win1_11.index t (0 : Fin 2) * 5000 + 1 * (y 0).val = t.val * 5000 + (y 0).val; rw [e0]; omega
  | ⟨1, _⟩ => show win1_11.index t (1 : Fin 2) * 128 + 1 * (y 1).val = (y 1).val; rw [e1]; omega

/-- Output window 12's block at `t` is band `t` of its array of 2 columns. -/
theorem read_blk12 (t : Fin cfg1.N) (G : Spec.Mat 50000 2) :
    @Eq (Spec.Mat 5000 2) (((cfg1.win 12).blk t).view.read (Elt Ideal) G) (Spec.rows 5000 t.val (band_le t) G) := by
  obtain ⟨-, -, -, -, e0, e1⟩ := idx_rows t
  funext y
  show G (((cfg1.win 12).blk t).view.emb y) = G _
  refine congrArg G (funext fun a => Fin.ext ?_)
  match a with
  | ⟨0, _⟩ => show win1_12.index t (0 : Fin 2) * 5000 + 1 * (y 0).val = t.val * 5000 + (y 0).val; rw [e0]; omega
  | ⟨1, _⟩ => show win1_12.index t (1 : Fin 2) * 2 + 1 * (y 1).val = (y 1).val; rw [e1]; omega

/-- Window 3's block is its whole array at every point. -/
theorem read_blk3 (t : Fin cfg1.N) (G : Spec.Mat 128 128) :
    @Eq (Spec.Mat 128 128) (((cfg1.win 3).blk t).view.read (Elt Ideal) G) G := by
  obtain ⟨⟨e0, e1⟩, -⟩ := idx_whole t
  funext y
  show G (((cfg1.win 3).blk t).view.emb y) = G y
  refine congrArg G (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- Window 4's block is its whole vector at every point. -/
theorem read_blk4 (t : Fin cfg1.N) (G : Spec.Vc 128) :
    @Eq (Spec.Vc 128) (((cfg1.win 4).blk t).view.read (Elt Ideal) G) G := by
  obtain ⟨-, e0, -⟩ := idx_whole t
  funext y
  show G (((cfg1.win 4).blk t).view.emb y) = G y
  refine congrArg G (funext fun a => Fin.ext ?_)
  match a with
  | ⟨0, _⟩ => show win1_4.index t (0 : Fin 1) * 128 + 1 * (y 0).val = (y 0).val; rw [e0]; omega

/-- Window 5's block is its whole array at every point. -/
theorem read_blk5 (t : Fin cfg1.N) (G : Spec.Mat 32 32) :
    @Eq (Spec.Mat 32 32) (((cfg1.win 5).blk t).view.read (Elt Ideal) G) G := by
  obtain ⟨-, -, ⟨e0, e1⟩, -⟩ := idx_whole t
  funext y
  show G (((cfg1.win 5).blk t).view.emb y) = G y
  refine congrArg G (funext fun a => Fin.ext ?_)
  match a with
  | ⟨0, _⟩ => show win1_5.index t (0 : Fin 2) * 32 + 1 * (y 0).val = (y 0).val; rw [e0]; omega
  | ⟨1, _⟩ => show win1_5.index t (1 : Fin 2) * 32 + 1 * (y 1).val = (y 1).val; rw [e1]; omega

/-- Window 6's block is its whole vector at every point. -/
theorem read_blk6 (t : Fin cfg1.N) (G : Spec.Vc 32) :
    @Eq (Spec.Vc 32) (((cfg1.win 6).blk t).view.read (Elt Ideal) G) G := by
  obtain ⟨-, -, -, e0, -⟩ := idx_whole t
  funext y
  show G (((cfg1.win 6).blk t).view.emb y) = G y
  refine congrArg G (funext fun a => Fin.ext ?_)
  match a with
  | ⟨0, _⟩ => show win1_6.index t (0 : Fin 1) * 32 + 1 * (y 0).val = (y 0).val; rw [e0]; omega

/-- Window 7's block is its whole array at every point. -/
theorem read_blk7 (t : Fin cfg1.N) (G : Spec.Mat 160 128) :
    @Eq (Spec.Mat 160 128) (((cfg1.win 7).blk t).view.read (Elt Ideal) G) G := by
  obtain ⟨-, -, -, -, ⟨e0, e1⟩, -⟩ := idx_whole t
  funext y
  show G (((cfg1.win 7).blk t).view.emb y) = G y
  refine congrArg G (funext fun a => Fin.ext ?_)
  match a with
  | ⟨0, _⟩ => show win1_7.index t (0 : Fin 2) * 160 + 1 * (y 0).val = (y 0).val; rw [e0]; omega
  | ⟨1, _⟩ => show win1_7.index t (1 : Fin 2) * 128 + 1 * (y 1).val = (y 1).val; rw [e1]; omega

/-- Window 8's block is its whole vector at every point. -/
theorem read_blk8 (t : Fin cfg1.N) (G : Spec.Vc 128) :
    @Eq (Spec.Vc 128) (((cfg1.win 8).blk t).view.read (Elt Ideal) G) G := by
  obtain ⟨-, -, -, -, -, e0, -⟩ := idx_whole t
  funext y
  show G (((cfg1.win 8).blk t).view.emb y) = G y
  refine congrArg G (funext fun a => Fin.ext ?_)
  match a with
  | ⟨0, _⟩ => show win1_8.index t (0 : Fin 1) * 128 + 1 * (y 0).val = (y 0).val; rw [e0]; omega

/-- Window 9's block is its whole array at every point. -/
theorem read_blk9 (t : Fin cfg1.N) (G : Spec.Mat 128 2) :
    @Eq (Spec.Mat 128 2) (((cfg1.win 9).blk t).view.read (Elt Ideal) G) G := by
  obtain ⟨-, -, -, -, -, -, ⟨e0, e1⟩, -⟩ := idx_whole t
  funext y
  show G (((cfg1.win 9).blk t).view.emb y) = G y
  refine congrArg G (funext fun a => Fin.ext ?_)
  match a with
  | ⟨0, _⟩ => show win1_9.index t (0 : Fin 2) * 128 + 1 * (y 0).val = (y 0).val; rw [e0]; omega
  | ⟨1, _⟩ => show win1_9.index t (1 : Fin 2) * 2 + 1 * (y 1).val = (y 1).val; rw [e1]; omega

/-- Window 10's block is its whole vector at every point. -/
theorem read_blk10 (t : Fin cfg1.N) (G : Spec.Vc 2) :
    @Eq (Spec.Vc 2) (((cfg1.win 10).blk t).view.read (Elt Ideal) G) G := by
  obtain ⟨-, -, -, -, -, -, -, e0⟩ := idx_whole t
  funext y
  show G (((cfg1.win 10).blk t).view.emb y) = G y
  refine congrArg G (funext fun a => Fin.ext ?_)
  match a with
  | ⟨0, _⟩ => show win1_10.index t (0 : Fin 1) * 2 + 1 * (y 0).val = (y 0).val; rw [e0]; omega

-- the TensorCore's buffer contents when the region is entered: any contents at all
variable (V : (c : Dev nD) → (b : Ref sig .tc) → Buf (Elt Ideal) ((c : Thread nD τ).loc b))

/-! ## What point `t` writes back

  Each input window's block, as the region finds its array: a band of the array for the row windows, the
  whole array for the weights and biases. -/

theorem iblk_0 (c : Dev nD) (t : Fin cfg1.N) :
    @Eq (Spec.Mat 5000 128) (iblk1 V c 0 t) (Spec.rows 5000 t.val (band_le t) (V c main_arg0)) :=
  read_blk0 t (V c main_arg0)
theorem iblk_1 (c : Dev nD) (t : Fin cfg1.N) :
    @Eq (Spec.Mat 5000 128) (iblk1 V c 1 t) (Spec.rows 5000 t.val (band_le t) (V c main_v4)) :=
  read_blk1 t (V c main_v4)
theorem iblk_2 (c : Dev nD) (t : Fin cfg1.N) :
    @Eq (Spec.Mat 5000 32) (iblk1 V c 2 t) (Spec.rows 5000 t.val (band_le t) (V c main_arg2)) :=
  read_blk2 t (V c main_arg2)
theorem iblk_3 (c : Dev nD) (t : Fin cfg1.N) : @Eq (Spec.Mat 128 128) (iblk1 V c 3 t) (V c main_arg6) :=
  read_blk3 t (V c main_arg6)
theorem iblk_4 (c : Dev nD) (t : Fin cfg1.N) : @Eq (Spec.Vc 128) (iblk1 V c 4 t) (V c main_arg7) :=
  read_blk4 t (V c main_arg7)
theorem iblk_5 (c : Dev nD) (t : Fin cfg1.N) : @Eq (Spec.Mat 32 32) (iblk1 V c 5 t) (V c main_arg8) :=
  read_blk5 t (V c main_arg8)
theorem iblk_6 (c : Dev nD) (t : Fin cfg1.N) : @Eq (Spec.Vc 32) (iblk1 V c 6 t) (V c main_arg9) :=
  read_blk6 t (V c main_arg9)
theorem iblk_7 (c : Dev nD) (t : Fin cfg1.N) : @Eq (Spec.Mat 160 128) (iblk1 V c 7 t) (V c main_arg12) :=
  read_blk7 t (V c main_arg12)
theorem iblk_8 (c : Dev nD) (t : Fin cfg1.N) : @Eq (Spec.Vc 128) (iblk1 V c 8 t) (V c main_arg13) :=
  read_blk8 t (V c main_arg13)
theorem iblk_9 (c : Dev nD) (t : Fin cfg1.N) : @Eq (Spec.Mat 128 2) (iblk1 V c 9 t) (V c main_arg16) :=
  read_blk9 t (V c main_arg16)
theorem iblk_10 (c : Dev nD) (t : Fin cfg1.N) : @Eq (Spec.Vc 2) (iblk1 V c 10 t) (V c main_arg17) :=
  read_blk10 t (V c main_arg17)

/-- Point `t` writes back to the node-state array band `t` of the node update of the whole arrays: the update of a
    band is the band of the update. -/
theorem flushed_x (c : Dev nD) (t : Fin cfg1.N) :
    (dat1 (F := Ideal) V c).flushed 11 t
      = ((cfg1.win 11).blk t).view.read (Elt Ideal)
          (Spec.nodeX (V c main_arg0) (V c main_v4) (V c main_arg6) (V c main_arg7)) := by
  show (cfg1.win 11).cut (grid1.coords t) ((dat1 V c).after 11 t) = _
  rw [after1_11]
  unfold out1_11
  rw [View.canon_unit_zero hz2]
  simp only [View.ld_unit_zero (S := S5000x128) hz2, View.ld_unit_zero (S := S128x128) hz2,
    View.ld_unit_zero (S := S128) hz1]
  rw [read_blk11 t, iblk_0 V c t, iblk_1 V c t, iblk_3 V c t, iblk_4 V c t, pay_x, Spec.nodeX_rows]
  rfl

/-- Point `t` writes back to the node-logit array band `t` of the node head over the whole arrays. -/
theorem flushed_o (c : Dev nD) (t : Fin cfg1.N) :
    (dat1 (F := Ideal) V c).flushed 12 t
      = ((cfg1.win 12).blk t).view.read (Elt Ideal)
          (Spec.nodeO (Spec.nodeX (V c main_arg0) (V c main_v4) (V c main_arg6) (V c main_arg7))
            (Spec.dense (V c main_arg2) (V c main_arg8) (V c main_arg9))
            (V c main_arg12) (V c main_arg13) (V c main_arg16) (V c main_arg17)) := by
  show (cfg1.win 12).cut (grid1.coords t) ((dat1 V c).after 12 t) = _
  rw [after1_12]
  unfold out1_12
  rw [View.canon_unit_zero hz2]
  simp only [View.ld_unit_zero (S := S5000x128) hz2, View.ld_unit_zero (S := S128x128) hz2,
    View.ld_unit_zero (S := S128) hz1, View.ld_unit_zero (S := S5000x32) hz2, View.ld_unit_zero (S := S32x32) hz2,
    View.ld_unit_zero (S := S32) hz1, View.ld_unit_zero (S := S160x128) hz2, View.ld_unit_zero (S := S128x2) hz2,
    View.ld_unit_zero (S := S2) hz1]
  rw [read_blk12 t, iblk_0 V c t, iblk_1 V c t, iblk_2 V c t, iblk_3 V c t, iblk_4 V c t, iblk_5 V c t, iblk_6 V c t,
    iblk_7 V c t, iblk_8 V c t, iblk_9 V c t, iblk_10 V c t, pay_o, Spec.nodeX_rows, Spec.dense_rows, Spec.nodeO_rows]
  rfl

/-! ## The bands cover the arrays -/

/-- An index of the node-state array is in point `t`'s block iff each coordinate is in the block's range on its axis. -/
theorem mem_blk11 (t : Fin cfg1.N) (i : S50000x128.Idx) :
    i ∈ ((cfg1.win 11).blk t).view.set ↔ ∀ a : Fin 2, win1_11.index t a * S5000x128.size a ≤ (i a).val ∧ (i a).val < win1_11.index t a * S5000x128.size a + S5000x128.size a := by
  show i ∈ ((View.whole main_v5_0).slice (win1_11.rect t)).set ↔ _
  rw [View.set_slice_whole, Rect.mem_set_unit]
  exact Iff.rfl

/-- An index of the node-logit array is in point `t`'s block iff each coordinate is in the block's range on its axis. -/
theorem mem_blk12 (t : Fin cfg1.N) (i : S50000x2.Idx) :
    i ∈ ((cfg1.win 12).blk t).view.set ↔ ∀ a : Fin 2, win1_12.index t a * S5000x2.size a ≤ (i a).val ∧ (i a).val < win1_12.index t a * S5000x2.size a + S5000x2.size a := by
  show i ∈ ((View.whole main_v5_1).slice (win1_12.rect t)).set ↔ _
  rw [View.set_slice_whole, Rect.mem_set_unit]
  exact Iff.rfl

/-- Row `r` of the node-state array lies in the block of point `r / 5000`. -/
theorem cover11 (i : S50000x128.Idx) :
    ∃ t : Fin cfg1.N, (cfg1.win 11).flush t = true ∧ i ∈ ((cfg1.win 11).blk t).view.set := by
  have hi0 : (i 0).val < 50000 := (i 0).isLt
  have hi1 : (i 1).val < 128 := (i 1).isLt
  have ht : (i 0).val / 5000 < cfg1.N := by rw [show cfg1.N = 10 from N_1]; omega
  obtain ⟨-, -, -, ⟨e0, e1⟩, -⟩ := idx_rows ⟨(i 0).val / 5000, ht⟩
  refine ⟨⟨(i 0).val / 5000, ht⟩, flush1_11 _, ?_⟩
  rw [mem_blk11]
  intro a
  match a with
  | ⟨0, _⟩ =>
    show win1_11.index ⟨(i 0).val / 5000, ht⟩ (0 : Fin 2) * 5000 ≤ (i 0).val ∧ (i 0).val < win1_11.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_11.index ⟨(i 0).val / 5000, ht⟩ (1 : Fin 2) * 128 ≤ (i 1).val ∧ (i 1).val < win1_11.index ⟨(i 0).val / 5000, ht⟩ (1 : Fin 2) * 128 + 128
    rw [e1]; omega

/-- Row `r` of the node-logit array lies in the block of point `r / 5000`. -/
theorem cover12 (i : S50000x2.Idx) :
    ∃ t : Fin cfg1.N, (cfg1.win 12).flush t = true ∧ i ∈ ((cfg1.win 12).blk t).view.set := by
  have hi0 : (i 0).val < 50000 := (i 0).isLt
  have hi1 : (i 1).val < 2 := (i 1).isLt
  have ht : (i 0).val / 5000 < cfg1.N := by rw [show cfg1.N = 10 from N_1]; omega
  obtain ⟨-, -, -, -, e0, e1⟩ := idx_rows ⟨(i 0).val / 5000, ht⟩
  refine ⟨⟨(i 0).val / 5000, ht⟩, flush1_12 _, ?_⟩
  rw [mem_blk12]
  intro a
  match a with
  | ⟨0, _⟩ =>
    show win1_12.index ⟨(i 0).val / 5000, ht⟩ (0 : Fin 2) * 5000 ≤ (i 0).val ∧ (i 0).val < win1_12.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_12.index ⟨(i 0).val / 5000, ht⟩ (1 : Fin 2) * 2 ≤ (i 1).val ∧ (i 1).val < win1_12.index ⟨(i 0).val / 5000, ht⟩ (1 : Fin 2) * 2 + 2
    rw [e1]; omega

/-! ## The arrays the region leaves -/

/-- After the region the node-state array is the node update of the whole node and aggregate arrays. -/
theorem final_x (c : Dev nD) :
    (dat1 (F := Ideal) V c).arrAt 11 cfg1.N
      = Spec.nodeX (V c main_arg0) (V c main_v4) (V c main_arg6) (V c main_arg7) :=
  (dat1 (F := Ideal) V c).arrAt_eq_of_cover 11
    (Spec.nodeX (V c main_arg0) (V c main_v4) (V c main_arg6) (V c main_arg7))
    (fun t _ => flushed_x V c t) cover11

/-- After the region the node-logit array is the node head over the node state and the projected distances. -/
theorem final_o (c : Dev nD) :
    (dat1 (F := Ideal) V c).arrAt 12 cfg1.N
      = Spec.nodeO (Spec.nodeX (V c main_arg0) (V c main_v4) (V c main_arg6) (V c main_arg7))
          (Spec.dense (V c main_arg2) (V c main_arg8) (V c main_arg9))
          (V c main_arg12) (V c main_arg13) (V c main_arg16) (V c main_arg17) :=
  (dat1 (F := Ideal) V c).arrAt_eq_of_cover 12
    (Spec.nodeO (Spec.nodeX (V c main_arg0) (V c main_v4) (V c main_arg6) (V c main_arg7))
      (Spec.dense (V c main_arg2) (V c main_arg8) (V c main_arg9))
      (V c main_arg12) (V c main_arg13) (V c main_arg16) (V c main_arg17))
    (fun t _ => flushed_o V c t) cover12

end Cert.KernelIdeal.Reg1

end
-- ==== Proof.Reg2.lean ====
/-
  The third kernel walks the 800000 edge rows in 100 bands of 8000. At each band it computes, row by row, the
  projected edge distances, the two gathered endpoint states side by side and rectified, the hidden layer over
  those beside the distances, and the two logits, which it writes back. Every weight matrix and bias is staged
  whole at every band. Since all of it is row by row, the array it leaves is the edge head of the whole arrays.
-/
import proofs.«426157_j56246891709114_1_alg».proof.Proof.Gen.KernelIdeal.Frame
import proofs.«426157_j56246891709114_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat Cfg Window)

open scoped BigOperators

/-! ## A product into a zero accumulator, read at an entry

For dimension numbers that contract the left operand's columns against the right operand's rows, entry `(r, j)` of
the product is the sum over `k` of `A r k * W k j`. The four coordinate facts about the dimension numbers are taken
as hypotheses here and supplied per record below. -/

theorem matmul_entry {R K M : ℕ} (D : DotDims ⟨2, ![R, K]⟩ ⟨2, ![K, M]⟩ ⟨2, ![R, M]⟩)
    (hr : D.contr.rank = 1) (hs : D.contr.size ⟨0, by omega⟩ = K)
    (hl0 : ∀ (i : (⟨2, ![R, M]⟩ : Shape).Idx) (q : D.contr.Idx), (D.lhsIdx i q 0).val = (i 0).val)
    (hl1 : ∀ (i : (⟨2, ![R, M]⟩ : Shape).Idx) (q : D.contr.Idx), (D.lhsIdx i q 1).val = (q ⟨0, by omega⟩).val)
    (hr0 : ∀ (i : (⟨2, ![R, M]⟩ : Shape).Idx) (q : D.contr.Idx), (D.rhsIdx i q 0).val = (q ⟨0, by omega⟩).val)
    (hr1 : ∀ (i : (⟨2, ![R, M]⟩ : Shape).Idx) (q : D.contr.Idx), (D.rhsIdx i q 1).val = (i 1).val)
    (A : FVec Ideal ⟨2, ![R, K]⟩ .f32) (W : FVec Ideal ⟨2, ![K, M]⟩ .f32) (r : Fin R) (j : Fin M) :
    matmul D none A W (constant ⟨2, ![R, M]⟩ .f32 0x00000000#32) (ix2 r j) = ∑ k : Fin K, A (ix2 r k) * W (ix2 k j) := by
  refine (Ideal.matmul_constant_zero_apply D none A W (ix2 r j)).trans ?_
  rw [← Equiv.sum_comp (contrEquiv1 D K hr hs).symm]
  refine Finset.sum_congr rfl fun k _ => ?_
  have hk := contrEquiv1_symm_val D K hr hs k
  have el : D.lhsIdx (ix2 r j) ((contrEquiv1 D K hr hs).symm k) = ix2 r k :=
    Shape.idx_ext₂ (hl0 _ _) ((hl1 _ _).trans hk)
  have er : D.rhsIdx (ix2 r j) ((contrEquiv1 D K hr hs).symm k) = ix2 k j :=
    Shape.idx_ext₂ ((hr0 _ _).trans hk) (hr1 _ _)
  rw [el, er]

/-! ## The three products of the edge kernel -/

theorem lhs_dist_0 (i : S8000x32.Idx) (q : dot_S8000x32_S32x32_S8000x32_1_0_0_1_n_n.contr.Idx) : (dot_S8000x32_S32x32_S8000x32_1_0_0_1_n_n.lhsIdx i q 0).val = (i 0).val := by
  unfold DotDims.lhsIdx
  rw [dif_neg (show ¬(0 : Fin S8000x32.rank) ∈ dot_S8000x32_S32x32_S8000x32_1_0_0_1_n_n.lhsBatch by decide), dif_pos (show (0 : Fin S8000x32.rank) ∈ dot_S8000x32_S32x32_S8000x32_1_0_0_1_n_n.lhsNonContracting by decide)]
  rfl
theorem lhs_dist_1 (i : S8000x32.Idx) (q : dot_S8000x32_S32x32_S8000x32_1_0_0_1_n_n.contr.Idx) : (dot_S8000x32_S32x32_S8000x32_1_0_0_1_n_n.lhsIdx i q 1).val = (q ⟨0, by decide⟩).val :=
  dot_S8000x32_S32x32_S8000x32_1_0_0_1_n_n.lhsIdx_val_of_single rfl i q
theorem rhs_dist_0 (i : S8000x32.Idx) (q : dot_S8000x32_S32x32_S8000x32_1_0_0_1_n_n.contr.Idx) : (dot_S8000x32_S32x32_S8000x32_1_0_0_1_n_n.rhsIdx i q 0).val = (q ⟨0, by decide⟩).val :=
  dot_S8000x32_S32x32_S8000x32_1_0_0_1_n_n.rhsIdx_val_of_single rfl i q
theorem rhs_dist_1 (i : S8000x32.Idx) (q : dot_S8000x32_S32x32_S8000x32_1_0_0_1_n_n.contr.Idx) : (dot_S8000x32_S32x32_S8000x32_1_0_0_1_n_n.rhsIdx i q 1).val = (i 1).val := by
  unfold DotDims.rhsIdx
  rw [dif_neg (show ¬(1 : Fin S32x32.rank) ∈ dot_S8000x32_S32x32_S8000x32_1_0_0_1_n_n.rhsBatch by decide), dif_pos (show (1 : Fin S32x32.rank) ∈ dot_S8000x32_S32x32_S8000x32_1_0_0_1_n_n.rhsNonContracting by decide)]
  rfl
/-- Entry `(r, j)` of this product into a zero accumulator. -/
theorem mm_dist (A : FVec Ideal S8000x32 .f32) (W : FVec Ideal S32x32 .f32) (r : Fin 8000) (j : Fin 32) :
    matmul dot_S8000x32_S32x32_S8000x32_1_0_0_1_n_n none A W (constant S8000x32 .f32 0x00000000#32) (ix2 r j) = ∑ k : Fin 32, A (ix2 r k) * W (ix2 k j) :=
  matmul_entry dot_S8000x32_S32x32_S8000x32_1_0_0_1_n_n rfl rfl lhs_dist_0 lhs_dist_1 rhs_dist_0 rhs_dist_1 A W r j

theorem lhs_hid_0 (i : S8000x128.Idx) (q : dot_S8000x288_S288x128_S8000x128_1_0_0_1_n_n.contr.Idx) : (dot_S8000x288_S288x128_S8000x128_1_0_0_1_n_n.lhsIdx i q 0).val = (i 0).val := by
  unfold DotDims.lhsIdx
  rw [dif_neg (show ¬(0 : Fin S8000x288.rank) ∈ dot_S8000x288_S288x128_S8000x128_1_0_0_1_n_n.lhsBatch by decide), dif_pos (show (0 : Fin S8000x288.rank) ∈ dot_S8000x288_S288x128_S8000x128_1_0_0_1_n_n.lhsNonContracting by decide)]
  rfl
theorem lhs_hid_1 (i : S8000x128.Idx) (q : dot_S8000x288_S288x128_S8000x128_1_0_0_1_n_n.contr.Idx) : (dot_S8000x288_S288x128_S8000x128_1_0_0_1_n_n.lhsIdx i q 1).val = (q ⟨0, by decide⟩).val :=
  dot_S8000x288_S288x128_S8000x128_1_0_0_1_n_n.lhsIdx_val_of_single rfl i q
theorem rhs_hid_0 (i : S8000x128.Idx) (q : dot_S8000x288_S288x128_S8000x128_1_0_0_1_n_n.contr.Idx) : (dot_S8000x288_S288x128_S8000x128_1_0_0_1_n_n.rhsIdx i q 0).val = (q ⟨0, by decide⟩).val :=
  dot_S8000x288_S288x128_S8000x128_1_0_0_1_n_n.rhsIdx_val_of_single rfl i q
theorem rhs_hid_1 (i : S8000x128.Idx) (q : dot_S8000x288_S288x128_S8000x128_1_0_0_1_n_n.contr.Idx) : (dot_S8000x288_S288x128_S8000x128_1_0_0_1_n_n.rhsIdx i q 1).val = (i 1).val := by
  unfold DotDims.rhsIdx
  rw [dif_neg (show ¬(1 : Fin S288x128.rank) ∈ dot_S8000x288_S288x128_S8000x128_1_0_0_1_n_n.rhsBatch by decide), dif_pos (show (1 : Fin S288x128.rank) ∈ dot_S8000x288_S288x128_S8000x128_1_0_0_1_n_n.rhsNonContracting by decide)]
  rfl
/-- Entry `(r, j)` of this product into a zero accumulator. -/
theorem mm_hid (A : FVec Ideal S8000x288 .f32) (W : FVec Ideal S288x128 .f32) (r : Fin 8000) (j : Fin 128) :
    matmul dot_S8000x288_S288x128_S8000x128_1_0_0_1_n_n none A W (constant S8000x128 .f32 0x00000000#32) (ix2 r j) = ∑ k : Fin 288, A (ix2 r k) * W (ix2 k j) :=
  matmul_entry dot_S8000x288_S288x128_S8000x128_1_0_0_1_n_n rfl rfl lhs_hid_0 lhs_hid_1 rhs_hid_0 rhs_hid_1 A W r j

theorem lhs_logit_0 (i : S8000x2.Idx) (q : dot_S8000x128_S128x2_S8000x2_1_0_0_1_n_n.contr.Idx) : (dot_S8000x128_S128x2_S8000x2_1_0_0_1_n_n.lhsIdx i q 0).val = (i 0).val := by
  unfold DotDims.lhsIdx
  rw [dif_neg (show ¬(0 : Fin S8000x128.rank) ∈ dot_S8000x128_S128x2_S8000x2_1_0_0_1_n_n.lhsBatch by decide), dif_pos (show (0 : Fin S8000x128.rank) ∈ dot_S8000x128_S128x2_S8000x2_1_0_0_1_n_n.lhsNonContracting by decide)]
  rfl
theorem lhs_logit_1 (i : S8000x2.Idx) (q : dot_S8000x128_S128x2_S8000x2_1_0_0_1_n_n.contr.Idx) : (dot_S8000x128_S128x2_S8000x2_1_0_0_1_n_n.lhsIdx i q 1).val = (q ⟨0, by decide⟩).val :=
  dot_S8000x128_S128x2_S8000x2_1_0_0_1_n_n.lhsIdx_val_of_single rfl i q
theorem rhs_logit_0 (i : S8000x2.Idx) (q : dot_S8000x128_S128x2_S8000x2_1_0_0_1_n_n.contr.Idx) : (dot_S8000x128_S128x2_S8000x2_1_0_0_1_n_n.rhsIdx i q 0).val = (q ⟨0, by decide⟩).val :=
  dot_S8000x128_S128x2_S8000x2_1_0_0_1_n_n.rhsIdx_val_of_single rfl i q
theorem rhs_logit_1 (i : S8000x2.Idx) (q : dot_S8000x128_S128x2_S8000x2_1_0_0_1_n_n.contr.Idx) : (dot_S8000x128_S128x2_S8000x2_1_0_0_1_n_n.rhsIdx i q 1).val = (i 1).val := by
  unfold DotDims.rhsIdx
  rw [dif_neg (show ¬(1 : Fin S128x2.rank) ∈ dot_S8000x128_S128x2_S8000x2_1_0_0_1_n_n.rhsBatch by decide), dif_pos (show (1 : Fin S128x2.rank) ∈ dot_S8000x128_S128x2_S8000x2_1_0_0_1_n_n.rhsNonContracting by decide)]
  rfl
/-- Entry `(r, j)` of this product into a zero accumulator. -/
theorem mm_logit (A : FVec Ideal S8000x128 .f32) (W : FVec Ideal S128x2 .f32) (r : Fin 8000) (j : Fin 2) :
    matmul dot_S8000x128_S128x2_S8000x2_1_0_0_1_n_n none A W (constant S8000x2 .f32 0x00000000#32) (ix2 r j) = ∑ k : Fin 128, A (ix2 r k) * W (ix2 k j) :=
  matmul_entry dot_S8000x128_S128x2_S8000x2_1_0_0_1_n_n rfl rfl lhs_logit_0 lhs_logit_1 rhs_logit_0 rhs_logit_1 A W r j

/-! ## The layers, as the kernel spells them, are the specification's -/

/-- The rectifier against the splat of the zero word. -/
theorem relu_eq {s0 s1 : ℕ} (x : FVec Ideal ⟨2, ![s0, s1]⟩ .f32) :
    maximumf x (broadcast ⟨2, ![s0, s1]⟩ (Scalar.ofBits (F := Ideal) .f32 0x00000000#32)) = Spec.relu x := rfl

/-- A product into the zero accumulator plus a bias row broadcast over the rows is the affine layer. -/
theorem affine_eq {R K M : ℕ} (D : DotDims ⟨2, ![R, K]⟩ ⟨2, ![K, M]⟩ ⟨2, ![R, M]⟩)
    (hmm : ∀ (A : FVec Ideal ⟨2, ![R, K]⟩ .f32) (W : FVec Ideal ⟨2, ![K, M]⟩ .f32) (r : Fin R) (j : Fin M),
      matmul D none A W (constant ⟨2, ![R, M]⟩ .f32 0x00000000#32) (ix2 r j) = ∑ k : Fin K, A (ix2 r k) * W (ix2 k j))
    (hsc : (⟨1, ![M]⟩ : Shape).ShapeCasts ⟨2, ![1, M]⟩) (hbc : (⟨2, ![1, M]⟩ : Shape).Broadcasts ⟨2, ![R, M]⟩)
    (A : FVec Ideal ⟨2, ![R, K]⟩ .f32) (W : FVec Ideal ⟨2, ![K, M]⟩ .f32) (b : FVec Ideal ⟨1, ![M]⟩ .f32) :
    addf (matmul D none A W (constant ⟨2, ![R, M]⟩ .f32 0x00000000#32))
        (broadcastTo ⟨2, ![R, M]⟩ (shapeCast ⟨2, ![1, M]⟩ b hsc) hbc) = Spec.affine A W b := by
  funext i
  obtain ⟨r, j, rfl⟩ : ∃ (r : Fin R) (j : Fin M), i = ix2 r j :=
    ⟨Spec.rowOf i, Spec.colOf i, (Spec.ix2_rowOf_colOf i).symm⟩
  show matmul D none A W (constant ⟨2, ![R, M]⟩ .f32 0x00000000#32) (ix2 r j)
      + broadcastTo ⟨2, ![R, M]⟩ (shapeCast ⟨2, ![1, M]⟩ b hsc) hbc (ix2 r j)
    = (∑ k : Fin K, A (ix2 r k) * W (ix2 k j)) + b (ix1 j)
  rw [hmm, broadcastTo_1b_ab_apply, shapeCast_a_1a_apply]

/-- Two blocks joined along the columns are the specification's side-by-side matrix. -/
theorem cat_eq {R A B : ℕ} (C : ℕ) (hC : A + B = C)
    (h : Shape.Concatenates [(⟨2, ![R, A]⟩ : Shape), ⟨2, ![R, B]⟩] ⟨2, ![R, C]⟩ 1)
    (x : FVec Ideal ⟨2, ![R, A]⟩ .f32) (y : FVec Ideal ⟨2, ![R, B]⟩ .f32) :
    concatenate ⟨2, ![R, C]⟩ 1 [⟨⟨2, ![R, A]⟩, x⟩, ⟨⟨2, ![R, B]⟩, y⟩] h = Spec.cat C hC x y := by
  funext i
  obtain ⟨r, j, rfl⟩ : ∃ (r : Fin R) (j : Fin C), i = ix2 r j :=
    ⟨Spec.rowOf i, Spec.colOf i, (Spec.ix2_rowOf_colOf i).symm⟩
  by_cases hj : j.val < A
  · refine (concatenate_pair_apply_left (1 : Fin 2) x y h (ix2 r j) rfl (ix2 r ⟨j.val, hj⟩) fun b => ?_).trans ?_
    · match b with
      | ⟨0, _⟩ => rfl
      | ⟨1, _⟩ => rfl
    · show _ = if h : j.val < A then x (ix2 r ⟨j.val, h⟩) else y (ix2 r ⟨j.val - A, _⟩)
      rw [dif_pos hj]
  · have hjB : j.val - A < B := by have := j.isLt; omega
    refine (concatenate_pair_apply_right (1 : Fin 2) x y h (ix2 r j) rfl rfl (ix2 r ⟨j.val - A, hjB⟩) (fun b hb => ?_) ?_).trans ?_
    · match b with
      | ⟨0, _⟩ => rfl
      | ⟨1, _⟩ => exact absurd rfl hb
    · show j.val - A + A = j.val
      omega
    · show _ = if h : j.val < A then x (ix2 r ⟨j.val, h⟩) else y (ix2 r ⟨j.val - A, _⟩)
      rw [dif_neg hj]

/-! ## The body's value is the edge head of its blocks -/

/-- What the body stores, from the blocks it loads: the edge head over the two endpoint-state blocks and the
    projected distance block. -/
theorem pay_eq (v0 : Vec Ideal S8000x32 .f32) (v1 : Vec Ideal S32x32 .f32) (v3 : Vec Ideal S32 .f32)
    (v9 v11 : Vec Ideal S8000x128 .f32) (v17 : Vec Ideal S288x128 .f32) (v19 : Vec Ideal S128 .f32)
    (v25 : Vec Ideal S128x2 .f32) (v27 : Vec Ideal S2 .f32) :
    k2_pay1 v0 v1 v3 v9 v11 v17 v19 v25 v27
      = Spec.edgeO v9 v11 (Spec.dense v0 v1 v3) v17 v19 v25 v27 := by
  unfold k2_pay1
  simp only [shapeCast_self]
  rw [cat_eq 256 rfl, shapeCast_self, shapeCast_self, affine_eq _ mm_dist, affine_eq _ mm_logit, relu_eq, relu_eq, cat_eq 288 rfl,
    affine_eq _ mm_hid, relu_eq]
  rfl

/-! ## Each window's block is a band of its array, or the whole of it -/

theorem hz : (![0, 0] : Fin 2 → Nat) = fun _ => 0 := funext fun a => by fin_cases a <;> rfl
theorem hz1 : (![0] : Fin 1 → Nat) = fun _ => 0 := funext fun a => by fin_cases a; rfl

/-- Band `t` of 8000 rows lies inside the 800000 rows. -/
theorem band_le (t : Fin cfg2.N) : t.val * 8000 + 8000 ≤ 800000 := by
  have : t.val < 100 := t.isLt
  omega

/-- The printed index maps, decided over the grid: the three row windows and the output window sit at block
    `(t, 0)`, the six weight and bias windows at block zero. -/
theorem idx_rows : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_9.index t (0 : Fin 2) = t.val ∧ win2_9.index t (1 : Fin 2) = 0 :=
  (by decide +kernel : ∀ t : Fin grid2.N, _)

theorem idx_whole : ∀ t : Fin cfg2.N,
    win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = 0 ∧ win2_7.index t (1 : Fin 2) = 0
    ∧ win2_8.index t (0 : Fin 1) = 0 :=
  (by decide +kernel : ∀ t : Fin grid2.N, _)

/-- Window 0's block at point `t` is band `t` of its array. -/
theorem read_blk_0 (X : Spec.Mat 800000 128) (t : Fin cfg2.N) :
    ((cfg2.win 0).blk t).view.read (Elt Ideal) X = Spec.rows 8000 t.val (band_le t) X := by
  funext y
  obtain ⟨e0, e1, -⟩ := idx_rows t
  show X (((cfg2.win 0).blk t).view.emb y) = X (ix2 ⟨t.val * 8000 + (y 0).val, _⟩ ⟨(y 1).val, _⟩)
  refine congrArg X (funext fun a => Fin.ext ?_)
  match a with
  | ⟨0, _⟩ => show win2_0.index t (0 : Fin 2) * 8000 + 1 * (y 0).val = t.val * 8000 + (y 0).val; rw [e0]; omega
  | ⟨1, _⟩ => show win2_0.index t (1 : Fin 2) * 128 + 1 * (y 1).val = (y 1).val; rw [e1]; omega

/-- Window 1's block at point `t` is band `t` of its array. -/
theorem read_blk_1 (X : Spec.Mat 800000 128) (t : Fin cfg2.N) :
    ((cfg2.win 1).blk t).view.read (Elt Ideal) X = Spec.rows 8000 t.val (band_le t) X := by
  funext y
  obtain ⟨-, -, e0, e1, -⟩ := idx_rows t
  show X (((cfg2.win 1).blk t).view.emb y) = X (ix2 ⟨t.val * 8000 + (y 0).val, _⟩ ⟨(y 1).val, _⟩)
  refine congrArg X (funext fun a => Fin.ext ?_)
  match a with
  | ⟨0, _⟩ => show win2_1.index t (0 : Fin 2) * 8000 + 1 * (y 0).val = t.val * 8000 + (y 0).val; rw [e0]; omega
  | ⟨1, _⟩ => show win2_1.index t (1 : Fin 2) * 128 + 1 * (y 1).val = (y 1).val; rw [e1]; omega

/-- Window 2's block at point `t` is band `t` of its array. -/
theorem read_blk_2 (X : Spec.Mat 800000 32) (t : Fin cfg2.N) :
    ((cfg2.win 2).blk t).view.read (Elt Ideal) X = Spec.rows 8000 t.val (band_le t) X := by
  funext y
  obtain ⟨-, -, -, -, e0, e1, -⟩ := idx_rows t
  show X (((cfg2.win 2).blk t).view.emb y) = X (ix2 ⟨t.val * 8000 + (y 0).val, _⟩ ⟨(y 1).val, _⟩)
  refine congrArg X (funext fun a => Fin.ext ?_)
  match a with
  | ⟨0, _⟩ => show win2_2.index t (0 : Fin 2) * 8000 + 1 * (y 0).val = t.val * 8000 + (y 0).val; rw [e0]; omega
  | ⟨1, _⟩ => show win2_2.index t (1 : Fin 2) * 32 + 1 * (y 1).val = (y 1).val; rw [e1]; omega

/-- Window 9's block at point `t` is band `t` of its array. -/
theorem read_blk_9 (X : Spec.Mat 800000 2) (t : Fin cfg2.N) :
    ((cfg2.win 9).blk t).view.read (Elt Ideal) X = Spec.rows 8000 t.val (band_le t) X := by
  funext y
  obtain ⟨-, -, -, -, -, -, e0, e1⟩ := idx_rows t
  show X (((cfg2.win 9).blk t).view.emb y) = X (ix2 ⟨t.val * 8000 + (y 0).val, _⟩ ⟨(y 1).val, _⟩)
  refine congrArg X (funext fun a => Fin.ext ?_)
  match a with
  | ⟨0, _⟩ => show win2_9.index t (0 : Fin 2) * 8000 + 1 * (y 0).val = t.val * 8000 + (y 0).val; rw [e0]; omega
  | ⟨1, _⟩ => show win2_9.index t (1 : Fin 2) * 2 + 1 * (y 1).val = (y 1).val; rw [e1]; omega

/-- Window 3's block at every point is its whole array. -/
theorem read_blk_3 (X : Spec.Mat 32 32) (t : Fin cfg2.N) :
    ((cfg2.win 3).blk t).view.read (Elt Ideal) X = X := by
  funext y
  obtain ⟨e0, e1, -⟩ := idx_whole t
  show X (((cfg2.win 3).blk t).view.emb y) = X y
  refine congrArg X (funext fun a => Fin.ext ?_)
  match a with
  | ⟨0, _⟩ => show win2_3.index t (0 : Fin 2) * 32 + 1 * (y 0).val = (y 0).val; rw [e0]; omega
  | ⟨1, _⟩ => show win2_3.index t (1 : Fin 2) * 32 + 1 * (y 1).val = (y 1).val; rw [e1]; omega

/-- Window 4's block at every point is its whole array. -/
theorem read_blk_4 (X : Spec.Vc 32) (t : Fin cfg2.N) :
    ((cfg2.win 4).blk t).view.read (Elt Ideal) X = X := by
  funext y
  obtain ⟨-, -, e0, -⟩ := idx_whole t
  show X (((cfg2.win 4).blk t).view.emb y) = X y
  refine congrArg X (funext fun a => Fin.ext ?_)
  match a with
  | ⟨0, _⟩ => show win2_4.index t (0 : Fin 1) * 32 + 1 * (y 0).val = (y 0).val; rw [e0]; omega

/-- Window 5's block at every point is its whole array. -/
theorem read_blk_5 (X : Spec.Mat 288 128) (t : Fin cfg2.N) :
    ((cfg2.win 5).blk t).view.read (Elt Ideal) X = X := by
  funext y
  obtain ⟨-, -, -, e0, e1, -⟩ := idx_whole t
  show X (((cfg2.win 5).blk t).view.emb y) = X y
  refine congrArg X (funext fun a => Fin.ext ?_)
  match a with
  | ⟨0, _⟩ => show win2_5.index t (0 : Fin 2) * 288 + 1 * (y 0).val = (y 0).val; rw [e0]; omega
  | ⟨1, _⟩ => show win2_5.index t (1 : Fin 2) * 128 + 1 * (y 1).val = (y 1).val; rw [e1]; omega

/-- Window 6's block at every point is its whole array. -/
theorem read_blk_6 (X : Spec.Vc 128) (t : Fin cfg2.N) :
    ((cfg2.win 6).blk t).view.read (Elt Ideal) X = X := by
  funext y
  obtain ⟨-, -, -, -, -, e0, -⟩ := idx_whole t
  show X (((cfg2.win 6).blk t).view.emb y) = X y
  refine congrArg X (funext fun a => Fin.ext ?_)
  match a with
  | ⟨0, _⟩ => show win2_6.index t (0 : Fin 1) * 128 + 1 * (y 0).val = (y 0).val; rw [e0]; omega

/-- Window 7's block at every point is its whole array. -/
theorem read_blk_7 (X : Spec.Mat 128 2) (t : Fin cfg2.N) :
    ((cfg2.win 7).blk t).view.read (Elt Ideal) X = X := by
  funext y
  obtain ⟨-, -, -, -, -, -, e0, e1, -⟩ := idx_whole t
  show X (((cfg2.win 7).blk t).view.emb y) = X y
  refine congrArg X (funext fun a => Fin.ext ?_)
  match a with
  | ⟨0, _⟩ => show win2_7.index t (0 : Fin 2) * 128 + 1 * (y 0).val = (y 0).val; rw [e0]; omega
  | ⟨1, _⟩ => show win2_7.index t (1 : Fin 2) * 2 + 1 * (y 1).val = (y 1).val; rw [e1]; omega

/-- Window 8's block at every point is its whole array. -/
theorem read_blk_8 (X : Spec.Vc 2) (t : Fin cfg2.N) :
    ((cfg2.win 8).blk t).view.read (Elt Ideal) X = X := by
  funext y
  obtain ⟨-, -, -, -, -, -, -, -, e0⟩ := idx_whole t
  show X (((cfg2.win 8).blk t).view.emb y) = X y
  refine congrArg X (funext fun a => Fin.ext ?_)
  match a with
  | ⟨0, _⟩ => show win2_8.index t (0 : Fin 1) * 2 + 1 * (y 0).val = (y 0).val; rw [e0]; omega

/-! ## What a point writes back -/

section
variable (V : (c : Dev nD) → (b : Ref sig .tc) → Buf (Elt Ideal) ((c : Thread nD τ).loc b))

theorem iblk_0 (c : Dev nD) (t : Fin cfg2.N) : iblk2 V c 0 t = Spec.rows 8000 t.val (band_le t) (V c main_v6) :=
  read_blk_0 (V c main_v6) t
theorem iblk_1 (c : Dev nD) (t : Fin cfg2.N) : iblk2 V c 1 t = Spec.rows 8000 t.val (band_le t) (V c main_v7) :=
  read_blk_1 (V c main_v7) t
theorem iblk_2 (c : Dev nD) (t : Fin cfg2.N) : iblk2 V c 2 t = Spec.rows 8000 t.val (band_le t) (V c main_arg3) :=
  read_blk_2 (V c main_arg3) t
theorem iblk_3 (c : Dev nD) (t : Fin cfg2.N) : iblk2 V c 3 t = V c main_arg10 := read_blk_3 (V c main_arg10) t
theorem iblk_4 (c : Dev nD) (t : Fin cfg2.N) : iblk2 V c 4 t = V c main_arg11 := read_blk_4 (V c main_arg11) t
theorem iblk_5 (c : Dev nD) (t : Fin cfg2.N) : iblk2 V c 5 t = V c main_arg14 := read_blk_5 (V c main_arg14) t
theorem iblk_6 (c : Dev nD) (t : Fin cfg2.N) : iblk2 V c 6 t = V c main_arg15 := read_blk_6 (V c main_arg15) t
theorem iblk_7 (c : Dev nD) (t : Fin cfg2.N) : iblk2 V c 7 t = V c main_arg18 := read_blk_7 (V c main_arg18) t
theorem iblk_8 (c : Dev nD) (t : Fin cfg2.N) : iblk2 V c 8 t = V c main_arg19 := read_blk_8 (V c main_arg19) t

end

section
variable (V : (c : Dev nD) → (b : Ref sig .tc) → Buf (Elt Ideal) ((c : Thread nD τ).loc b))

/-- WHAT POINT `t` WRITES BACK is band `t` of the edge head of the whole arrays: the body's value is the edge head
    of the blocks, each row block is band `t` of its array and each weight block its whole array, and the edge head of
    bands is the band of the edge head. -/
theorem flushed_eq (c : Dev nD) (t : Fin cfg2.N) :
    (dat2 (F := Ideal) V c).flushed 9 t
      = ((cfg2.win 9).blk t).view.read (Elt Ideal)
          (Spec.edgeO (V c main_v6) (V c main_v7) (Spec.dense (V c main_arg3) (V c main_arg10) (V c main_arg11))
            (V c main_arg14) (V c main_arg15) (V c main_arg18) (V c main_arg19)) := by
  show (cfg2.win 9).cut (grid2.coords t) ((dat2 V c).after 9 t) = _
  rw [after2_9]
  unfold out2_9
  rw [View.canon_unit_zero hz]
  simp only [View.ld_unit_zero (S := S8000x32) hz, View.ld_unit_zero (S := S32x32) hz, View.ld_unit_zero (S := S32) hz1,
    View.ld_unit_zero (S := S8000x128) hz, View.ld_unit_zero (S := S288x128) hz, View.ld_unit_zero (S := S128) hz1,
    View.ld_unit_zero (S := S128x2) hz, View.ld_unit_zero (S := S2) hz1]
  rw [pay_eq, iblk_0, iblk_1, iblk_2, iblk_3, iblk_4, iblk_5, iblk_6, iblk_7, iblk_8, Spec.dense_rows,
    Spec.edgeO_rows, read_blk_9]
  rfl

end

/-! ## The bands cover the array -/

/-- An index of the array is in point `t`'s block iff each coordinate is in the block's range on its axis. -/
theorem mem_blk (t : Fin cfg2.N) (i : S800000x2.Idx) :
    i ∈ ((cfg2.win 9).blk t).view.set ↔ ∀ a : Fin 2, win2_9.index t a * S8000x2.size a ≤ (i a).val
      ∧ (i a).val < win2_9.index t a * S8000x2.size a + S8000x2.size a := by
  show i ∈ ((View.whole main_v8).slice (win2_9.rect t)).set ↔ _
  rw [View.set_slice_whole, Rect.mem_set_unit]
  exact Iff.rfl

/-- Row `r` lies in the band of point `r / 8000`, which writes back. -/
theorem cover (i : S800000x2.Idx) :
    ∃ t : Fin cfg2.N, (cfg2.win 9).flush t = true ∧ i ∈ ((cfg2.win 9).blk t).view.set := by
  have hi0 : (i 0).val < 800000 := (i 0).isLt
  have hi1 : (i 1).val < 2 := (i 1).isLt
  obtain ⟨t, ht⟩ : ∃ t : Fin cfg2.N, t.val = (i 0).val / 8000 :=
    ⟨⟨(i 0).val / 8000, by show _ < 100; omega⟩, rfl⟩
  obtain ⟨-, -, -, -, -, -, e0, e1⟩ := idx_rows t
  refine ⟨t, flush2_9 t, ?_⟩
  rw [mem_blk]
  intro a
  match a with
  | ⟨0, _⟩ =>
    show win2_9.index t (0 : Fin 2) * 8000 ≤ (i 0).val ∧ (i 0).val < win2_9.index t (0 : Fin 2) * 8000 + 8000
    rw [e0]; omega
  | ⟨1, _⟩ =>
    show win2_9.index t (1 : Fin 2) * 2 ≤ (i 1).val ∧ (i 1).val < win2_9.index t (1 : Fin 2) * 2 + 2
    rw [e1]; omega

-- the TensorCore's buffer contents when the region is entered: any contents at all
variable (V : (c : Dev nD) → (b : Ref sig .tc) → Buf (Elt Ideal) ((c : Thread nD τ).loc b))

/-- After the region the edge-logit array is the edge head over the two gathered endpoint-state arrays and the
    projected edge distances. -/
theorem final (c : Dev nD) :
    (dat2 (F := Ideal) V c).arrAt 9 cfg2.N
      = Spec.edgeO (V c main_v6) (V c main_v7) (Spec.dense (V c main_arg3) (V c main_arg10) (V c main_arg11))
          (V c main_arg14) (V c main_arg15) (V c main_arg18) (V c main_arg19) :=
  (dat2 (F := Ideal) V c).arrAt_eq_of_cover 9 _ (fun t _ => flushed_eq V c t) cover

end Cert.KernelIdeal.Reg2

end
-- ==== Proof.Take.lean ====
/-
  Reading rows out of a node table at the edges' endpoints, the kernel's way. The kernel's program wraps a
  negative endpoint by the table's height, gathers the rows at the wrapped endpoints (the gather clamps a start row
  into the table), and then overwrites with a not-a-number every row whose wrapped endpoint was outside the table.
  When every endpoint is a row number of the table, no row is overwritten: the result is the gather itself.
-/
import proofs.«426157_j56246891709114_1_alg».proof.Proof.Gen.KernelIdeal
import proofs.«426157_j56246891709114_1_alg».proof.Proof.Spec
import Idealize.ShloMosaic.Lib.ValueIdx
import Idealize.ShloMosaic.Lib.Pipeline.Value
import Idealize.ShloMosaic.Lib.ReduceAll
import Idealize.ShloMosaic.Lib.StableHlo.Predicate

noncomputable section

namespace Cert.KernelIdeal.Take

open Cert.KernelIdeal Cert.KernelIdeal.Gen
open Idealize.ShloMosaic Idealize.ShloMosaic.TcCoe Idealize.ShloMosaic.ValueIdx

/-- The column of start rows the gather reads: each endpoint, with the table's height added when it is negative. -/
def startCol (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- For each edge, whether its start row is inside the table: at least 0 and at most 49999. -/
def inTable (idx : IVec S800000 32) : IVec S800000 1 :=
  Host.reduce IntOp.andi
    (andi (cmpi .sge (startCol idx) (broadcastInDim S800000x1 ![] bcast_S_S800000x1 (constantI S_ 32 0#32)))
      (cmpi .sle (startCol idx) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The kernel's row lookup: the gathered rows, with a not-a-number in every row whose start row is outside the table. -/
def takeFill (x : FVec Ideal S50000x128 .f32) (idx : IVec S800000 32) : FVec Ideal S800000x128 .f32 :=
  select (broadcastInDim S800000x128 ![0] bcast_S800000_S800000x128_0 (inTable idx))
    (Host.gather gather_S50000x128_S800000x1_S800000x128_1_0_n_n_0_1_1128 x (startCol idx))
    (broadcastInDim S800000x128 ![] bcast_S_S800000x128 (constant (F := Ideal) S_ .f32 0x7FC00000#32))

/-- A 32-bit word that reads, as a signed integer, at least 0 and below 50000 is not negative, and is at most 49999. -/
theorem word_inRange (a : BitVec 32) (h1 : IntOp.cmpi .sge a 0#32 = 1#1) (h2 : IntOp.cmpi .slt a 50000#32 = 1#1) :
    IntOp.cmpi .slt a 0#32 = 0#1 ∧ IntOp.cmpi .sle a 49999#32 = 1#1 := by
  have z : (0#32 : BitVec 32).toInt = 0 := by decide
  have k : (50000#32 : BitVec 32).toInt = 50000 := by decide
  have k' : (49999#32 : BitVec 32).toInt = 49999 := by decide
  rw [IntOp.cmpi_sge, z] at h1
  rw [IntOp.cmpi_slt, k] at h2
  constructor
  · apply eq_zero_of_ne_one
    rw [IntOp.cmpi_slt, z]; omega
  · rw [IntOp.cmpi_sle, k']; omega

/-- Such a word is left as it is by the wrap (it is not negative, so the table's height is not added), and the wrapped
    word passes both tests: at least 0, at most 49999. -/
theorem wrapped_test (a : BitVec 32) (h1 : IntOp.cmpi .sge a 0#32 = 1#1) (h2 : IntOp.cmpi .slt a 50000#32 = 1#1) :
    IntOp.andi
      (IntOp.cmpi .sge (Scalar.select (IntOp.cmpi .slt a 0#32) (IntOp.addi a 50000#32) a) 0#32)
      (IntOp.cmpi .sle (Scalar.select (IntOp.cmpi .slt a 0#32) (IntOp.addi a 50000#32) a) 49999#32) = 1#1 := by
  obtain ⟨hlt, hle⟩ := word_inRange a h1 h2
  rw [hlt, select_zero, h1, hle]; decide

/-- An entry of the column of start rows is the wrapped word of one endpoint: the column only repeats the vector of
    wrapped endpoints along an axis of extent 1, and the two constants it compares and adds are splats. -/
theorem startCol_apply (idx : IVec S800000 32) (i : S800000x1.Idx) :
    ∃ e : S800000.Idx, startCol idx i
      = Scalar.select (IntOp.cmpi .slt (idx e) 0#32) (IntOp.addi (idx e) 50000#32) (idx e) := ⟨_, rfl⟩

/-- A left fold by `and` that starts at 1 and meets only 1s ends at 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- When every endpoint is a row number of the table, every edge passes the test: the test of an edge is the `and`,
    from 1, of the two-sided comparison at each entry of the column that reduces into it, and each such entry is the
    wrapped word of an endpoint in range. -/
theorem inTable_eq_one (idx : IVec S800000 32) (h : Spec.InRange idx) (e : S800000.Idx) : inTable idx e = 1#1 := by
  unfold inTable
  refine (Host.reduce_eq_foldl _ _ _ _ _ _).trans ?_
  refine foldl_andi_one _ (fun i => ?_) _
  obtain ⟨e', he⟩ := startCol_apply idx i
  show IntOp.andi (IntOp.cmpi .sge (startCol idx i) 0#32) (IntOp.cmpi .sle (startCol idx i) 49999#32) = 1#1
  rw [he]
  exact wrapped_test (idx e') (h e').1 (h e').2

/-- When every endpoint is a row number of the table, the lookup is the gather: nothing is overwritten. At each entry
    the selecting bit is the test of that entry's edge, which is 1, so the select keeps the gathered entry. -/
theorem takeFill_eq (x : FVec Ideal S50000x128 .f32) (idx : IVec S800000 32) (h : Spec.InRange idx) :
    takeFill x idx = Host.gather gather_S50000x128_S800000x1_S800000x128_1_0_n_n_0_1_1128 x (startCol idx) := by
  funext j
  unfold takeFill
  refine (select_apply _ _ _ j).trans ?_
  have hm : broadcastInDim S800000x128 ![0] bcast_S800000_S800000x128_0 (inTable idx) j = 1#1 :=
    inTable_eq_one idx h _
  rw [hm, select_one]

end Cert.KernelIdeal.Take

end
-- ==== Proof.KeptBuffers.lean ====
/-
  Which buffers the program leaves alone. Between the launch and a kernel's entry the program runs host operations
  and earlier kernels; an argument array is written by none of them, and a kernel's output array is written by no
  later host operation. Each lemma here follows one buffer from one boundary of the program back to an earlier one.
-/
import proofs.«426157_j56246891709114_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! ## The steps of a walk back

A stretch of host operations writes its operations' results and nothing else, so a buffer that is none of those
results comes through it unchanged; a kernel writes its own arrays and nothing else. A walk back from a boundary to
the launch is a chain of such steps; the chains are stated once for any buffer, each step a hypothesis, and then
read off buffer by buffer. -/

/-- A stretch of host operations leaves a buffer that none of them writes as it was: each operation writes its
    result only, and the buffer is none of the results (compared reference by reference). -/
macro "host_keeps " ops:ident ", " r:term : tactic => `(tactic|
  exact StableHlo.after_of_forall_not_mem (b := Proc.devRef .tc $r) _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

section Chains

variable (c : Dev nD) (r : Ref sig .tc)

/-- Through the first host stretch back to the launch. -/
theorem upto_W1 (h0 : W1 m ρ c (Proc.devRef .tc r) = W0 m ρ c (Proc.devRef .tc r)) :
    W1 m ρ c (Proc.devRef .tc r) = m ((c : Thread nD τ).loc r) :=
  h0.trans rfl

/-- Through the first kernel, of which the buffer is no array. -/
theorem upto_W2 (h0 : W1 m ρ c (Proc.devRef .tc r) = W0 m ρ c (Proc.devRef .tc r))
    (n0 : ∀ w, Pipeline.arrRef spec0 w ≠ r) :
    W2 m ρ c (Proc.devRef .tc r) = m ((c : Thread nD τ).loc r) :=
  (W2_of_ne m ρ c r n0).trans (upto_W1 m ρ c r h0)

/-- Through the second host stretch. -/
theorem upto_W3 (h0 : W1 m ρ c (Proc.devRef .tc r) = W0 m ρ c (Proc.devRef .tc r))
    (n0 : ∀ w, Pipeline.arrRef spec0 w ≠ r)
    (h1 : W3 m ρ c (Proc.devRef .tc r) = W2 m ρ c (Proc.devRef .tc r)) :
    W3 m ρ c (Proc.devRef .tc r) = m ((c : Thread nD τ).loc r) :=
  h1.trans (upto_W2 m ρ c r h0 n0)

/-- Through the second kernel, of which the buffer is no array. -/
theorem upto_W4 (h0 : W1 m ρ c (Proc.devRef .tc r) = W0 m ρ c (Proc.devRef .tc r))
    (n0 : ∀ w, Pipeline.arrRef spec0 w ≠ r)
    (h1 : W3 m ρ c (Proc.devRef .tc r) = W2 m ρ c (Proc.devRef .tc r))
    (n1 : ∀ w, Pipeline.arrRef spec1 w ≠ r) :
    W4 m ρ c (Proc.devRef .tc r) = m ((c : Thread nD τ).loc r) :=
  (W4_of_ne m ρ c r n1).trans (upto_W3 m ρ c r h0 n0 h1)

/-- Through the first endpoint lookup. -/
theorem upto_W5 (h0 : W1 m ρ c (Proc.devRef .tc r) = W0 m ρ c (Proc.devRef .tc r))
    (n0 : ∀ w, Pipeline.arrRef spec0 w ≠ r)
    (h1 : W3 m ρ c (Proc.devRef .tc r) = W2 m ρ c (Proc.devRef .tc r))
    (n1 : ∀ w, Pipeline.arrRef spec1 w ≠ r)
    (h2 : W5 m ρ c (Proc.devRef .tc r) = W4 m ρ c (Proc.devRef .tc r)) :
    W5 m ρ c (Proc.devRef .tc r) = m ((c : Thread nD τ).loc r) :=
  h2.trans (upto_W4 m ρ c r h0 n0 h1 n1)

/-- Through the second endpoint lookup. -/
theorem upto_W6 (h0 : W1 m ρ c (Proc.devRef .tc r) = W0 m ρ c (Proc.devRef .tc r))
    (n0 : ∀ w, Pipeline.arrRef spec0 w ≠ r)
    (h1 : W3 m ρ c (Proc.devRef .tc r) = W2 m ρ c (Proc.devRef .tc r))
    (n1 : ∀ w, Pipeline.arrRef spec1 w ≠ r)
    (h2 : W5 m ρ c (Proc.devRef .tc r) = W4 m ρ c (Proc.devRef .tc r))
    (h3 : W6 m ρ c (Proc.devRef .tc r) = W5 m ρ c (Proc.devRef .tc r)) :
    W6 m ρ c (Proc.devRef .tc r) = m ((c : Thread nD τ).loc r) :=
  h3.trans (upto_W5 m ρ c r h0 n0 h1 n1 h2)

end Chains

/-! ## Buffer by buffer -/

/-- At the first kernel's entry the edge-feature argument is as launched. -/
theorem W1_arg1 (c : Dev nD) : W1 m ρ c (Proc.devRef .tc main_arg1) = m ((c : Thread nD τ).loc main_arg1) :=
  upto_W1 m ρ c main_arg1 (by host_keeps hostOps0, main_arg1)

/-- After the first kernel the destination-endpoint argument is as launched. -/
theorem W2_arg5 (c : Dev nD) : W2 m ρ c (Proc.devRef .tc main_arg5) = m ((c : Thread nD τ).loc main_arg5) :=
  upto_W2 m ρ c main_arg5 (by host_keeps hostOps0, main_arg5) (by decide)

/-- At the second kernel's entry argument 0 is as launched. -/
theorem W3_arg0 (c : Dev nD) : W3 m ρ c (Proc.devRef .tc main_arg0) = m ((c : Thread nD τ).loc main_arg0) :=
  upto_W3 m ρ c main_arg0 (by host_keeps hostOps0, main_arg0) (by decide) (by host_keeps hostOps1, main_arg0)

/-- At the second kernel's entry argument 2 is as launched. -/
theorem W3_arg2 (c : Dev nD) : W3 m ρ c (Proc.devRef .tc main_arg2) = m ((c : Thread nD τ).loc main_arg2) :=
  upto_W3 m ρ c main_arg2 (by host_keeps hostOps0, main_arg2) (by decide) (by host_keeps hostOps1, main_arg2)

/-- At the second kernel's entry argument 6 is as launched. -/
theorem W3_arg6 (c : Dev nD) : W3 m ρ c (Proc.devRef .tc main_arg6) = m ((c : Thread nD τ).loc main_arg6) :=
  upto_W3 m ρ c main_arg6 (by host_keeps hostOps0, main_arg6) (by decide) (by host_keeps hostOps1, main_arg6)

/-- At the second kernel's entry argument 7 is as launched. -/
theorem W3_arg7 (c : Dev nD) : W3 m ρ c (Proc.devRef .tc main_arg7) = m ((c : Thread nD τ).loc main_arg7) :=
  upto_W3 m ρ c main_arg7 (by host_keeps hostOps0, main_arg7) (by decide) (by host_keeps hostOps1, main_arg7)

/-- At the second kernel's entry argument 8 is as launched. -/
theorem W3_arg8 (c : Dev nD) : W3 m ρ c (Proc.devRef .tc main_arg8) = m ((c : Thread nD τ).loc main_arg8) :=
  upto_W3 m ρ c main_arg8 (by host_keeps hostOps0, main_arg8) (by decide) (by host_keeps hostOps1, main_arg8)

/-- At the second kernel's entry argument 9 is as launched. -/
theorem W3_arg9 (c : Dev nD) : W3 m ρ c (Proc.devRef .tc main_arg9) = m ((c : Thread nD τ).loc main_arg9) :=
  upto_W3 m ρ c main_arg9 (by host_keeps hostOps0, main_arg9) (by decide) (by host_keeps hostOps1, main_arg9)

/-- At the second kernel's entry argument 12 is as launched. -/
theorem W3_arg12 (c : Dev nD) : W3 m ρ c (Proc.devRef .tc main_arg12) = m ((c : Thread nD τ).loc main_arg12) :=
  upto_W3 m ρ c main_arg12 (by host_keeps hostOps0, main_arg12) (by decide) (by host_keeps hostOps1, main_arg12)

/-- At the second kernel's entry argument 13 is as launched. -/
theorem W3_arg13 (c : Dev nD) : W3 m ρ c (Proc.devRef .tc main_arg13) = m ((c : Thread nD τ).loc main_arg13) :=
  upto_W3 m ρ c main_arg13 (by host_keeps hostOps0, main_arg13) (by decide) (by host_keeps hostOps1, main_arg13)

/-- At the second kernel's entry argument 16 is as launched. -/
theorem W3_arg16 (c : Dev nD) : W3 m ρ c (Proc.devRef .tc main_arg16) = m ((c : Thread nD τ).loc main_arg16) :=
  upto_W3 m ρ c main_arg16 (by host_keeps hostOps0, main_arg16) (by decide) (by host_keeps hostOps1, main_arg16)

/-- At the second kernel's entry argument 17 is as launched. -/
theorem W3_arg17 (c : Dev nD) : W3 m ρ c (Proc.devRef .tc main_arg17) = m ((c : Thread nD τ).loc main_arg17) :=
  upto_W3 m ρ c main_arg17 (by host_keeps hostOps0, main_arg17) (by decide) (by host_keeps hostOps1, main_arg17)

/-- After the second kernel the source-endpoint argument is as launched. -/
theorem W4_arg4 (c : Dev nD) : W4 m ρ c (Proc.devRef .tc main_arg4) = m ((c : Thread nD τ).loc main_arg4) :=
  upto_W4 m ρ c main_arg4 (by host_keeps hostOps0, main_arg4) (by decide) (by host_keeps hostOps1, main_arg4) (by decide)

/-- After the first endpoint lookup the destination-endpoint argument is as launched. -/
theorem W5_arg5 (c : Dev nD) : W5 m ρ c (Proc.devRef .tc main_arg5) = m ((c : Thread nD τ).loc main_arg5) :=
  upto_W5 m ρ c main_arg5 (by host_keeps hostOps0, main_arg5) (by decide) (by host_keeps hostOps1, main_arg5) (by decide)
    (by host_keeps hostOps2, main_arg5)

/-- The first endpoint lookup leaves the node-state array as the second kernel left it. -/
theorem W5_v5_0 (c : Dev nD) : W5 m ρ c (Proc.devRef .tc main_v5_0) = W4 m ρ c (Proc.devRef .tc main_v5_0) :=
  by host_keeps hostOps2, main_v5_0

/-- The second endpoint lookup leaves the first lookup's result alone. -/
theorem W6_v6 (c : Dev nD) : W6 m ρ c (Proc.devRef .tc main_v6) = W5 m ρ c (Proc.devRef .tc main_v6) :=
  by host_keeps hostOps2_1, main_v6

/-- At the third kernel's entry argument 3 is as launched. -/
theorem W6_arg3 (c : Dev nD) : W6 m ρ c (Proc.devRef .tc main_arg3) = m ((c : Thread nD τ).loc main_arg3) :=
  upto_W6 m ρ c main_arg3 (by host_keeps hostOps0, main_arg3) (by decide) (by host_keeps hostOps1, main_arg3) (by decide)
    (by host_keeps hostOps2, main_arg3) (by host_keeps hostOps2_1, main_arg3)

/-- At the third kernel's entry argument 10 is as launched. -/
theorem W6_arg10 (c : Dev nD) : W6 m ρ c (Proc.devRef .tc main_arg10) = m ((c : Thread nD τ).loc main_arg10) :=
  upto_W6 m ρ c main_arg10 (by host_keeps hostOps0, main_arg10) (by decide) (by host_keeps hostOps1, main_arg10) (by decide)
    (by host_keeps hostOps2, main_arg10) (by host_keeps hostOps2_1, main_arg10)

/-- At the third kernel's entry argument 11 is as launched. -/
theorem W6_arg11 (c : Dev nD) : W6 m ρ c (Proc.devRef .tc main_arg11) = m ((c : Thread nD τ).loc main_arg11) :=
  upto_W6 m ρ c main_arg11 (by host_keeps hostOps0, main_arg11) (by decide) (by host_keeps hostOps1, main_arg11) (by decide)
    (by host_keeps hostOps2, main_arg11) (by host_keeps hostOps2_1, main_arg11)

/-- At the third kernel's entry argument 14 is as launched. -/
theorem W6_arg14 (c : Dev nD) : W6 m ρ c (Proc.devRef .tc main_arg14) = m ((c : Thread nD τ).loc main_arg14) :=
  upto_W6 m ρ c main_arg14 (by host_keeps hostOps0, main_arg14) (by decide) (by host_keeps hostOps1, main_arg14) (by decide)
    (by host_keeps hostOps2, main_arg14) (by host_keeps hostOps2_1, main_arg14)

/-- At the third kernel's entry argument 15 is as launched. -/
theorem W6_arg15 (c : Dev nD) : W6 m ρ c (Proc.devRef .tc main_arg15) = m ((c : Thread nD τ).loc main_arg15) :=
  upto_W6 m ρ c main_arg15 (by host_keeps hostOps0, main_arg15) (by decide) (by host_keeps hostOps1, main_arg15) (by decide)
    (by host_keeps hostOps2, main_arg15) (by host_keeps hostOps2_1, main_arg15)

/-- At the third kernel's entry argument 18 is as launched. -/
theorem W6_arg18 (c : Dev nD) : W6 m ρ c (Proc.devRef .tc main_arg18) = m ((c : Thread nD τ).loc main_arg18) :=
  upto_W6 m ρ c main_arg18 (by host_keeps hostOps0, main_arg18) (by decide) (by host_keeps hostOps1, main_arg18) (by decide)
    (by host_keeps hostOps2, main_arg18) (by host_keeps hostOps2_1, main_arg18)

/-- At the third kernel's entry argument 19 is as launched. -/
theorem W6_arg19 (c : Dev nD) : W6 m ρ c (Proc.devRef .tc main_arg19) = m ((c : Thread nD τ).loc main_arg19) :=
  upto_W6 m ρ c main_arg19 (by host_keeps hostOps0, main_arg19) (by decide) (by host_keeps hostOps1, main_arg19) (by decide)
    (by host_keeps hostOps2, main_arg19) (by host_keeps hostOps2_1, main_arg19)

/-- After the third kernel the node-logit array is as the second kernel left it. -/
theorem W7_v5_1 (c : Dev nD) : W7 m ρ c (Proc.devRef .tc main_v5_1) = W4 m ρ c (Proc.devRef .tc main_v5_1) :=
  (W7_of_ne m ρ c main_v5_1 (by decide)).trans
    ((by host_keeps hostOps2_1, main_v5_1 : W6 m ρ c (Proc.devRef .tc main_v5_1) = W5 m ρ c (Proc.devRef .tc main_v5_1)).trans
      (by host_keeps hostOps2, main_v5_1))

end Cert.KernelIdeal.Kept

end
-- ==== Proof.KernelEntry.lean ====
/-
  What the host operations between the kernels compute. Before the first kernel the program looks up the node rows
  at the edges' source endpoints; between the first and the second it sums, per node, the messages of the edges
  that end there; between the second and the third it looks up the node states at both endpoints. Each lemma reads
  one such buffer as that operation of the buffers the stretch started from.
-/
import proofs.«426157_j56246891709114_1_alg».proof.Proof.Gen.KernelIdeal.Frame
import proofs.«426157_j56246891709114_1_alg».proof.Proof.Take
import Idealize.ShloMosaic.Lib.StableHlo.Run

set_option maxRecDepth 16384

noncomputable section

namespace Cert.KernelIdeal.Entry

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The per-node sum of messages: a scatter-add into a zero table at the destination endpoints. -/
def aggregate (dst : IVec S800000 32) (msg : FVec Ideal S800000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst) msg

/-! ## Typed references

A host operation of an outlined function reads and writes its buffers through references that carry the value's
type; contents pass into a buffer and back out of it unchanged. -/

/-- Contents put into a typed reference's buffer and read back out are the contents. -/
theorem ofBuf_toBuf {T : BufTy} (r : Ref sig .tc) (a a' : r.ty = T) (b b' : r.space ≠ .host)
    (d d' : r.isScoped = false) (v : T.Contents (Elt Ideal)) :
    (TRef.of r a b d).ofBuf ((TRef.of r a' b' d').toBuf v) = v := by
  subst a; rfl

/-- Read through a typed reference, the node-row argument is the buffer's contents as they are. -/
theorem ofBuf_arg0 (a : (main_arg0 : Ref sig .tc).ty = ⟨S50000x128, .f32⟩) (b : (main_arg0 : Ref sig .tc).space ≠ .host)
    (d : (main_arg0 : Ref sig .tc).isScoped = false) (u : (main_arg0 : Ref sig .tc).ty.Contents (Elt Ideal)) :
    ((TRef.of main_arg0 a b d).ofBuf u : FVec Ideal S50000x128 .f32) = u := rfl

/-- The same for the node-state array the second kernel leaves. -/
theorem ofBuf_v5_0 (a : (main_v5_0 : Ref sig .tc).ty = ⟨S50000x128, .f32⟩) (b : (main_v5_0 : Ref sig .tc).space ≠ .host)
    (d : (main_v5_0 : Ref sig .tc).isScoped = false) (u : (main_v5_0 : Ref sig .tc).ty.Contents (Elt Ideal)) :
    ((TRef.of main_v5_0 a b d).ofBuf u : FVec Ideal S50000x128 .f32) = u := rfl

/-- The same for the source-endpoint vector. -/
theorem ofBuf_arg4 (a : (main_arg4 : Ref sig .tc).ty = ⟨S800000, .i32⟩) (b : (main_arg4 : Ref sig .tc).space ≠ .host)
    (d : (main_arg4 : Ref sig .tc).isScoped = false) (u : (main_arg4 : Ref sig .tc).ty.Contents (Elt Ideal)) :
    ((TRef.of main_arg4 a b d).ofBuf u : IVec S800000 32) = u := rfl

/-- The same for the destination-endpoint vector. -/
theorem ofBuf_arg5 (a : (main_arg5 : Ref sig .tc).ty = ⟨S800000, .i32⟩) (b : (main_arg5 : Ref sig .tc).space ≠ .host)
    (d : (main_arg5 : Ref sig .tc).isScoped = false) (u : (main_arg5 : Ref sig .tc).ty.Contents (Elt Ideal)) :
    ((TRef.of main_arg5 a b d).ofBuf u : IVec S800000 32) = u := rfl

/-- Written through a typed reference, the first lookup's result is the buffer's contents as they are. -/
theorem toBuf_v0 (a : (main_v0 : Ref sig .tc).ty = ⟨S800000x128, .f32⟩) (b : (main_v0 : Ref sig .tc).space ≠ .host)
    (d : (main_v0 : Ref sig .tc).isScoped = false) (v : FVec Ideal S800000x128 .f32) :
    ((TRef.of main_v0 a b d).toBuf (Val := Elt Ideal) v : FVec Ideal S800000x128 .f32) = v := rfl

/-- The same for the second lookup's result. -/
theorem toBuf_v6 (a : (main_v6 : Ref sig .tc).ty = ⟨S800000x128, .f32⟩) (b : (main_v6 : Ref sig .tc).space ≠ .host)
    (d : (main_v6 : Ref sig .tc).isScoped = false) (v : FVec Ideal S800000x128 .f32) :
    ((TRef.of main_v6 a b d).toBuf (Val := Elt Ideal) v : FVec Ideal S800000x128 .f32) = v := rfl

/-- The same for the third lookup's result. -/
theorem toBuf_v7 (a : (main_v7 : Ref sig .tc).ty = ⟨S800000x128, .f32⟩) (b : (main_v7 : Ref sig .tc).space ≠ .host)
    (d : (main_v7 : Ref sig .tc).isScoped = false) (v : FVec Ideal S800000x128 .f32) :
    ((TRef.of main_v7 a b d).toBuf (Val := Elt Ideal) v : FVec Ideal S800000x128 .f32) = v := rfl

/-! ## Each stretch from any contents

Each stretch writes every buffer once, so what its last buffer ends holding is the composition of its operations
over what the buffers it only reads held when the stretch started, whatever that was. -/

/-- The first lookup: from any contents `V`, the rows of `V`'s node-row argument at `V`'s source endpoints. -/
theorem take0 (V : Valuation τ sig (Elt Ideal)) :
    (after hostOps0 V (Proc.devRef .tc main_v0) : FVec Ideal S800000x128 .f32)
      = Take.takeFill (V (Proc.devRef .tc main_arg0)) (V (Proc.devRef .tc main_arg4)) := by
  dsimp only [hostOps0]
  after_results_simp
  simp only [ofBuf_toBuf, ofBuf_arg0, ofBuf_arg4, toBuf_v0]
  unfold Take.takeFill Take.inTable Take.startCol
  rfl

/-- The sum per node: from any contents `V`, the messages in `V` summed at `V`'s destination endpoints. -/
theorem agg1 (V : Valuation τ sig (Elt Ideal)) :
    (after hostOps1 V (Proc.devRef .tc main_v4) : FVec Ideal S50000x128 .f32)
      = aggregate (V (Proc.devRef .tc main_arg5)) (V (Proc.devRef .tc main_v1)) := by
  dsimp only [hostOps1]
  after_results_simp
  rfl

/-- The second lookup: from any contents `V`, the rows of `V`'s node states at `V`'s source endpoints. -/
theorem take2 (V : Valuation τ sig (Elt Ideal)) :
    (after hostOps2 V (Proc.devRef .tc main_v6) : FVec Ideal S800000x128 .f32)
      = Take.takeFill (V (Proc.devRef .tc main_v5_0)) (V (Proc.devRef .tc main_arg4)) := by
  dsimp only [hostOps2]
  after_results_simp
  simp only [ofBuf_toBuf, ofBuf_v5_0, ofBuf_arg4, toBuf_v6]
  unfold Take.takeFill Take.inTable Take.startCol
  rfl

/-- The third lookup: from any contents `V`, the rows of `V`'s node states at `V`'s destination endpoints. -/
theorem take3 (V : Valuation τ sig (Elt Ideal)) :
    (after hostOps2_1 V (Proc.devRef .tc main_v7) : FVec Ideal S800000x128 .f32)
      = Take.takeFill (V (Proc.devRef .tc main_v5_0)) (V (Proc.devRef .tc main_arg5)) := by
  dsimp only [hostOps2_1]
  after_results_simp
  simp only [ofBuf_toBuf, ofBuf_v5_0, ofBuf_arg5, toBuf_v7]
  unfold Take.takeFill Take.inTable Take.startCol
  rfl

/-! ## At the program's boundaries -/

/-- At the first kernel's entry its first input holds the node rows looked up at the source endpoints. -/
theorem W1_v0 (c : Dev nD) :
    (W1 m ρ c (Proc.devRef .tc main_v0) : FVec Ideal S800000x128 .f32)
      = Take.takeFill (W0 m ρ c (Proc.devRef .tc main_arg0)) (W0 m ρ c (Proc.devRef .tc main_arg4)) :=
  take0 (W0 m ρ c)

/-- At the second kernel's entry its second input holds the per-node sum of the messages the first kernel left. -/
theorem W3_v4 (c : Dev nD) :
    (W3 m ρ c (Proc.devRef .tc main_v4) : FVec Ideal S50000x128 .f32)
      = aggregate (W2 m ρ c (Proc.devRef .tc main_arg5)) (W2 m ρ c (Proc.devRef .tc main_v1)) :=
  agg1 (W2 m ρ c)

/-- After the first endpoint lookup its result holds the node states looked up at the source endpoints. -/
theorem W5_v6 (c : Dev nD) :
    (W5 m ρ c (Proc.devRef .tc main_v6) : FVec Ideal S800000x128 .f32)
      = Take.takeFill (W4 m ρ c (Proc.devRef .tc main_v5_0)) (W4 m ρ c (Proc.devRef .tc main_arg4)) :=
  take2 (W4 m ρ c)

/-- After the second endpoint lookup its result holds the node states looked up at the destination endpoints. -/
theorem W6_v7 (c : Dev nD) :
    (W6 m ρ c (Proc.devRef .tc main_v7) : FVec Ideal S800000x128 .f32)
      = Take.takeFill (W5 m ρ c (Proc.devRef .tc main_v5_0)) (W5 m ρ c (Proc.devRef .tc main_arg5)) :=
  take3 (W5 m ρ c)

end Cert.KernelIdeal.Entry

end
-- ==== Proof.KernelTail.lean ====
/-
  The four results as functions of the two logit arrays. After the third kernel the program only applies host
  operations to the node logits and to the edge logits: it takes a column, clips it or passes it through the
  logistic function, and lays it out as one column. Each result buffer ends at that function of the logit array
  the kernels left.
-/
import proofs.«426157_j56246891709114_1_alg».proof.Proof.Gen.KernelIdeal.Frame
import Idealize.ShloMosaic.Lib.StableHlo.Run
import Idealize.ShloMosaic.PureOps.Ideal

set_option maxRecDepth 16384

noncomputable section

namespace Cert.KernelIdeal.Tail

open Cert.KernelIdeal Cert.KernelIdeal.Gen
open Idealize.ShloMosaic Idealize.ShloMosaic.TcCoe Idealize.SL.Sem Idealize.ShloMosaic.StableHlo

/-- The node temperature: column 0 of the two logits, clipped into [1, 100], as one column. -/
def nodeT (o : FVec Ideal S50000x2 .f32) : FVec Ideal S50000x1 .f32 :=
  broadcastInDim S50000x1 ![0] bcast_S50000_S50000x1_0
    (minimumf (broadcastInDim S50000 ![] bcast_S_S50000 (id (constant (F := Ideal) S_ .f32 0x42C80000#32)))
      (maximumf (broadcastInDim S50000 ![] bcast_S_S50000 (id (constant (F := Ideal) S_ .f32 0x3F800000#32)))
        (shapeCast S50000 (extractStridedSlice S50000x1 ![0, 0] o slices_S50000x2_S50000x1_0_0) shapeCasts_S50000x1_S50000)))

/-- The node probability: the logistic function 1 / (1 + exp(-z)) of column 1 of the two logits, as one column. -/
def nodeP (o : FVec Ideal S50000x2 .f32) : FVec Ideal S50000x1 .f32 :=
  broadcastInDim S50000x1 ![0] bcast_S50000_S50000x1_0
    (Host.divf (broadcastInDim S50000 ![] bcast_S_S50000 (constant (F := Ideal) S_ .f32 0x3F800000#32))
      (addf (broadcastInDim S50000 ![] bcast_S_S50000 (constant (F := Ideal) S_ .f32 0x3F800000#32))
        (Host.exp (Host.negf
          (shapeCast S50000 (extractStridedSlice S50000x1 ![0, 1] o slices_S50000x2_S50000x1_0_1) shapeCasts_S50000x1_S50000)))))

/-- The edge temperature: column 0 of the two logits, clipped into [1, 100], as one column. -/
def edgeT (o : FVec Ideal S800000x2 .f32) : FVec Ideal S800000x1 .f32 :=
  broadcastInDim S800000x1 ![0] bcast_S800000_S800000x1_0
    (minimumf (broadcastInDim S800000 ![] bcast_S_S800000 (id (constant (F := Ideal) S_ .f32 0x42C80000#32)))
      (maximumf (broadcastInDim S800000 ![] bcast_S_S800000 (id (constant (F := Ideal) S_ .f32 0x3F800000#32)))
        (shapeCast S800000 (extractStridedSlice S800000x1 ![0, 0] o slices_S800000x2_S800000x1_0_0) shapeCasts_S800000x1_S800000)))

/-- The edge probability: the logistic function 1 / (1 + exp(-z)) of column 1 of the two logits, as one column. -/
def edgeP (o : FVec Ideal S800000x2 .f32) : FVec Ideal S800000x1 .f32 :=
  broadcastInDim S800000x1 ![0] bcast_S800000_S800000x1_0
    (Host.divf (broadcastInDim S800000 ![] bcast_S_S800000 (constant (F := Ideal) S_ .f32 0x3F800000#32))
      (addf (broadcastInDim S800000 ![] bcast_S_S800000 (constant (F := Ideal) S_ .f32 0x3F800000#32))
        (Host.exp (Host.negf
          (shapeCast S800000 (extractStridedSlice S800000x1 ![0, 1] o slices_S800000x2_S800000x1_0_1) shapeCasts_S800000x1_S800000)))))

variable (m : (ℓ : Loc nD τ sig) → Buf (Elt Ideal) ℓ) (ρ : Dev nD → PrngReg)

set_option maxHeartbeats 8000000 in
/-- The first result is the node temperature of the node logits the second kernel left. -/
theorem tail_v12 (c : Dev nD) :
    (W12 m ρ c (Proc.devRef .tc main_v12) : FVec Ideal S50000x1 .f32) = nodeT (W7 m ρ c (Proc.devRef .tc main_v5_1)) := by
  -- the stated function, spelled out as its chain of operations
  unfold nodeT
  -- each stretch of host operations rewrites its own result buffers and leaves every other buffer as it was:
  -- read back through the five stretches, the result buffer is that same chain applied to the logits
  dsimp only [W12, W11, W10, W9, W8, hostOps3_4, hostOps3_3, hostOps3_2, hostOps3_1, hostOps3]
  after_results
  -- the typed references' casts are identities
  simp only [TRef.ofBuf, TRef.toBuf, cast_eq]
  -- what is left differs only in how the reshaped vector's shape is written
  rfl

set_option maxHeartbeats 8000000 in
/-- The second result is the node probability of the node logits the second kernel left. -/
theorem tail_v21 (c : Dev nD) :
    (W12 m ρ c (Proc.devRef .tc main_v21) : FVec Ideal S50000x1 .f32) = nodeP (W7 m ρ c (Proc.devRef .tc main_v5_1)) := by
  -- the stated function, spelled out as its chain of operations
  unfold nodeP
  -- each stretch of host operations rewrites its own result buffers and leaves every other buffer as it was:
  -- read back through the five stretches, the result buffer is that same chain applied to the logits
  dsimp only [W12, W11, W10, W9, W8, hostOps3_4, hostOps3_3, hostOps3_2, hostOps3_1, hostOps3]
  after_results
  -- the typed references' casts are identities
  simp only [TRef.ofBuf, TRef.toBuf, cast_eq]
  -- what is left differs only in how the reshaped vector's shape is written
  rfl

set_option maxHeartbeats 8000000 in
/-- The third result is the edge temperature of the edge logits the third kernel left. -/
theorem tail_v25 (c : Dev nD) :
    (W12 m ρ c (Proc.devRef .tc main_v25) : FVec Ideal S800000x1 .f32) = edgeT (W7 m ρ c (Proc.devRef .tc main_v8)) := by
  -- the stated function, spelled out as its chain of operations
  unfold edgeT
  -- each stretch of host operations rewrites its own result buffers and leaves every other buffer as it was:
  -- read back through the five stretches, the result buffer is that same chain applied to the logits
  dsimp only [W12, W11, W10, W9, W8, hostOps3_4, hostOps3_3, hostOps3_2, hostOps3_1, hostOps3]
  after_results
  -- the typed references' casts are identities
  simp only [TRef.ofBuf, TRef.toBuf, cast_eq]
  -- what is left differs only in how the reshaped vector's shape is written
  rfl

set_option maxHeartbeats 8000000 in
/-- The fourth result is the edge probability of the edge logits the third kernel left. -/
theorem tail_v34 (c : Dev nD) :
    (W12 m ρ c (Proc.devRef .tc main_v34) : FVec Ideal S800000x1 .f32) = edgeP (W7 m ρ c (Proc.devRef .tc main_v8)) := by
  -- the stated function, spelled out as its chain of operations
  unfold edgeP
  -- each stretch of host operations rewrites its own result buffers and leaves every other buffer as it was:
  -- read back through the five stretches, the result buffer is that same chain applied to the logits
  dsimp only [W12, W11, W10, W9, W8, hostOps3_4, hostOps3_3, hostOps3_2, hostOps3_1, hostOps3]
  after_results
  -- the typed references' casts are identities
  simp only [TRef.ofBuf, TRef.toBuf, cast_eq]
  -- what is left differs only in how the reshaped vector's shape is written
  rfl

end Cert.KernelIdeal.Tail

end
-- ==== Proof.KernelValue.lean ====
/-
  The kernel program's four results as one function of its arguments. The three kernels and the host operations
  between them are put together: the messages are the rectified sum of the looked-up source rows and the edge rows;
  their per-node sum enters the node update; the node head gives the node logits; the node states looked up at both
  endpoints enter the edge head, which gives the edge logits; the results are the clipped and the logistic columns of
  the two logit arrays. The lookups are plain gathers because every endpoint is a row number of the node tables.
-/
import proofs.«426157_j56246891709114_1_alg».proof.Proof.Reg0
import proofs.«426157_j56246891709114_1_alg».proof.Proof.Reg1
import proofs.«426157_j56246891709114_1_alg».proof.Proof.Reg2
import proofs.«426157_j56246891709114_1_alg».proof.Proof.Take
import proofs.«426157_j56246891709114_1_alg».proof.Proof.KeptBuffers
import proofs.«426157_j56246891709114_1_alg».proof.Proof.KernelEntry
import proofs.«426157_j56246891709114_1_alg».proof.Proof.KernelTail

set_option maxRecDepth 16384

noncomputable section

namespace Cert.KernelIdeal.Whole

open Cert.KernelIdeal Cert.KernelIdeal.Gen
open Idealize.ShloMosaic Idealize.ShloMosaic.TcCoe Idealize.SL.Sem

/-! ## The values, as functions of the arguments -/

/-- The rows of a node table at the (wrapped) endpoints. -/
def rowsAt (x : FVec Ideal S50000x128 .f32) (idx : IVec S800000 32) : FVec Ideal S800000x128 .f32 :=
  Host.gather gather_S50000x128_S800000x1_S800000x128_1_0_n_n_0_1_1128 x (Take.startCol idx)

/-- The node states. -/
def xOf (nf : FVec Ideal S50000x128 .f32) (ef : FVec Ideal S800000x128 .f32) (src dst : IVec S800000 32)
    (gW : FVec Ideal S128x128 .f32) (gb : FVec Ideal S128 .f32) : FVec Ideal S50000x128 .f32 :=
  Spec.nodeX nf (Entry.aggregate dst (Spec.msg (rowsAt nf src) ef)) gW gb

/-- The node logits. -/
def noOf (nf : FVec Ideal S50000x128 .f32) (ef : FVec Ideal S800000x128 .f32) (nd : FVec Ideal S50000x32 .f32)
    (src dst : IVec S800000 32) (gW : FVec Ideal S128x128 .f32) (gb : FVec Ideal S128 .f32)
    (dW : FVec Ideal S32x32 .f32) (db : FVec Ideal S32 .f32) (fW : FVec Ideal S160x128 .f32) (fb : FVec Ideal S128 .f32)
    (pW : FVec Ideal S128x2 .f32) (pb : FVec Ideal S2 .f32) : FVec Ideal S50000x2 .f32 :=
  Spec.nodeO (xOf nf ef src dst gW gb) (Spec.dense nd dW db) fW fb pW pb

/-- The edge logits. -/
def eoOf (nf : FVec Ideal S50000x128 .f32) (ef : FVec Ideal S800000x128 .f32) (ed : FVec Ideal S800000x32 .f32)
    (src dst : IVec S800000 32) (gW : FVec Ideal S128x128 .f32) (gb : FVec Ideal S128 .f32)
    (dW : FVec Ideal S32x32 .f32) (db : FVec Ideal S32 .f32) (fW : FVec Ideal S288x128 .f32) (fb : FVec Ideal S128 .f32)
    (pW : FVec Ideal S128x2 .f32) (pb : FVec Ideal S2 .f32) : FVec Ideal S800000x2 .f32 :=
  Spec.edgeO (rowsAt (xOf nf ef src dst gW gb) src) (rowsAt (xOf nf ef src dst gW gb) dst) (Spec.dense ed dW db) fW fb pW pb

variable (m : (ℓ : Loc nD τ sig) → Buf (Elt Ideal) ℓ) (ρ : Dev nD → PrngReg)

/-! ## The buffers the kernels leave -/

/-- The message array after the first kernel. -/
theorem msg_after (c : Dev nD) (hs : Spec.InRange (m ((c : Thread nD τ).loc main_arg4))) :
    (W2 m ρ c (Proc.devRef .tc main_v1) : FVec Ideal S800000x128 .f32)
      = Spec.msg (rowsAt (m ((c : Thread nD τ).loc main_arg0)) (m ((c : Thread nD τ).loc main_arg4))) (m ((c : Thread nD τ).loc main_arg1)) := by
  refine (W2_arr m ρ c 2).trans ((Reg0.final (V1 m ρ) c).trans ?_)
  have h0 : (V1 m ρ c main_v0 : FVec Ideal S800000x128 .f32) = rowsAt (m ((c : Thread nD τ).loc main_arg0)) (m ((c : Thread nD τ).loc main_arg4)) :=
    (Entry.W1_v0 m ρ c).trans (Take.takeFill_eq _ _ hs)
  have h1 : (V1 m ρ c main_arg1 : FVec Ideal S800000x128 .f32) = (m ((c : Thread nD τ).loc main_arg1)) := Kept.W1_arg1 m ρ c
  exact congrArg₂ Spec.msg h0 h1

/-- The node-state array after the second kernel. -/
theorem x_after (c : Dev nD) (hs : Spec.InRange (m ((c : Thread nD τ).loc main_arg4))) :
    (W4 m ρ c (Proc.devRef .tc main_v5_0) : FVec Ideal S50000x128 .f32)
      = xOf (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  refine (W4_arr m ρ c 11).trans ((Reg1.final_x (V3 m ρ) c).trans ?_)
  have h0 : (V3 m ρ c main_arg0 : FVec Ideal S50000x128 .f32) = (m ((c : Thread nD τ).loc main_arg0)) := Kept.W3_arg0 m ρ c
  have h4 : (V3 m ρ c main_v4 : FVec Ideal S50000x128 .f32)
      = Entry.aggregate (m ((c : Thread nD τ).loc main_arg5)) (Spec.msg (rowsAt (m ((c : Thread nD τ).loc main_arg0)) (m ((c : Thread nD τ).loc main_arg4))) (m ((c : Thread nD τ).loc main_arg1))) :=
    (Entry.W3_v4 m ρ c).trans (congrArg₂ Entry.aggregate (Kept.W2_arg5 m ρ c) (msg_after m ρ c hs))
  have h6 : (V3 m ρ c main_arg6 : FVec Ideal S128x128 .f32) = (m ((c : Thread nD τ).loc main_arg6)) := Kept.W3_arg6 m ρ c
  have h7 : (V3 m ρ c main_arg7 : FVec Ideal S128 .f32) = (m ((c : Thread nD τ).loc main_arg7)) := Kept.W3_arg7 m ρ c
  unfold xOf
  rw [h0, h4, h6, h7]

/-- The node-logit array after the second kernel. -/
theorem no_after (c : Dev nD) (hs : Spec.InRange (m ((c : Thread nD τ).loc main_arg4))) :
    (W4 m ρ c (Proc.devRef .tc main_v5_1) : FVec Ideal S50000x2 .f32)
      = noOf (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) (m ((c : Thread nD τ).loc main_arg16)) (m ((c : Thread nD τ).loc main_arg17)) := by
  refine (W4_arr m ρ c 12).trans ((Reg1.final_o (V3 m ρ) c).trans ?_)
  have h0 : (V3 m ρ c main_arg0 : FVec Ideal S50000x128 .f32) = (m ((c : Thread nD τ).loc main_arg0)) := Kept.W3_arg0 m ρ c
  have h4 : (V3 m ρ c main_v4 : FVec Ideal S50000x128 .f32)
      = Entry.aggregate (m ((c : Thread nD τ).loc main_arg5)) (Spec.msg (rowsAt (m ((c : Thread nD τ).loc main_arg0)) (m ((c : Thread nD τ).loc main_arg4))) (m ((c : Thread nD τ).loc main_arg1))) :=
    (Entry.W3_v4 m ρ c).trans (congrArg₂ Entry.aggregate (Kept.W2_arg5 m ρ c) (msg_after m ρ c hs))
  have h2 : (V3 m ρ c main_arg2 : FVec Ideal S50000x32 .f32) = (m ((c : Thread nD τ).loc main_arg2)) := Kept.W3_arg2 m ρ c
  have h6 : (V3 m ρ c main_arg6 : FVec Ideal S128x128 .f32) = (m ((c : Thread nD τ).loc main_arg6)) := Kept.W3_arg6 m ρ c
  have h7 : (V3 m ρ c main_arg7 : FVec Ideal S128 .f32) = (m ((c : Thread nD τ).loc main_arg7)) := Kept.W3_arg7 m ρ c
  have h8 : (V3 m ρ c main_arg8 : FVec Ideal S32x32 .f32) = (m ((c : Thread nD τ).loc main_arg8)) := Kept.W3_arg8 m ρ c
  have h9 : (V3 m ρ c main_arg9 : FVec Ideal S32 .f32) = (m ((c : Thread nD τ).loc main_arg9)) := Kept.W3_arg9 m ρ c
  have h12 : (V3 m ρ c main_arg12 : FVec Ideal S160x128 .f32) = (m ((c : Thread nD τ).loc main_arg12)) := Kept.W3_arg12 m ρ c
  have h13 : (V3 m ρ c main_arg13 : FVec Ideal S128 .f32) = (m ((c : Thread nD τ).loc main_arg13)) := Kept.W3_arg13 m ρ c
  have h16 : (V3 m ρ c main_arg16 : FVec Ideal S128x2 .f32) = (m ((c : Thread nD τ).loc main_arg16)) := Kept.W3_arg16 m ρ c
  have h17 : (V3 m ρ c main_arg17 : FVec Ideal S2 .f32) = (m ((c : Thread nD τ).loc main_arg17)) := Kept.W3_arg17 m ρ c
  unfold noOf xOf
  rw [h0, h4, h2, h6, h7, h8, h9, h12, h13, h16, h17]

/-- The edge-logit array after the third kernel. -/
theorem eo_after (c : Dev nD) (hs : Spec.InRange (m ((c : Thread nD τ).loc main_arg4))) (hd : Spec.InRange (m ((c : Thread nD τ).loc main_arg5))) :
    (W7 m ρ c (Proc.devRef .tc main_v8) : FVec Ideal S800000x2 .f32)
      = eoOf (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg14)) (m ((c : Thread nD τ).loc main_arg15)) (m ((c : Thread nD τ).loc main_arg18)) (m ((c : Thread nD τ).loc main_arg19)) := by
  refine (W7_arr m ρ c 9).trans ((Reg2.final (V6 m ρ) c).trans ?_)
  have hx := x_after m ρ c hs
  have h6 : (V6 m ρ c main_v6 : FVec Ideal S800000x128 .f32)
      = rowsAt (xOf (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg4)) :=
    (Kept.W6_v6 m ρ c).trans ((Entry.W5_v6 m ρ c).trans
      ((congrArg₂ Take.takeFill hx (Kept.W4_arg4 m ρ c)).trans (Take.takeFill_eq _ _ hs)))
  have h7 : (V6 m ρ c main_v7 : FVec Ideal S800000x128 .f32)
      = rowsAt (xOf (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg5)) :=
    (Entry.W6_v7 m ρ c).trans
      ((congrArg₂ Take.takeFill ((Kept.W5_v5_0 m ρ c).trans hx) (Kept.W5_arg5 m ρ c)).trans (Take.takeFill_eq _ _ hd))
  have h3 : (V6 m ρ c main_arg3 : FVec Ideal S800000x32 .f32) = (m ((c : Thread nD τ).loc main_arg3)) := Kept.W6_arg3 m ρ c
  have h10 : (V6 m ρ c main_arg10 : FVec Ideal S32x32 .f32) = (m ((c : Thread nD τ).loc main_arg10)) := Kept.W6_arg10 m ρ c
  have h11 : (V6 m ρ c main_arg11 : FVec Ideal S32 .f32) = (m ((c : Thread nD τ).loc main_arg11)) := Kept.W6_arg11 m ρ c
  have h14 : (V6 m ρ c main_arg14 : FVec Ideal S288x128 .f32) = (m ((c : Thread nD τ).loc main_arg14)) := Kept.W6_arg14 m ρ c
  have h15 : (V6 m ρ c main_arg15 : FVec Ideal S128 .f32) = (m ((c : Thread nD τ).loc main_arg15)) := Kept.W6_arg15 m ρ c
  have h18 : (V6 m ρ c main_arg18 : FVec Ideal S128x2 .f32) = (m ((c : Thread nD τ).loc main_arg18)) := Kept.W6_arg18 m ρ c
  have h19 : (V6 m ρ c main_arg19 : FVec Ideal S2 .f32) = (m ((c : Thread nD τ).loc main_arg19)) := Kept.W6_arg19 m ρ c
  unfold eoOf
  rw [h6, h7, h3, h10, h11, h14, h15, h18, h19]

/-! ## The four results -/

/-- Each result buffer ends at its column function of the logits, as functions of the arguments. -/
theorem results (c : Dev nD) (hs : Spec.InRange (m ((c : Thread nD τ).loc main_arg4))) (hd : Spec.InRange (m ((c : Thread nD τ).loc main_arg5))) :
    (W12 m ρ c (Proc.devRef .tc main_v12) : FVec Ideal S50000x1 .f32)
        = Tail.nodeT (noOf (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) (m ((c : Thread nD τ).loc main_arg16)) (m ((c : Thread nD τ).loc main_arg17)))
    ∧ (W12 m ρ c (Proc.devRef .tc main_v21) : FVec Ideal S50000x1 .f32)
        = Tail.nodeP (noOf (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) (m ((c : Thread nD τ).loc main_arg16)) (m ((c : Thread nD τ).loc main_arg17)))
    ∧ (W12 m ρ c (Proc.devRef .tc main_v25) : FVec Ideal S800000x1 .f32)
        = Tail.edgeT (eoOf (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg14)) (m ((c : Thread nD τ).loc main_arg15)) (m ((c : Thread nD τ).loc main_arg18)) (m ((c : Thread nD τ).loc main_arg19)))
    ∧ (W12 m ρ c (Proc.devRef .tc main_v34) : FVec Ideal S800000x1 .f32)
        = Tail.edgeP (eoOf (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg14)) (m ((c : Thread nD τ).loc main_arg15)) (m ((c : Thread nD τ).loc main_arg18)) (m ((c : Thread nD τ).loc main_arg19))) := by
  have hno : (W7 m ρ c (Proc.devRef .tc main_v5_1) : FVec Ideal S50000x2 .f32) = _ :=
    (Kept.W7_v5_1 m ρ c).trans (no_after m ρ c hs)
  have heo := eo_after m ρ c hs hd
  exact ⟨(Tail.tail_v12 m ρ c).trans (congrArg Tail.nodeT hno), (Tail.tail_v21 m ρ c).trans (congrArg Tail.nodeP hno),
    (Tail.tail_v25 m ρ c).trans (congrArg Tail.edgeT heo), (Tail.tail_v34 m ρ c).trans (congrArg Tail.edgeP heo)⟩

end Cert.KernelIdeal.Whole

end
-- ==== Proof.PreDecode.lean ====
/-
  What the precondition says about the edge endpoints. The precondition is one conjunction over all inputs; its
  last two conjuncts say that every entry of the source vector, and every entry of the destination vector, is at
  least 0 and below 50000. Those two facts are read off here.
-/
import proofs.«426157_j56246891709114_1_alg».proof.Proof.Gen.Pre_finite_inputs
import proofs.«426157_j56246891709114_1_alg».proof.Proof.Spec
import Idealize.ShloMosaic.Lib.ValueIdx
import Idealize.ShloMosaic.Lib.ReduceAll
import Idealize.ShloMosaic.Lib.StableHlo.Predicate

noncomputable section

namespace Cert.Pre_finite_inputs.Decode

open Cert.Pre_finite_inputs Cert.Pre_finite_inputs.Gen
open Idealize.ShloMosaic Idealize.ShloMosaic.TcCoe Idealize.ShloMosaic.ValueIdx

/-- A rank-0 array has exactly one index. -/
instance subsingleton_scalar_idx : Subsingleton S_.Idx := ⟨fun a b => funext fun d => d.elim0⟩

/-- One conjunct of the shape `all((a ≥ 0) & (a < 50000))`, read back. The conjunct is the reduction by `and`, from
    the constant true, of the elementwise conjunction of the two comparisons of `a` against the broadcast scalars 0
    and 50000. If the reduction is true then the conjunction is true at every position `e`; the conjunction at `e` is
    the `and` of the two comparisons at `e`, and a broadcast scalar read at `e` is the scalar itself. -/
theorem inRange_of_all (a : IVec S800000 32)
    (hb0 hb1 : S_.BroadcastsInDim S800000 (![] : Fin 0 → Fin S800000.rank))
    (hr : S800000.ReducesTo [0] S_) (hu : 0 < S_.numel)
    (h : Host.reduce IntOp.andi
          (andi (cmpi .sge a (broadcastInDim S800000 ![] hb0 (constantI S_ 32 0#32)))
            (cmpi .slt a (broadcastInDim S800000 ![] hb1 (constantI S_ 32 50000#32))))
          (constantI S_ 1 1#1) hr hu ix0 = 1#1) :
    Spec.InRange a := by
  intro e
  have he := Host.reduce_andi_all _ _ hr hu ix0 h e
  exact IntOp.andi_eq_one.1 he

/-- Under the precondition both endpoint vectors hold row numbers of a 50000-row table. -/
theorem inRange_of_pre (main_arg0 : FVec Ideal S50000x128 .f32) (main_arg1 : FVec Ideal S800000x128 .f32) (main_arg2 : FVec Ideal S50000x32 .f32) (main_arg3 : FVec Ideal S800000x32 .f32) (main_arg4 : IVec S800000 32) (main_arg5 : IVec S800000 32) (main_arg6 : FVec Ideal S128x128 .f32) (main_arg7 : FVec Ideal S128 .f32) (main_arg8 : FVec Ideal S32x32 .f32) (main_arg9 : FVec Ideal S32 .f32) (main_arg10 : FVec Ideal S32x32 .f32) (main_arg11 : FVec Ideal S32 .f32) (main_arg12 : FVec Ideal S160x128 .f32) (main_arg13 : FVec Ideal S128 .f32) (main_arg14 : FVec Ideal S288x128 .f32) (main_arg15 : FVec Ideal S128 .f32) (main_arg16 : FVec Ideal S128x2 .f32) (main_arg17 : FVec Ideal S2 .f32) (main_arg18 : FVec Ideal S128x2 .f32) (main_arg19 : FVec Ideal S2 .f32)
    (h : Cert.Pre_finite_inputs.fn (F := Ideal) main_arg0 main_arg1 main_arg2 main_arg3 main_arg4 main_arg5 main_arg6 main_arg7 main_arg8 main_arg9 main_arg10 main_arg11 main_arg12 main_arg13 main_arg14 main_arg15 main_arg16 main_arg17 main_arg18 main_arg19 = fun _ => 1#1) :
    Spec.InRange main_arg4 ∧ Spec.InRange main_arg5 := by
  -- the one-element result, read at its one index, is the last `and` of the running conjunction
  have h0 := congrFun h ix0
  dsimp only [Cert.Pre_finite_inputs.fn, fn_part1, fn_part2, fn_part3, fn_part4, fn_part5, fn_part6] at h0
  -- the last conjunct is the destination vector's, the one before it the source vector's
  obtain ⟨h1, hdst⟩ := IntOp.andi_eq_one.1 h0
  obtain ⟨_, hsrc⟩ := IntOp.andi_eq_one.1 h1
  exact ⟨inRange_of_all main_arg4 _ _ _ _ hsrc, inRange_of_all main_arg5 _ _ _ _ hdst⟩

end Cert.Pre_finite_inputs.Decode

end
-- ==== Proof.LibSsa.lean ====
/-
  General lemmas about a straight line of host operations in static single assignment: every operation writes one
  buffer of its own, and no buffer is written twice. In such a line the contents a buffer holds at the end are decided
  where it is written: the operation's function applied to what its operands hold AT THE END, since nothing after an
  operand's own writer writes it again. One equation per operation, each about the fold of the whole line, none
  mentioning the rest of the line.
-/
import Idealize.ShloMosaic.Lib.StableHlo.Run

namespace Idealize.ShloMosaic.StableHlo

open Idealize.ShloMosaic Idealize.SL.Sem

variable {τ : Topo} {sig : RefSig} {Val : EltTy → Type}

/-- The line's operations write, one each and in order, exactly the references of the list `W`: the `k`-th operation
    writes the `k`-th reference and nothing else. -/
def WritesAre (ops : List (HloOp τ sig Val)) (W : List (Ref sig .tc)) : Prop :=
  List.Forall₂ (fun op w => op.writes = {(Proc.devRef .tc w : DevRef τ sig)}) ops W

/-- The fold over two lines one after the other is the second line's fold from where the first ends. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- What remains of the line after its first `j` operations writes what remains of the list. -/
theorem WritesAre.drop {ops : List (HloOp τ sig Val)} {W : List (Ref sig .tc)} (hW : WritesAre ops W) (j : ℕ) :
    WritesAre (ops.drop j) (W.drop j) := by
  unfold WritesAre at hW ⊢
  induction hW generalizing j with
  | nil => simp only [List.drop_nil]; exact List.Forall₂.nil
  | cons h t ih =>
    cases j with
    | zero => exact List.Forall₂.cons h t
    | succ j => simpa only [List.drop_succ_cons] using ih j

/-- A reference the line never writes holds at the end what it held at the start. -/
theorem after_keep {ops : List (HloOp τ sig Val)} {W : List (Ref sig .tc)} (hW : WritesAre ops W)
    (F0 : Valuation τ sig Val) {r : Ref sig .tc} (hr : r ∉ W) :
    after ops F0 (Proc.devRef .tc r) = F0 (Proc.devRef .tc r) := by
  unfold WritesAre at hW
  induction hW generalizing F0 with
  | nil => rfl
  | cons h _ ih =>
    rw [after_cons, ih _ fun hm => hr (List.mem_cons_of_mem _ hm), HloOp.result_of_not_mem]
    rw [h, Finset.mem_singleton]
    exact fun e => hr (Proc.devRef_injective _ e ▸ List.mem_cons_self)

/-- A reference no operation from the `k`-th on writes holds at the end what it held after the first `k` operations. -/
theorem after_eq_take {ops : List (HloOp τ sig Val)} {W : List (Ref sig .tc)} (hW : WritesAre ops W)
    (F0 : Valuation τ sig Val) (k : ℕ) {r : Ref sig .tc} (hr : r ∉ W.drop k) :
    after ops F0 (Proc.devRef .tc r) = after (ops.take k) F0 (Proc.devRef .tc r) := by
  conv_lhs => rw [← List.take_append_drop k ops, after_append]
  exact after_keep (hW.drop k) _ hr

/-- The reference the `k`-th operation writes, written by none after it, holds at the end that operation's result over
    what the first `k` operations leave. -/
theorem after_eq_result {ops : List (HloOp τ sig Val)} {W : List (Ref sig .tc)} (hW : WritesAre ops W)
    (F0 : Valuation τ sig Val) (k : ℕ) {op : HloOp τ sig Val} (hk : ops[k]? = some op) {y : Ref sig .tc}
    (hy' : y ∉ W.drop (k + 1)) :
    after ops F0 (Proc.devRef .tc y) = op.result (after (ops.take k) F0) (Proc.devRef .tc y) := by
  obtain ⟨hlt, rfl⟩ := List.getElem?_eq_some_iff.mp hk
  conv_lhs => rw [← List.take_append_drop k ops, after_append, List.drop_eq_getElem_cons hlt, after_cons]
  exact after_keep (hW.drop (k + 1)) _ hy'

/-- A constant: written by the `k`-th operation and by none after it, the reference ends at the constant. -/
theorem ssa_nullary {ops : List (HloOp τ sig Val)} {W : List (Ref sig .tc)} (hW : WritesAre ops W)
    (F0 : Valuation τ sig Val) (k : ℕ) {y : Ref sig .tc} {v : y.ty.Contents Val} {hy}
    (hk : ops[k]? = some (nullary y v hy)) (hy' : y ∉ W.drop (k + 1)) :
    after ops F0 (Proc.devRef .tc y) = v := by
  rw [after_eq_result hW F0 k hk hy']
  exact nullary_result y v hy _

/-- One operand: the result, written by the `k`-th operation and by none after it, ends at the function of what the
    operand ends at, the operand being written by no operation from the `k`-th on. -/
theorem ssa_unary {ops : List (HloOp τ sig Val)} {W : List (Ref sig .tc)} (hW : WritesAre ops W)
    (F0 : Valuation τ sig Val) (k : ℕ) {x y : Ref sig .tc} {f : x.ty.Contents Val → y.ty.Contents Val} {hx hy}
    (hk : ops[k]? = some (unary x y f hx hy)) (hx' : x ∉ W.drop k) (hy' : y ∉ W.drop (k + 1)) :
    after ops F0 (Proc.devRef .tc y) = f (after ops F0 (Proc.devRef .tc x)) := by
  rw [after_eq_result hW F0 k hk hy', after_eq_take hW F0 k hx']
  exact unary_result x y f hx hy _

/-- Two operands: as `ssa_unary`, both operands written by no operation from the `k`-th on. -/
theorem ssa_binary {ops : List (HloOp τ sig Val)} {W : List (Ref sig .tc)} (hW : WritesAre ops W)
    (F0 : Valuation τ sig Val) (k : ℕ) {a b y : Ref sig .tc}
    {f : a.ty.Contents Val → b.ty.Contents Val → y.ty.Contents Val} {ha hb hy}
    (hk : ops[k]? = some (binary a b y f ha hb hy)) (ha' : a ∉ W.drop k) (hb' : b ∉ W.drop k)
    (hy' : y ∉ W.drop (k + 1)) :
    after ops F0 (Proc.devRef .tc y) = f (after ops F0 (Proc.devRef .tc a)) (after ops F0 (Proc.devRef .tc b)) := by
  rw [after_eq_result hW F0 k hk hy', after_eq_take hW F0 k ha', after_eq_take hW F0 k hb']
  exact binary_result a b y f ha hb hy _

/-- Three operands: as `ssa_unary`, the three operands written by no operation from the `k`-th on. -/
theorem ssa_ternary {ops : List (HloOp τ sig Val)} {W : List (Ref sig .tc)} (hW : WritesAre ops W)
    (F0 : Valuation τ sig Val) (k : ℕ) {c a b y : Ref sig .tc}
    {f : c.ty.Contents Val → a.ty.Contents Val → b.ty.Contents Val → y.ty.Contents Val} {hc ha hb hy}
    (hk : ops[k]? = some (ternary c a b y f hc ha hb hy)) (hc' : c ∉ W.drop k) (ha' : a ∉ W.drop k)
    (hb' : b ∉ W.drop k) (hy' : y ∉ W.drop (k + 1)) :
    after ops F0 (Proc.devRef .tc y)
      = f (after ops F0 (Proc.devRef .tc c)) (after ops F0 (Proc.devRef .tc a)) (after ops F0 (Proc.devRef .tc b)) := by
  rw [after_eq_result hW F0 k hk hy', after_eq_take hW F0 k hc', after_eq_take hW F0 k ha', after_eq_take hW F0 k hb']
  exact ternary_result c a b y f hc ha hb hy _

/-- A reshape: the result ends at the operand's final contents, read in row-major order at the result's shape. -/
theorem ssa_reshape {ops : List (HloOp τ sig Val)} {W : List (Ref sig .tc)} (hW : WritesAre ops W)
    (F0 : Valuation τ sig Val) (k : ℕ) {x y : Ref sig .tc} {he : x.ty.elt = y.ty.elt}
    {hn : x.ty.shape.ShapeCasts y.ty.shape} {hx hy}
    (hk : ops[k]? = some (reshape x y he hn hx hy)) (hx' : x ∉ W.drop k) (hy' : y ∉ W.drop (k + 1)) :
    after ops F0 (Proc.devRef .tc y)
      = fun i => he ▸ shapeCast y.ty.shape (after ops F0 (Proc.devRef .tc x)) hn i := by
  rw [after_eq_result hW F0 k hk hy', after_eq_take hW F0 k hx']
  exact reshape_result x y he hn hx hy _

/-- A family of operands: the result ends at the function of the family of what the operands end at, every operand
    written by no operation from the `k`-th on. -/
theorem ssa_nary {n : ℕ} {ops : List (HloOp τ sig Val)} {W : List (Ref sig .tc)} (hW : WritesAre ops W)
    (F0 : Valuation τ sig Val) (k : ℕ) {xs : Fin n → Ref sig .tc} {y : Ref sig .tc}
    {f : ((j : Fin n) → (xs j).ty.Contents Val) → y.ty.Contents Val} {hxs hy}
    (hk : ops[k]? = some (nary xs y f hxs hy)) (hxs' : ∀ j, xs j ∉ W.drop k) (hy' : y ∉ W.drop (k + 1)) :
    after ops F0 (Proc.devRef .tc y) = f (fun j => after ops F0 (Proc.devRef .tc (xs j))) := by
  have hops : (fun j => after ops F0 (Proc.devRef .tc (xs j)))
      = fun j => after (ops.take k) F0 (Proc.devRef .tc (xs j)) :=
    funext fun j => after_eq_take hW F0 k (hxs' j)
  rw [after_eq_result hW F0 k hk hy', hops]
  exact nary_result xs y f hxs hy _

section Test

/- A line of three operations over any four distinct references: a constant into `a`, a function of `x` into `y`, a
   function of `y` and `a` into `z`. The stage equations, in program order, give `z`'s final contents in terms of
   what `x` held at the start. -/
example {x a y z : Ref sig .tc} (hxa : x ≠ a) (hxy : x ≠ y) (hxz : x ≠ z) (hay : a ≠ y) (haz : a ≠ z) (hyz : y ≠ z)
    (v : a.ty.Contents Val) (f : x.ty.Contents Val → y.ty.Contents Val)
    (g : y.ty.Contents Val → a.ty.Contents Val → z.ty.Contents Val) (hx ha hy hz) (F0 : Valuation τ sig Val) :
    after [nullary (τ := τ) a v ha, unary x y f hx hy, binary y a z g hy ha hz] F0 (Proc.devRef .tc z)
      = g (f (F0 (Proc.devRef .tc x))) v := by
  have hW : WritesAre [nullary (τ := τ) a v ha, unary x y f hx hy, binary y a z g hy ha hz] [a, y, z] :=
    .cons rfl (.cons rfl (.cons rfl .nil))
  have e0 := after_keep hW F0 (r := x) (by simp [hxa, hxy, hxz])
  have e1 := ssa_nullary hW F0 0 rfl (by simp [hay, haz])
  have e2 := ssa_unary hW F0 1 rfl (by simp [hxy, hxz]) (by simp [hyz])
  have e3 := ssa_binary hW F0 2 rfl (by simp [hyz]) (by simp [haz]) (by simp)
  rw [e3, e2, e1, e0]

end Test

end Idealize.ShloMosaic.StableHlo
-- ==== Proof.RefStages.lean ====
/-
  The reference program, one operation at a time. The program is a straight line of host operations in single
  assignment: each writes one buffer of its own and none is written twice. So what a buffer holds when the line has
  run is its operation's function of what the operands hold then, and an argument array, which no operation writes,
  holds what it held at the start. Going down the line, every buffer therefore ends at its stage function of the
  argument arrays' starting contents.
-/
import proofs.«426157_j56246891709114_1_alg».proof.Proof.RefOps
import proofs.«426157_j56246891709114_1_alg».proof.Proof.RefRead
import proofs.«426157_j56246891709114_1_alg».proof.Proof.LibSsa

set_option maxRecDepth 16384

noncomputable section

namespace Cert.ReferenceIdeal.Stages

open Cert.ReferenceIdeal Cert.ReferenceIdeal.Gen Cert.ReferenceIdeal.RunP
open Idealize.ShloMosaic Idealize.ShloMosaic.TcCoe Idealize.SL.Sem Idealize.ShloMosaic.StableHlo

variable {F : FTy → Type} [FloatOps F]

/-- The buffers the operations write, in order. -/
abbrev written : List (Ref sig .tc) :=
  [main_c, main_v0, main_v1, main_c_0, main_v2, main_v3, main_v4, main_v5, main_v6, main_v7, main_call0_cst, main_call0_v0, main_v8, main_cst, main_v9, main_v10, main_v11, main_v12, main_v13, main_v14, main_v15, main_v16, main_call1_cst, main_call1_v0, main_v17, main_v18, main_v19, main_v20, main_v21, main_call2_cst, main_call2_v0, main_v22, main_v23, main_v24, main_v25, main_v26, main_call3_cst, main_call3_v0, main_v27, main_v28, main_v29, main_v30, main_v31, main_v32, main_call4_cst, main_call4_v0, main_v33, main_v34, main_v35, main_v36, main_v37, main_c_1, main_v38, main_v39, main_c_2, main_v40, main_v41, main_v42, main_v43, main_v44, main_c_3, main_v45, main_v46, main_c_4, main_v47, main_v48, main_v49, main_v50, main_v51, main_v52, main_call5_cst, main_call5_v0, main_v53, main_v54, main_v55, main_v56, main_v57, main_v58, main_call6_cst, main_call6_v0, main_v59, main_v60, main_v61, main_v62, main_v63, main_v64, main_v65, main_cst_5, main_cst_6, main_call7_v0, main_call7_v1, main_call7_v2, main_call7_v3, main_call7_v4, main_v66, main_v67, main_v68, main_v69, main_v70, main_v71, main_cst_7, main_v72, main_v73, main_cst_8, main_v74, main_v75, main_v76, main_v77, main_v78, main_cst_9, main_cst_10, main_call8_v0, main_call8_v1, main_call8_v2, main_call8_v3, main_call8_v4, main_v79, main_v80, main_v81, main_v82, main_v83, main_v84, main_cst_11, main_v85, main_v86, main_cst_12, main_v87, main_v88, main_v89]

set_option maxHeartbeats 4000000 in
/-- Each operation writes exactly its own buffer. -/
theorem writes : WritesAre (ops (F := F)) written := by
  unfold WritesAre
  repeat' (first | exact List.Forall₂.nil | refine List.Forall₂.cons rfl ?_)

variable (V : Valuation τ sig (Elt F))

/-- No operation writes argument 0. -/
theorem kept_main_arg0 : after (ops (F := F)) V (Proc.devRef .tc main_arg0) = V (Proc.devRef .tc main_arg0) :=
  after_keep writes V (by decide)
/-- No operation writes argument 1. -/
theorem kept_main_arg1 : after (ops (F := F)) V (Proc.devRef .tc main_arg1) = V (Proc.devRef .tc main_arg1) :=
  after_keep writes V (by decide)
/-- No operation writes argument 2. -/
theorem kept_main_arg2 : after (ops (F := F)) V (Proc.devRef .tc main_arg2) = V (Proc.devRef .tc main_arg2) :=
  after_keep writes V (by decide)
/-- No operation writes argument 3. -/
theorem kept_main_arg3 : after (ops (F := F)) V (Proc.devRef .tc main_arg3) = V (Proc.devRef .tc main_arg3) :=
  after_keep writes V (by decide)
/-- No operation writes argument 4. -/
theorem kept_main_arg4 : after (ops (F := F)) V (Proc.devRef .tc main_arg4) = V (Proc.devRef .tc main_arg4) :=
  after_keep writes V (by decide)
/-- No operation writes argument 5. -/
theorem kept_main_arg5 : after (ops (F := F)) V (Proc.devRef .tc main_arg5) = V (Proc.devRef .tc main_arg5) :=
  after_keep writes V (by decide)
/-- No operation writes argument 6. -/
theorem kept_main_arg6 : after (ops (F := F)) V (Proc.devRef .tc main_arg6) = V (Proc.devRef .tc main_arg6) :=
  after_keep writes V (by decide)
/-- No operation writes argument 7. -/
theorem kept_main_arg7 : after (ops (F := F)) V (Proc.devRef .tc main_arg7) = V (Proc.devRef .tc main_arg7) :=
  after_keep writes V (by decide)
/-- No operation writes argument 8. -/
theorem kept_main_arg8 : after (ops (F := F)) V (Proc.devRef .tc main_arg8) = V (Proc.devRef .tc main_arg8) :=
  after_keep writes V (by decide)
/-- No operation writes argument 9. -/
theorem kept_main_arg9 : after (ops (F := F)) V (Proc.devRef .tc main_arg9) = V (Proc.devRef .tc main_arg9) :=
  after_keep writes V (by decide)
/-- No operation writes argument 10. -/
theorem kept_main_arg10 : after (ops (F := F)) V (Proc.devRef .tc main_arg10) = V (Proc.devRef .tc main_arg10) :=
  after_keep writes V (by decide)
/-- No operation writes argument 11. -/
theorem kept_main_arg11 : after (ops (F := F)) V (Proc.devRef .tc main_arg11) = V (Proc.devRef .tc main_arg11) :=
  after_keep writes V (by decide)
/-- No operation writes argument 12. -/
theorem kept_main_arg12 : after (ops (F := F)) V (Proc.devRef .tc main_arg12) = V (Proc.devRef .tc main_arg12) :=
  after_keep writes V (by decide)
/-- No operation writes argument 13. -/
theorem kept_main_arg13 : after (ops (F := F)) V (Proc.devRef .tc main_arg13) = V (Proc.devRef .tc main_arg13) :=
  after_keep writes V (by decide)
/-- No operation writes argument 14. -/
theorem kept_main_arg14 : after (ops (F := F)) V (Proc.devRef .tc main_arg14) = V (Proc.devRef .tc main_arg14) :=
  after_keep writes V (by decide)
/-- No operation writes argument 15. -/
theorem kept_main_arg15 : after (ops (F := F)) V (Proc.devRef .tc main_arg15) = V (Proc.devRef .tc main_arg15) :=
  after_keep writes V (by decide)
/-- No operation writes argument 16. -/
theorem kept_main_arg16 : after (ops (F := F)) V (Proc.devRef .tc main_arg16) = V (Proc.devRef .tc main_arg16) :=
  after_keep writes V (by decide)
/-- No operation writes argument 17. -/
theorem kept_main_arg17 : after (ops (F := F)) V (Proc.devRef .tc main_arg17) = V (Proc.devRef .tc main_arg17) :=
  after_keep writes V (by decide)
/-- No operation writes argument 18. -/
theorem kept_main_arg18 : after (ops (F := F)) V (Proc.devRef .tc main_arg18) = V (Proc.devRef .tc main_arg18) :=
  after_keep writes V (by decide)
/-- No operation writes argument 19. -/
theorem kept_main_arg19 : after (ops (F := F)) V (Proc.devRef .tc main_arg19) = V (Proc.devRef .tc main_arg19) :=
  after_keep writes V (by decide)

/-- Operation 0: what the buffer main_c ends at. -/
theorem st_main_c : after (ops (F := F)) V (Proc.devRef .tc main_c) = ReadP.val_main_c (F := F) := by
  refine (ssa_nullary writes V 0 rfl (by decide)).trans ?_
  rfl
/-- Operation 1: what the buffer main_v0 ends at. -/
theorem st_main_v0 : after (ops (F := F)) V (Proc.devRef .tc main_v0) = ReadP.val_main_v0 (F := F) := by
  refine (ssa_unary writes V 1 rfl (by decide) (by decide)).trans ?_
  rw [st_main_c V]
  rfl
/-- Operation 2: what the buffer main_v1 ends at. -/
theorem st_main_v1 : after (ops (F := F)) V (Proc.devRef .tc main_v1) = ReadP.val_main_v1 (F := F) (V (Proc.devRef .tc main_arg4)) := by
  refine (ssa_binary writes V 2 rfl (by decide) (by decide) (by decide)).trans ?_
  rw [kept_main_arg4 V, st_main_v0 V]
  rfl
/-- Operation 3: what the buffer main_c_0 ends at. -/
theorem st_main_c_0 : after (ops (F := F)) V (Proc.devRef .tc main_c_0) = ReadP.val_main_c_0 (F := F) := by
  refine (ssa_nullary writes V 3 rfl (by decide)).trans ?_
  rfl
/-- Operation 4: what the buffer main_v2 ends at. -/
theorem st_main_v2 : after (ops (F := F)) V (Proc.devRef .tc main_v2) = ReadP.val_main_v2 (F := F) := by
  refine (ssa_unary writes V 4 rfl (by decide) (by decide)).trans ?_
  rw [st_main_c_0 V]
  rfl
/-- Operation 5: what the buffer main_v3 ends at. -/
theorem st_main_v3 : after (ops (F := F)) V (Proc.devRef .tc main_v3) = ReadP.val_main_v3 (F := F) (V (Proc.devRef .tc main_arg4)) := by
  refine (ssa_binary writes V 5 rfl (by decide) (by decide) (by decide)).trans ?_
  rw [kept_main_arg4 V, st_main_v2 V]
  rfl
/-- Operation 6: what the buffer main_v4 ends at. -/
theorem st_main_v4 : after (ops (F := F)) V (Proc.devRef .tc main_v4) = ReadP.val_main_v4 (F := F) (V (Proc.devRef .tc main_arg4)) := by
  refine (ssa_ternary writes V 6 rfl (by decide) (by decide) (by decide) (by decide)).trans ?_
  rw [st_main_v1 V, st_main_v3 V, kept_main_arg4 V]
  rfl
/-- Operation 7: what the buffer main_v5 ends at. -/
theorem st_main_v5 : after (ops (F := F)) V (Proc.devRef .tc main_v5) = ReadP.val_main_v5 (F := F) (V (Proc.devRef .tc main_arg4)) := by
  refine (ssa_unary writes V 7 rfl (by decide) (by decide)).trans ?_
  rw [st_main_v4 V]
  rfl
/-- Operation 8: what the buffer main_v6 ends at. -/
theorem st_main_v6 : after (ops (F := F)) V (Proc.devRef .tc main_v6) = ReadP.val_main_v6 (F := F) (V (Proc.devRef .tc main_arg0)) (V (Proc.devRef .tc main_arg4)) := by
  refine (ssa_binary writes V 8 rfl (by decide) (by decide) (by decide)).trans ?_
  rw [kept_main_arg0 V, st_main_v5 V]
  rfl
/-- Operation 9: what the buffer main_v7 ends at. -/
theorem st_main_v7 : after (ops (F := F)) V (Proc.devRef .tc main_v7) = ReadP.val_main_v7 (F := F) (V (Proc.devRef .tc main_arg0)) (V (Proc.devRef .tc main_arg1)) (V (Proc.devRef .tc main_arg4)) := by
  refine (ssa_binary writes V 9 rfl (by decide) (by decide) (by decide)).trans ?_
  rw [st_main_v6 V, kept_main_arg1 V]
  rfl
/-- Operation 10: what the buffer main_call0_cst ends at. -/
theorem st_main_call0_cst : after (ops (F := F)) V (Proc.devRef .tc main_call0_cst) = ReadP.val_main_call0_cst (F := F) := by
  refine (ssa_nullary writes V 10 rfl (by decide)).trans ?_
  rfl
/-- Operation 11: what the buffer main_call0_v0 ends at. -/
theorem st_main_call0_v0 : after (ops (F := F)) V (Proc.devRef .tc main_call0_v0) = ReadP.val_main_call0_v0 (F := F) := by
  refine (ssa_unary writes V 11 rfl (by decide) (by decide)).trans ?_
  rw [st_main_call0_cst V]
  rfl
/-- Operation 12: what the buffer main_v8 ends at. -/
theorem st_main_v8 : after (ops (F := F)) V (Proc.devRef .tc main_v8) = ReadP.val_main_v8 (F := F) (V (Proc.devRef .tc main_arg0)) (V (Proc.devRef .tc main_arg1)) (V (Proc.devRef .tc main_arg4)) := by
  refine (ssa_binary writes V 12 rfl (by decide) (by decide) (by decide)).trans ?_
  rw [st_main_v7 V, st_main_call0_v0 V]
  rfl
/-- Operation 13: what the buffer main_cst ends at. -/
theorem st_main_cst : after (ops (F := F)) V (Proc.devRef .tc main_cst) = ReadP.val_main_cst (F := F) := by
  refine (ssa_nullary writes V 13 rfl (by decide)).trans ?_
  rfl
/-- Operation 14: what the buffer main_v9 ends at. -/
theorem st_main_v9 : after (ops (F := F)) V (Proc.devRef .tc main_v9) = ReadP.val_main_v9 (F := F) := by
  refine (ssa_unary writes V 14 rfl (by decide) (by decide)).trans ?_
  rw [st_main_cst V]
  rfl
/-- Operation 15: what the buffer main_v10 ends at. -/
theorem st_main_v10 : after (ops (F := F)) V (Proc.devRef .tc main_v10) = ReadP.val_main_v10 (F := F) (V (Proc.devRef .tc main_arg5)) := by
  refine (ssa_unary writes V 15 rfl (by decide) (by decide)).trans ?_
  rw [kept_main_arg5 V]
  rfl
/-- Operation 16: what the buffer main_v11 ends at. -/
theorem st_main_v11 : after (ops (F := F)) V (Proc.devRef .tc main_v11) = ReadP.val_main_v11 (F := F) (V (Proc.devRef .tc main_arg0)) (V (Proc.devRef .tc main_arg1)) (V (Proc.devRef .tc main_arg4)) (V (Proc.devRef .tc main_arg5)) := by
  refine (ssa_ternary writes V 16 rfl (by decide) (by decide) (by decide) (by decide)).trans ?_
  rw [st_main_v9 V, st_main_v10 V, st_main_v8 V]
  rfl
/-- Operation 17: what the buffer main_v12 ends at. -/
theorem st_main_v12 : after (ops (F := F)) V (Proc.devRef .tc main_v12) = ReadP.val_main_v12 (F := F) (V (Proc.devRef .tc main_arg0)) (V (Proc.devRef .tc main_arg1)) (V (Proc.devRef .tc main_arg4)) (V (Proc.devRef .tc main_arg5)) := by
  refine (ssa_binary writes V 17 rfl (by decide) (by decide) (by decide)).trans ?_
  rw [kept_main_arg0 V, st_main_v11 V]
  rfl
/-- Operation 18: what the buffer main_v13 ends at. -/
theorem st_main_v13 : after (ops (F := F)) V (Proc.devRef .tc main_v13) = ReadP.val_main_v13 (F := F) (V (Proc.devRef .tc main_arg0)) (V (Proc.devRef .tc main_arg1)) (V (Proc.devRef .tc main_arg4)) (V (Proc.devRef .tc main_arg5)) (V (Proc.devRef .tc main_arg6)) := by
  refine (ssa_binary writes V 18 rfl (by decide) (by decide) (by decide)).trans ?_
  rw [st_main_v12 V, kept_main_arg6 V]
  rfl
/-- Operation 19: what the buffer main_v14 ends at. -/
theorem st_main_v14 : after (ops (F := F)) V (Proc.devRef .tc main_v14) = ReadP.val_main_v14 (F := F) (V (Proc.devRef .tc main_arg7)) := by
  refine (ssa_unary writes V 19 rfl (by decide) (by decide)).trans ?_
  rw [kept_main_arg7 V]
  rfl
/-- Operation 20: what the buffer main_v15 ends at. -/
theorem st_main_v15 : after (ops (F := F)) V (Proc.devRef .tc main_v15) = ReadP.val_main_v15 (F := F) (V (Proc.devRef .tc main_arg7)) := by
  refine (ssa_unary writes V 20 rfl (by decide) (by decide)).trans ?_
  rw [st_main_v14 V]
  rfl
/-- Operation 21: what the buffer main_v16 ends at. -/
theorem st_main_v16 : after (ops (F := F)) V (Proc.devRef .tc main_v16) = ReadP.val_main_v16 (F := F) (V (Proc.devRef .tc main_arg0)) (V (Proc.devRef .tc main_arg1)) (V (Proc.devRef .tc main_arg4)) (V (Proc.devRef .tc main_arg5)) (V (Proc.devRef .tc main_arg6)) (V (Proc.devRef .tc main_arg7)) := by
  refine (ssa_binary writes V 21 rfl (by decide) (by decide) (by decide)).trans ?_
  rw [st_main_v13 V, st_main_v15 V]
  rfl
/-- Operation 22: what the buffer main_call1_cst ends at. -/
theorem st_main_call1_cst : after (ops (F := F)) V (Proc.devRef .tc main_call1_cst) = ReadP.val_main_call1_cst (F := F) := by
  refine (ssa_nullary writes V 22 rfl (by decide)).trans ?_
  rfl
/-- Operation 23: what the buffer main_call1_v0 ends at. -/
theorem st_main_call1_v0 : after (ops (F := F)) V (Proc.devRef .tc main_call1_v0) = ReadP.val_main_call1_v0 (F := F) := by
  refine (ssa_unary writes V 23 rfl (by decide) (by decide)).trans ?_
  rw [st_main_call1_cst V]
  rfl
/-- Operation 24: what the buffer main_v17 ends at. -/
theorem st_main_v17 : after (ops (F := F)) V (Proc.devRef .tc main_v17) = ReadP.val_main_v17 (F := F) (V (Proc.devRef .tc main_arg0)) (V (Proc.devRef .tc main_arg1)) (V (Proc.devRef .tc main_arg4)) (V (Proc.devRef .tc main_arg5)) (V (Proc.devRef .tc main_arg6)) (V (Proc.devRef .tc main_arg7)) := by
  refine (ssa_binary writes V 24 rfl (by decide) (by decide) (by decide)).trans ?_
  rw [st_main_v16 V, st_main_call1_v0 V]
  rfl
/-- Operation 25: what the buffer main_v18 ends at. -/
theorem st_main_v18 : after (ops (F := F)) V (Proc.devRef .tc main_v18) = ReadP.val_main_v18 (F := F) (V (Proc.devRef .tc main_arg2)) (V (Proc.devRef .tc main_arg8)) := by
  refine (ssa_binary writes V 25 rfl (by decide) (by decide) (by decide)).trans ?_
  rw [kept_main_arg2 V, kept_main_arg8 V]
  rfl
/-- Operation 26: what the buffer main_v19 ends at. -/
theorem st_main_v19 : after (ops (F := F)) V (Proc.devRef .tc main_v19) = ReadP.val_main_v19 (F := F) (V (Proc.devRef .tc main_arg9)) := by
  refine (ssa_unary writes V 26 rfl (by decide) (by decide)).trans ?_
  rw [kept_main_arg9 V]
  rfl
/-- Operation 27: what the buffer main_v20 ends at. -/
theorem st_main_v20 : after (ops (F := F)) V (Proc.devRef .tc main_v20) = ReadP.val_main_v20 (F := F) (V (Proc.devRef .tc main_arg9)) := by
  refine (ssa_unary writes V 27 rfl (by decide) (by decide)).trans ?_
  rw [st_main_v19 V]
  rfl
/-- Operation 28: what the buffer main_v21 ends at. -/
theorem st_main_v21 : after (ops (F := F)) V (Proc.devRef .tc main_v21) = ReadP.val_main_v21 (F := F) (V (Proc.devRef .tc main_arg2)) (V (Proc.devRef .tc main_arg8)) (V (Proc.devRef .tc main_arg9)) := by
  refine (ssa_binary writes V 28 rfl (by decide) (by decide) (by decide)).trans ?_
  rw [st_main_v18 V, st_main_v20 V]
  rfl
/-- Operation 29: what the buffer main_call2_cst ends at. -/
theorem st_main_call2_cst : after (ops (F := F)) V (Proc.devRef .tc main_call2_cst) = ReadP.val_main_call2_cst (F := F) := by
  refine (ssa_nullary writes V 29 rfl (by decide)).trans ?_
  rfl
/-- Operation 30: what the buffer main_call2_v0 ends at. -/
theorem st_main_call2_v0 : after (ops (F := F)) V (Proc.devRef .tc main_call2_v0) = ReadP.val_main_call2_v0 (F := F) := by
  refine (ssa_unary writes V 30 rfl (by decide) (by decide)).trans ?_
  rw [st_main_call2_cst V]
  rfl
/-- Operation 31: what the buffer main_v22 ends at. -/
theorem st_main_v22 : after (ops (F := F)) V (Proc.devRef .tc main_v22) = ReadP.val_main_v22 (F := F) (V (Proc.devRef .tc main_arg2)) (V (Proc.devRef .tc main_arg8)) (V (Proc.devRef .tc main_arg9)) := by
  refine (ssa_binary writes V 31 rfl (by decide) (by decide) (by decide)).trans ?_
  rw [st_main_v21 V, st_main_call2_v0 V]
  rfl
/-- Operation 32: what the buffer main_v23 ends at. -/
theorem st_main_v23 : after (ops (F := F)) V (Proc.devRef .tc main_v23) = ReadP.val_main_v23 (F := F) (V (Proc.devRef .tc main_arg3)) (V (Proc.devRef .tc main_arg10)) := by
  refine (ssa_binary writes V 32 rfl (by decide) (by decide) (by decide)).trans ?_
  rw [kept_main_arg3 V, kept_main_arg10 V]
  rfl
/-- Operation 33: what the buffer main_v24 ends at. -/
theorem st_main_v24 : after (ops (F := F)) V (Proc.devRef .tc main_v24) = ReadP.val_main_v24 (F := F) (V (Proc.devRef .tc main_arg11)) := by
  refine (ssa_unary writes V 33 rfl (by decide) (by decide)).trans ?_
  rw [kept_main_arg11 V]
  rfl
/-- Operation 34: what the buffer main_v25 ends at. -/
theorem st_main_v25 : after (ops (F := F)) V (Proc.devRef .tc main_v25) = ReadP.val_main_v25 (F := F) (V (Proc.devRef .tc main_arg11)) := by
  refine (ssa_unary writes V 34 rfl (by decide) (by decide)).trans ?_
  rw [st_main_v24 V]
  rfl
/-- Operation 35: what the buffer main_v26 ends at. -/
theorem st_main_v26 : after (ops (F := F)) V (Proc.devRef .tc main_v26) = ReadP.val_main_v26 (F := F) (V (Proc.devRef .tc main_arg3)) (V (Proc.devRef .tc main_arg10)) (V (Proc.devRef .tc main_arg11)) := by
  refine (ssa_binary writes V 35 rfl (by decide) (by decide) (by decide)).trans ?_
  rw [st_main_v23 V, st_main_v25 V]
  rfl
/-- Operation 36: what the buffer main_call3_cst ends at. -/
theorem st_main_call3_cst : after (ops (F := F)) V (Proc.devRef .tc main_call3_cst) = ReadP.val_main_call3_cst (F := F) := by
  refine (ssa_nullary writes V 36 rfl (by decide)).trans ?_
  rfl
/-- Operation 37: what the buffer main_call3_v0 ends at. -/
theorem st_main_call3_v0 : after (ops (F := F)) V (Proc.devRef .tc main_call3_v0) = ReadP.val_main_call3_v0 (F := F) := by
  refine (ssa_unary writes V 37 rfl (by decide) (by decide)).trans ?_
  rw [st_main_call3_cst V]
  rfl
/-- Operation 38: what the buffer main_v27 ends at. -/
theorem st_main_v27 : after (ops (F := F)) V (Proc.devRef .tc main_v27) = ReadP.val_main_v27 (F := F) (V (Proc.devRef .tc main_arg3)) (V (Proc.devRef .tc main_arg10)) (V (Proc.devRef .tc main_arg11)) := by
  refine (ssa_binary writes V 38 rfl (by decide) (by decide) (by decide)).trans ?_
  rw [st_main_v26 V, st_main_call3_v0 V]
  rfl
/-- Operation 39: what the buffer main_v28 ends at. -/
theorem st_main_v28 : after (ops (F := F)) V (Proc.devRef .tc main_v28) = ReadP.val_main_v28 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  refine (ssa_binary writes V 39 rfl (by decide) (by decide) (by decide)).trans ?_
  rw [st_main_v17 V, st_main_v22 V]
  rfl
/-- Operation 40: what the buffer main_v29 ends at. -/
theorem st_main_v29 : after (ops (F := F)) V (Proc.devRef .tc main_v29) = ReadP.val_main_v29 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) := by
  refine (ssa_binary writes V 40 rfl (by decide) (by decide) (by decide)).trans ?_
  rw [st_main_v28 V, kept_main_arg12 V]
  rfl
/-- Operation 41: what the buffer main_v30 ends at. -/
theorem st_main_v30 : after (ops (F := F)) V (Proc.devRef .tc main_v30) = ReadP.val_main_v30 (F := F) (V (Proc.devRef .tc main_arg13)) := by
  refine (ssa_unary writes V 41 rfl (by decide) (by decide)).trans ?_
  rw [kept_main_arg13 V]
  rfl
/-- Operation 42: what the buffer main_v31 ends at. -/
theorem st_main_v31 : after (ops (F := F)) V (Proc.devRef .tc main_v31) = ReadP.val_main_v31 (F := F) (V (Proc.devRef .tc main_arg13)) := by
  refine (ssa_unary writes V 42 rfl (by decide) (by decide)).trans ?_
  rw [st_main_v30 V]
  rfl
/-- Operation 43: what the buffer main_v32 ends at. -/
theorem st_main_v32 : after (ops (F := F)) V (Proc.devRef .tc main_v32) = ReadP.val_main_v32 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) := by
  refine (ssa_binary writes V 43 rfl (by decide) (by decide) (by decide)).trans ?_
  rw [st_main_v29 V, st_main_v31 V]
  rfl
/-- Operation 44: what the buffer main_call4_cst ends at. -/
theorem st_main_call4_cst : after (ops (F := F)) V (Proc.devRef .tc main_call4_cst) = ReadP.val_main_call4_cst (F := F) := by
  refine (ssa_nullary writes V 44 rfl (by decide)).trans ?_
  rfl
/-- Operation 45: what the buffer main_call4_v0 ends at. -/
theorem st_main_call4_v0 : after (ops (F := F)) V (Proc.devRef .tc main_call4_v0) = ReadP.val_main_call4_v0 (F := F) := by
  refine (ssa_unary writes V 45 rfl (by decide) (by decide)).trans ?_
  rw [st_main_call4_cst V]
  rfl
/-- Operation 46: what the buffer main_v33 ends at. -/
theorem st_main_v33 : after (ops (F := F)) V (Proc.devRef .tc main_v33) = ReadP.val_main_v33 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) := by
  refine (ssa_binary writes V 46 rfl (by decide) (by decide) (by decide)).trans ?_
  rw [st_main_v32 V, st_main_call4_v0 V]
  rfl
/-- Operation 47: what the buffer main_v34 ends at. -/
theorem st_main_v34 : after (ops (F := F)) V (Proc.devRef .tc main_v34) = ReadP.val_main_v34 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) (V (Proc.devRef .tc main_arg16)) := by
  refine (ssa_binary writes V 47 rfl (by decide) (by decide) (by decide)).trans ?_
  rw [st_main_v33 V, kept_main_arg16 V]
  rfl
/-- Operation 48: what the buffer main_v35 ends at. -/
theorem st_main_v35 : after (ops (F := F)) V (Proc.devRef .tc main_v35) = ReadP.val_main_v35 (F := F) (V (Proc.devRef .tc main_arg17)) := by
  refine (ssa_unary writes V 48 rfl (by decide) (by decide)).trans ?_
  rw [kept_main_arg17 V]
  rfl
/-- Operation 49: what the buffer main_v36 ends at. -/
theorem st_main_v36 : after (ops (F := F)) V (Proc.devRef .tc main_v36) = ReadP.val_main_v36 (F := F) (V (Proc.devRef .tc main_arg17)) := by
  refine (ssa_unary writes V 49 rfl (by decide) (by decide)).trans ?_
  rw [st_main_v35 V]
  rfl
/-- Operation 50: what the buffer main_v37 ends at. -/
theorem st_main_v37 : after (ops (F := F)) V (Proc.devRef .tc main_v37) = ReadP.val_main_v37 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) (V (Proc.devRef .tc main_arg16)) (V (Proc.devRef .tc main_arg17)) := by
  refine (ssa_binary writes V 50 rfl (by decide) (by decide) (by decide)).trans ?_
  rw [st_main_v34 V, st_main_v36 V]
  rfl
/-- Operation 51: what the buffer main_c_1 ends at. -/
theorem st_main_c_1 : after (ops (F := F)) V (Proc.devRef .tc main_c_1) = ReadP.val_main_c_1 (F := F) := by
  refine (ssa_nullary writes V 51 rfl (by decide)).trans ?_
  rfl
/-- Operation 52: what the buffer main_v38 ends at. -/
theorem st_main_v38 : after (ops (F := F)) V (Proc.devRef .tc main_v38) = ReadP.val_main_v38 (F := F) := by
  refine (ssa_unary writes V 52 rfl (by decide) (by decide)).trans ?_
  rw [st_main_c_1 V]
  rfl
/-- Operation 53: what the buffer main_v39 ends at. -/
theorem st_main_v39 : after (ops (F := F)) V (Proc.devRef .tc main_v39) = ReadP.val_main_v39 (F := F) (V (Proc.devRef .tc main_arg4)) := by
  refine (ssa_binary writes V 53 rfl (by decide) (by decide) (by decide)).trans ?_
  rw [kept_main_arg4 V, st_main_v38 V]
  rfl
/-- Operation 54: what the buffer main_c_2 ends at. -/
theorem st_main_c_2 : after (ops (F := F)) V (Proc.devRef .tc main_c_2) = ReadP.val_main_c_2 (F := F) := by
  refine (ssa_nullary writes V 54 rfl (by decide)).trans ?_
  rfl
/-- Operation 55: what the buffer main_v40 ends at. -/
theorem st_main_v40 : after (ops (F := F)) V (Proc.devRef .tc main_v40) = ReadP.val_main_v40 (F := F) := by
  refine (ssa_unary writes V 55 rfl (by decide) (by decide)).trans ?_
  rw [st_main_c_2 V]
  rfl
/-- Operation 56: what the buffer main_v41 ends at. -/
theorem st_main_v41 : after (ops (F := F)) V (Proc.devRef .tc main_v41) = ReadP.val_main_v41 (F := F) (V (Proc.devRef .tc main_arg4)) := by
  refine (ssa_binary writes V 56 rfl (by decide) (by decide) (by decide)).trans ?_
  rw [kept_main_arg4 V, st_main_v40 V]
  rfl
/-- Operation 57: what the buffer main_v42 ends at. -/
theorem st_main_v42 : after (ops (F := F)) V (Proc.devRef .tc main_v42) = ReadP.val_main_v42 (F := F) (V (Proc.devRef .tc main_arg4)) := by
  refine (ssa_ternary writes V 57 rfl (by decide) (by decide) (by decide) (by decide)).trans ?_
  rw [st_main_v39 V, st_main_v41 V, kept_main_arg4 V]
  rfl
/-- Operation 58: what the buffer main_v43 ends at. -/
theorem st_main_v43 : after (ops (F := F)) V (Proc.devRef .tc main_v43) = ReadP.val_main_v43 (F := F) (V (Proc.devRef .tc main_arg4)) := by
  refine (ssa_unary writes V 58 rfl (by decide) (by decide)).trans ?_
  rw [st_main_v42 V]
  rfl
/-- Operation 59: what the buffer main_v44 ends at. -/
theorem st_main_v44 : after (ops (F := F)) V (Proc.devRef .tc main_v44) = ReadP.val_main_v44 (F := F) (V (Proc.devRef .tc main_arg0)) (V (Proc.devRef .tc main_arg1)) (V (Proc.devRef .tc main_arg4)) (V (Proc.devRef .tc main_arg5)) (V (Proc.devRef .tc main_arg6)) (V (Proc.devRef .tc main_arg7)) := by
  refine (ssa_binary writes V 59 rfl (by decide) (by decide) (by decide)).trans ?_
  rw [st_main_v17 V, st_main_v43 V]
  rfl
/-- Operation 60: what the buffer main_c_3 ends at. -/
theorem st_main_c_3 : after (ops (F := F)) V (Proc.devRef .tc main_c_3) = ReadP.val_main_c_3 (F := F) := by
  refine (ssa_nullary writes V 60 rfl (by decide)).trans ?_
  rfl
/-- Operation 61: what the buffer main_v45 ends at. -/
theorem st_main_v45 : after (ops (F := F)) V (Proc.devRef .tc main_v45) = ReadP.val_main_v45 (F := F) := by
  refine (ssa_unary writes V 61 rfl (by decide) (by decide)).trans ?_
  rw [st_main_c_3 V]
  rfl
/-- Operation 62: what the buffer main_v46 ends at. -/
theorem st_main_v46 : after (ops (F := F)) V (Proc.devRef .tc main_v46) = ReadP.val_main_v46 (F := F) (V (Proc.devRef .tc main_arg5)) := by
  refine (ssa_binary writes V 62 rfl (by decide) (by decide) (by decide)).trans ?_
  rw [kept_main_arg5 V, st_main_v45 V]
  rfl
/-- Operation 63: what the buffer main_c_4 ends at. -/
theorem st_main_c_4 : after (ops (F := F)) V (Proc.devRef .tc main_c_4) = ReadP.val_main_c_4 (F := F) := by
  refine (ssa_nullary writes V 63 rfl (by decide)).trans ?_
  rfl
/-- Operation 64: what the buffer main_v47 ends at. -/
theorem st_main_v47 : after (ops (F := F)) V (Proc.devRef .tc main_v47) = ReadP.val_main_v47 (F := F) := by
  refine (ssa_unary writes V 64 rfl (by decide) (by decide)).trans ?_
  rw [st_main_c_4 V]
  rfl
/-- Operation 65: what the buffer main_v48 ends at. -/
theorem st_main_v48 : after (ops (F := F)) V (Proc.devRef .tc main_v48) = ReadP.val_main_v48 (F := F) (V (Proc.devRef .tc main_arg5)) := by
  refine (ssa_binary writes V 65 rfl (by decide) (by decide) (by decide)).trans ?_
  rw [kept_main_arg5 V, st_main_v47 V]
  rfl
/-- Operation 66: what the buffer main_v49 ends at. -/
theorem st_main_v49 : after (ops (F := F)) V (Proc.devRef .tc main_v49) = ReadP.val_main_v49 (F := F) (V (Proc.devRef .tc main_arg5)) := by
  refine (ssa_ternary writes V 66 rfl (by decide) (by decide) (by decide) (by decide)).trans ?_
  rw [st_main_v46 V, st_main_v48 V, kept_main_arg5 V]
  rfl
/-- Operation 67: what the buffer main_v50 ends at. -/
theorem st_main_v50 : after (ops (F := F)) V (Proc.devRef .tc main_v50) = ReadP.val_main_v50 (F := F) (V (Proc.devRef .tc main_arg5)) := by
  refine (ssa_unary writes V 67 rfl (by decide) (by decide)).trans ?_
  rw [st_main_v49 V]
  rfl
/-- Operation 68: what the buffer main_v51 ends at. -/
theorem st_main_v51 : after (ops (F := F)) V (Proc.devRef .tc main_v51) = ReadP.val_main_v51 (F := F) (V (Proc.devRef .tc main_arg0)) (V (Proc.devRef .tc main_arg1)) (V (Proc.devRef .tc main_arg4)) (V (Proc.devRef .tc main_arg5)) (V (Proc.devRef .tc main_arg6)) (V (Proc.devRef .tc main_arg7)) := by
  refine (ssa_binary writes V 68 rfl (by decide) (by decide) (by decide)).trans ?_
  rw [st_main_v17 V, st_main_v50 V]
  rfl
/-- Operation 69: what the buffer main_v52 ends at. -/
theorem st_main_v52 : after (ops (F := F)) V (Proc.devRef .tc main_v52) = ReadP.val_main_v52 (F := F) (V (Proc.devRef .tc main_arg0)) (V (Proc.devRef .tc main_arg1)) (V (Proc.devRef .tc main_arg4)) (V (Proc.devRef .tc main_arg5)) (V (Proc.devRef .tc main_arg6)) (V (Proc.devRef .tc main_arg7)) := by
  refine (ssa_binary writes V 69 rfl (by decide) (by decide) (by decide)).trans ?_
  rw [st_main_v44 V, st_main_v51 V]
  rfl
/-- Operation 70: what the buffer main_call5_cst ends at. -/
theorem st_main_call5_cst : after (ops (F := F)) V (Proc.devRef .tc main_call5_cst) = ReadP.val_main_call5_cst (F := F) := by
  refine (ssa_nullary writes V 70 rfl (by decide)).trans ?_
  rfl
/-- Operation 71: what the buffer main_call5_v0 ends at. -/
theorem st_main_call5_v0 : after (ops (F := F)) V (Proc.devRef .tc main_call5_v0) = ReadP.val_main_call5_v0 (F := F) := by
  refine (ssa_unary writes V 71 rfl (by decide) (by decide)).trans ?_
  rw [st_main_call5_cst V]
  rfl
/-- Operation 72: what the buffer main_v53 ends at. -/
theorem st_main_v53 : after (ops (F := F)) V (Proc.devRef .tc main_v53) = ReadP.val_main_v53 (F := F) (V (Proc.devRef .tc main_arg0)) (V (Proc.devRef .tc main_arg1)) (V (Proc.devRef .tc main_arg4)) (V (Proc.devRef .tc main_arg5)) (V (Proc.devRef .tc main_arg6)) (V (Proc.devRef .tc main_arg7)) := by
  refine (ssa_binary writes V 72 rfl (by decide) (by decide) (by decide)).trans ?_
  rw [st_main_v52 V, st_main_call5_v0 V]
  rfl
/-- Operation 73: what the buffer main_v54 ends at. -/
theorem st_main_v54 : after (ops (F := F)) V (Proc.devRef .tc main_v54) = ReadP.val_main_v54 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg10)) (V (Proc.devRef .tc main_arg11)) := by
  refine (ssa_binary writes V 73 rfl (by decide) (by decide) (by decide)).trans ?_
  rw [st_main_v53 V, st_main_v27 V]
  rfl
/-- Operation 74: what the buffer main_v55 ends at. -/
theorem st_main_v55 : after (ops (F := F)) V (Proc.devRef .tc main_v55) = ReadP.val_main_v55 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg10)) (V (Proc.devRef .tc main_arg11)) (V (Proc.devRef .tc main_arg14)) := by
  refine (ssa_binary writes V 74 rfl (by decide) (by decide) (by decide)).trans ?_
  rw [st_main_v54 V, kept_main_arg14 V]
  rfl
/-- Operation 75: what the buffer main_v56 ends at. -/
theorem st_main_v56 : after (ops (F := F)) V (Proc.devRef .tc main_v56) = ReadP.val_main_v56 (F := F) (V (Proc.devRef .tc main_arg15)) := by
  refine (ssa_unary writes V 75 rfl (by decide) (by decide)).trans ?_
  rw [kept_main_arg15 V]
  rfl
/-- Operation 76: what the buffer main_v57 ends at. -/
theorem st_main_v57 : after (ops (F := F)) V (Proc.devRef .tc main_v57) = ReadP.val_main_v57 (F := F) (V (Proc.devRef .tc main_arg15)) := by
  refine (ssa_unary writes V 76 rfl (by decide) (by decide)).trans ?_
  rw [st_main_v56 V]
  rfl
/-- Operation 77: what the buffer main_v58 ends at. -/
theorem st_main_v58 : after (ops (F := F)) V (Proc.devRef .tc main_v58) = ReadP.val_main_v58 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg10)) (V (Proc.devRef .tc main_arg11)) (V (Proc.devRef .tc main_arg14)) (V (Proc.devRef .tc main_arg15)) := by
  refine (ssa_binary writes V 77 rfl (by decide) (by decide) (by decide)).trans ?_
  rw [st_main_v55 V, st_main_v57 V]
  rfl
/-- Operation 78: what the buffer main_call6_cst ends at. -/
theorem st_main_call6_cst : after (ops (F := F)) V (Proc.devRef .tc main_call6_cst) = ReadP.val_main_call6_cst (F := F) := by
  refine (ssa_nullary writes V 78 rfl (by decide)).trans ?_
  rfl
/-- Operation 79: what the buffer main_call6_v0 ends at. -/
theorem st_main_call6_v0 : after (ops (F := F)) V (Proc.devRef .tc main_call6_v0) = ReadP.val_main_call6_v0 (F := F) := by
  refine (ssa_unary writes V 79 rfl (by decide) (by decide)).trans ?_
  rw [st_main_call6_cst V]
  rfl
/-- Operation 80: what the buffer main_v59 ends at. -/
theorem st_main_v59 : after (ops (F := F)) V (Proc.devRef .tc main_v59) = ReadP.val_main_v59 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg10)) (V (Proc.devRef .tc main_arg11)) (V (Proc.devRef .tc main_arg14)) (V (Proc.devRef .tc main_arg15)) := by
  refine (ssa_binary writes V 80 rfl (by decide) (by decide) (by decide)).trans ?_
  rw [st_main_v58 V, st_main_call6_v0 V]
  rfl
/-- Operation 81: what the buffer main_v60 ends at. -/
theorem st_main_v60 : after (ops (F := F)) V (Proc.devRef .tc main_v60) = ReadP.val_main_v60 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg10)) (V (Proc.devRef .tc main_arg11)) (V (Proc.devRef .tc main_arg14)) (V (Proc.devRef .tc main_arg15)) (V (Proc.devRef .tc main_arg18)) := by
  refine (ssa_binary writes V 81 rfl (by decide) (by decide) (by decide)).trans ?_
  rw [st_main_v59 V, kept_main_arg18 V]
  rfl
/-- Operation 82: what the buffer main_v61 ends at. -/
theorem st_main_v61 : after (ops (F := F)) V (Proc.devRef .tc main_v61) = ReadP.val_main_v61 (F := F) (V (Proc.devRef .tc main_arg19)) := by
  refine (ssa_unary writes V 82 rfl (by decide) (by decide)).trans ?_
  rw [kept_main_arg19 V]
  rfl
/-- Operation 83: what the buffer main_v62 ends at. -/
theorem st_main_v62 : after (ops (F := F)) V (Proc.devRef .tc main_v62) = ReadP.val_main_v62 (F := F) (V (Proc.devRef .tc main_arg19)) := by
  refine (ssa_unary writes V 83 rfl (by decide) (by decide)).trans ?_
  rw [st_main_v61 V]
  rfl
/-- Operation 84: what the buffer main_v63 ends at. -/
theorem st_main_v63 : after (ops (F := F)) V (Proc.devRef .tc main_v63) = ReadP.val_main_v63 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg10)) (V (Proc.devRef .tc main_arg11)) (V (Proc.devRef .tc main_arg14)) (V (Proc.devRef .tc main_arg15)) (V (Proc.devRef .tc main_arg18)) (V (Proc.devRef .tc main_arg19)) := by
  refine (ssa_binary writes V 84 rfl (by decide) (by decide) (by decide)).trans ?_
  rw [st_main_v60 V, st_main_v62 V]
  rfl
/-- Operation 85: what the buffer main_v64 ends at. -/
theorem st_main_v64 : after (ops (F := F)) V (Proc.devRef .tc main_v64) = ReadP.val_main_v64 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) (V (Proc.devRef .tc main_arg16)) (V (Proc.devRef .tc main_arg17)) := by
  refine (ssa_unary writes V 85 rfl (by decide) (by decide)).trans ?_
  rw [st_main_v37 V]
  rfl
/-- Operation 86: what the buffer main_v65 ends at. -/
theorem st_main_v65 : after (ops (F := F)) V (Proc.devRef .tc main_v65) = ReadP.val_main_v65 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) (V (Proc.devRef .tc main_arg16)) (V (Proc.devRef .tc main_arg17)) := by
  refine (ssa_reshape writes V 86 rfl (by decide) (by decide)).trans ?_
  rw [st_main_v64 V]
  rfl
/-- Operation 87: what the buffer main_cst_5 ends at. -/
theorem st_main_cst_5 : after (ops (F := F)) V (Proc.devRef .tc main_cst_5) = ReadP.val_main_cst_5 (F := F) := by
  refine (ssa_nullary writes V 87 rfl (by decide)).trans ?_
  rfl
/-- Operation 88: what the buffer main_cst_6 ends at. -/
theorem st_main_cst_6 : after (ops (F := F)) V (Proc.devRef .tc main_cst_6) = ReadP.val_main_cst_6 (F := F) := by
  refine (ssa_nullary writes V 88 rfl (by decide)).trans ?_
  rfl
/-- Operation 89: what the buffer main_call7_v0 ends at. -/
theorem st_main_call7_v0 : after (ops (F := F)) V (Proc.devRef .tc main_call7_v0) = ReadP.val_main_call7_v0 (F := F) := by
  refine (ssa_unary writes V 89 rfl (by decide) (by decide)).trans ?_
  rw [st_main_cst_5 V]
  rfl
/-- Operation 90: what the buffer main_call7_v1 ends at. -/
theorem st_main_call7_v1 : after (ops (F := F)) V (Proc.devRef .tc main_call7_v1) = ReadP.val_main_call7_v1 (F := F) := by
  refine (ssa_unary writes V 90 rfl (by decide) (by decide)).trans ?_
  rw [st_main_call7_v0 V]
  rfl
/-- Operation 91: what the buffer main_call7_v2 ends at. -/
theorem st_main_call7_v2 : after (ops (F := F)) V (Proc.devRef .tc main_call7_v2) = ReadP.val_main_call7_v2 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) (V (Proc.devRef .tc main_arg16)) (V (Proc.devRef .tc main_arg17)) := by
  refine (ssa_binary writes V 91 rfl (by decide) (by decide) (by decide)).trans ?_
  rw [st_main_call7_v1 V, st_main_v65 V]
  rfl
/-- Operation 92: what the buffer main_call7_v3 ends at. -/
theorem st_main_call7_v3 : after (ops (F := F)) V (Proc.devRef .tc main_call7_v3) = ReadP.val_main_call7_v3 (F := F) := by
  refine (ssa_unary writes V 92 rfl (by decide) (by decide)).trans ?_
  rw [st_main_cst_6 V]
  rfl
/-- Operation 93: what the buffer main_call7_v4 ends at. -/
theorem st_main_call7_v4 : after (ops (F := F)) V (Proc.devRef .tc main_call7_v4) = ReadP.val_main_call7_v4 (F := F) := by
  refine (ssa_unary writes V 93 rfl (by decide) (by decide)).trans ?_
  rw [st_main_call7_v3 V]
  rfl
/-- Operation 94: what the buffer main_v66 ends at. -/
theorem st_main_v66 : after (ops (F := F)) V (Proc.devRef .tc main_v66) = ReadP.val_main_v66 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) (V (Proc.devRef .tc main_arg16)) (V (Proc.devRef .tc main_arg17)) := by
  refine (ssa_binary writes V 94 rfl (by decide) (by decide) (by decide)).trans ?_
  rw [st_main_call7_v4 V, st_main_call7_v2 V]
  rfl
/-- Operation 95: what the buffer main_v67 ends at. -/
theorem st_main_v67 : after (ops (F := F)) V (Proc.devRef .tc main_v67) = ReadP.val_main_v67 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) (V (Proc.devRef .tc main_arg16)) (V (Proc.devRef .tc main_arg17)) := by
  refine (ssa_unary writes V 95 rfl (by decide) (by decide)).trans ?_
  rw [st_main_v66 V]
  rfl
/-- Operation 96: what the buffer main_v68 ends at. -/
theorem st_main_v68 : after (ops (F := F)) V (Proc.devRef .tc main_v68) = ReadP.val_main_v68 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) (V (Proc.devRef .tc main_arg16)) (V (Proc.devRef .tc main_arg17)) := by
  refine (ssa_unary writes V 96 rfl (by decide) (by decide)).trans ?_
  rw [st_main_v37 V]
  rfl
/-- Operation 97: what the buffer main_v69 ends at. -/
theorem st_main_v69 : after (ops (F := F)) V (Proc.devRef .tc main_v69) = ReadP.val_main_v69 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) (V (Proc.devRef .tc main_arg16)) (V (Proc.devRef .tc main_arg17)) := by
  refine (ssa_reshape writes V 97 rfl (by decide) (by decide)).trans ?_
  rw [st_main_v68 V]
  rfl
/-- Operation 98: what the buffer main_v70 ends at. -/
theorem st_main_v70 : after (ops (F := F)) V (Proc.devRef .tc main_v70) = ReadP.val_main_v70 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) (V (Proc.devRef .tc main_arg16)) (V (Proc.devRef .tc main_arg17)) := by
  refine (ssa_unary writes V 98 rfl (by decide) (by decide)).trans ?_
  rw [st_main_v69 V]
  rfl
/-- Operation 99: what the buffer main_v71 ends at. -/
theorem st_main_v71 : after (ops (F := F)) V (Proc.devRef .tc main_v71) = ReadP.val_main_v71 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) (V (Proc.devRef .tc main_arg16)) (V (Proc.devRef .tc main_arg17)) := by
  refine (ssa_unary writes V 99 rfl (by decide) (by decide)).trans ?_
  rw [st_main_v70 V]
  rfl
/-- Operation 100: what the buffer main_cst_7 ends at. -/
theorem st_main_cst_7 : after (ops (F := F)) V (Proc.devRef .tc main_cst_7) = ReadP.val_main_cst_7 (F := F) := by
  refine (ssa_nullary writes V 100 rfl (by decide)).trans ?_
  rfl
/-- Operation 101: what the buffer main_v72 ends at. -/
theorem st_main_v72 : after (ops (F := F)) V (Proc.devRef .tc main_v72) = ReadP.val_main_v72 (F := F) := by
  refine (ssa_unary writes V 101 rfl (by decide) (by decide)).trans ?_
  rw [st_main_cst_7 V]
  rfl
/-- Operation 102: what the buffer main_v73 ends at. -/
theorem st_main_v73 : after (ops (F := F)) V (Proc.devRef .tc main_v73) = ReadP.val_main_v73 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) (V (Proc.devRef .tc main_arg16)) (V (Proc.devRef .tc main_arg17)) := by
  refine (ssa_binary writes V 102 rfl (by decide) (by decide) (by decide)).trans ?_
  rw [st_main_v72 V, st_main_v71 V]
  rfl
/-- Operation 103: what the buffer main_cst_8 ends at. -/
theorem st_main_cst_8 : after (ops (F := F)) V (Proc.devRef .tc main_cst_8) = ReadP.val_main_cst_8 (F := F) := by
  refine (ssa_nullary writes V 103 rfl (by decide)).trans ?_
  rfl
/-- Operation 104: what the buffer main_v74 ends at. -/
theorem st_main_v74 : after (ops (F := F)) V (Proc.devRef .tc main_v74) = ReadP.val_main_v74 (F := F) := by
  refine (ssa_unary writes V 104 rfl (by decide) (by decide)).trans ?_
  rw [st_main_cst_8 V]
  rfl
/-- Operation 105: what the buffer main_v75 ends at. -/
theorem st_main_v75 : after (ops (F := F)) V (Proc.devRef .tc main_v75) = ReadP.val_main_v75 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) (V (Proc.devRef .tc main_arg16)) (V (Proc.devRef .tc main_arg17)) := by
  refine (ssa_binary writes V 105 rfl (by decide) (by decide) (by decide)).trans ?_
  rw [st_main_v74 V, st_main_v73 V]
  rfl
/-- Operation 106: what the buffer main_v76 ends at. -/
theorem st_main_v76 : after (ops (F := F)) V (Proc.devRef .tc main_v76) = ReadP.val_main_v76 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) (V (Proc.devRef .tc main_arg16)) (V (Proc.devRef .tc main_arg17)) := by
  refine (ssa_unary writes V 106 rfl (by decide) (by decide)).trans ?_
  rw [st_main_v75 V]
  rfl
/-- Operation 107: what the buffer main_v77 ends at. -/
theorem st_main_v77 : after (ops (F := F)) V (Proc.devRef .tc main_v77) = ReadP.val_main_v77 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg10)) (V (Proc.devRef .tc main_arg11)) (V (Proc.devRef .tc main_arg14)) (V (Proc.devRef .tc main_arg15)) (V (Proc.devRef .tc main_arg18)) (V (Proc.devRef .tc main_arg19)) := by
  refine (ssa_unary writes V 107 rfl (by decide) (by decide)).trans ?_
  rw [st_main_v63 V]
  rfl
/-- Operation 108: what the buffer main_v78 ends at. -/
theorem st_main_v78 : after (ops (F := F)) V (Proc.devRef .tc main_v78) = ReadP.val_main_v78 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg10)) (V (Proc.devRef .tc main_arg11)) (V (Proc.devRef .tc main_arg14)) (V (Proc.devRef .tc main_arg15)) (V (Proc.devRef .tc main_arg18)) (V (Proc.devRef .tc main_arg19)) := by
  refine (ssa_reshape writes V 108 rfl (by decide) (by decide)).trans ?_
  rw [st_main_v77 V]
  rfl
/-- Operation 109: what the buffer main_cst_9 ends at. -/
theorem st_main_cst_9 : after (ops (F := F)) V (Proc.devRef .tc main_cst_9) = ReadP.val_main_cst_9 (F := F) := by
  refine (ssa_nullary writes V 109 rfl (by decide)).trans ?_
  rfl
/-- Operation 110: what the buffer main_cst_10 ends at. -/
theorem st_main_cst_10 : after (ops (F := F)) V (Proc.devRef .tc main_cst_10) = ReadP.val_main_cst_10 (F := F) := by
  refine (ssa_nullary writes V 110 rfl (by decide)).trans ?_
  rfl
/-- Operation 111: what the buffer main_call8_v0 ends at. -/
theorem st_main_call8_v0 : after (ops (F := F)) V (Proc.devRef .tc main_call8_v0) = ReadP.val_main_call8_v0 (F := F) := by
  refine (ssa_unary writes V 111 rfl (by decide) (by decide)).trans ?_
  rw [st_main_cst_9 V]
  rfl
/-- Operation 112: what the buffer main_call8_v1 ends at. -/
theorem st_main_call8_v1 : after (ops (F := F)) V (Proc.devRef .tc main_call8_v1) = ReadP.val_main_call8_v1 (F := F) := by
  refine (ssa_unary writes V 112 rfl (by decide) (by decide)).trans ?_
  rw [st_main_call8_v0 V]
  rfl
/-- Operation 113: what the buffer main_call8_v2 ends at. -/
theorem st_main_call8_v2 : after (ops (F := F)) V (Proc.devRef .tc main_call8_v2) = ReadP.val_main_call8_v2 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg10)) (V (Proc.devRef .tc main_arg11)) (V (Proc.devRef .tc main_arg14)) (V (Proc.devRef .tc main_arg15)) (V (Proc.devRef .tc main_arg18)) (V (Proc.devRef .tc main_arg19)) := by
  refine (ssa_binary writes V 113 rfl (by decide) (by decide) (by decide)).trans ?_
  rw [st_main_call8_v1 V, st_main_v78 V]
  rfl
/-- Operation 114: what the buffer main_call8_v3 ends at. -/
theorem st_main_call8_v3 : after (ops (F := F)) V (Proc.devRef .tc main_call8_v3) = ReadP.val_main_call8_v3 (F := F) := by
  refine (ssa_unary writes V 114 rfl (by decide) (by decide)).trans ?_
  rw [st_main_cst_10 V]
  rfl
/-- Operation 115: what the buffer main_call8_v4 ends at. -/
theorem st_main_call8_v4 : after (ops (F := F)) V (Proc.devRef .tc main_call8_v4) = ReadP.val_main_call8_v4 (F := F) := by
  refine (ssa_unary writes V 115 rfl (by decide) (by decide)).trans ?_
  rw [st_main_call8_v3 V]
  rfl
/-- Operation 116: what the buffer main_v79 ends at. -/
theorem st_main_v79 : after (ops (F := F)) V (Proc.devRef .tc main_v79) = ReadP.val_main_v79 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg10)) (V (Proc.devRef .tc main_arg11)) (V (Proc.devRef .tc main_arg14)) (V (Proc.devRef .tc main_arg15)) (V (Proc.devRef .tc main_arg18)) (V (Proc.devRef .tc main_arg19)) := by
  refine (ssa_binary writes V 116 rfl (by decide) (by decide) (by decide)).trans ?_
  rw [st_main_call8_v4 V, st_main_call8_v2 V]
  rfl
/-- Operation 117: what the buffer main_v80 ends at. -/
theorem st_main_v80 : after (ops (F := F)) V (Proc.devRef .tc main_v80) = ReadP.val_main_v80 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg10)) (V (Proc.devRef .tc main_arg11)) (V (Proc.devRef .tc main_arg14)) (V (Proc.devRef .tc main_arg15)) (V (Proc.devRef .tc main_arg18)) (V (Proc.devRef .tc main_arg19)) := by
  refine (ssa_unary writes V 117 rfl (by decide) (by decide)).trans ?_
  rw [st_main_v79 V]
  rfl
/-- Operation 118: what the buffer main_v81 ends at. -/
theorem st_main_v81 : after (ops (F := F)) V (Proc.devRef .tc main_v81) = ReadP.val_main_v81 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg10)) (V (Proc.devRef .tc main_arg11)) (V (Proc.devRef .tc main_arg14)) (V (Proc.devRef .tc main_arg15)) (V (Proc.devRef .tc main_arg18)) (V (Proc.devRef .tc main_arg19)) := by
  refine (ssa_unary writes V 118 rfl (by decide) (by decide)).trans ?_
  rw [st_main_v63 V]
  rfl
/-- Operation 119: what the buffer main_v82 ends at. -/
theorem st_main_v82 : after (ops (F := F)) V (Proc.devRef .tc main_v82) = ReadP.val_main_v82 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg10)) (V (Proc.devRef .tc main_arg11)) (V (Proc.devRef .tc main_arg14)) (V (Proc.devRef .tc main_arg15)) (V (Proc.devRef .tc main_arg18)) (V (Proc.devRef .tc main_arg19)) := by
  refine (ssa_reshape writes V 119 rfl (by decide) (by decide)).trans ?_
  rw [st_main_v81 V]
  rfl
/-- Operation 120: what the buffer main_v83 ends at. -/
theorem st_main_v83 : after (ops (F := F)) V (Proc.devRef .tc main_v83) = ReadP.val_main_v83 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg10)) (V (Proc.devRef .tc main_arg11)) (V (Proc.devRef .tc main_arg14)) (V (Proc.devRef .tc main_arg15)) (V (Proc.devRef .tc main_arg18)) (V (Proc.devRef .tc main_arg19)) := by
  refine (ssa_unary writes V 120 rfl (by decide) (by decide)).trans ?_
  rw [st_main_v82 V]
  rfl
/-- Operation 121: what the buffer main_v84 ends at. -/
theorem st_main_v84 : after (ops (F := F)) V (Proc.devRef .tc main_v84) = ReadP.val_main_v84 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg10)) (V (Proc.devRef .tc main_arg11)) (V (Proc.devRef .tc main_arg14)) (V (Proc.devRef .tc main_arg15)) (V (Proc.devRef .tc main_arg18)) (V (Proc.devRef .tc main_arg19)) := by
  refine (ssa_unary writes V 121 rfl (by decide) (by decide)).trans ?_
  rw [st_main_v83 V]
  rfl
/-- Operation 122: what the buffer main_cst_11 ends at. -/
theorem st_main_cst_11 : after (ops (F := F)) V (Proc.devRef .tc main_cst_11) = ReadP.val_main_cst_11 (F := F) := by
  refine (ssa_nullary writes V 122 rfl (by decide)).trans ?_
  rfl
/-- Operation 123: what the buffer main_v85 ends at. -/
theorem st_main_v85 : after (ops (F := F)) V (Proc.devRef .tc main_v85) = ReadP.val_main_v85 (F := F) := by
  refine (ssa_unary writes V 123 rfl (by decide) (by decide)).trans ?_
  rw [st_main_cst_11 V]
  rfl
/-- Operation 124: what the buffer main_v86 ends at. -/
theorem st_main_v86 : after (ops (F := F)) V (Proc.devRef .tc main_v86) = ReadP.val_main_v86 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg10)) (V (Proc.devRef .tc main_arg11)) (V (Proc.devRef .tc main_arg14)) (V (Proc.devRef .tc main_arg15)) (V (Proc.devRef .tc main_arg18)) (V (Proc.devRef .tc main_arg19)) := by
  refine (ssa_binary writes V 124 rfl (by decide) (by decide) (by decide)).trans ?_
  rw [st_main_v85 V, st_main_v84 V]
  rfl
/-- Operation 125: what the buffer main_cst_12 ends at. -/
theorem st_main_cst_12 : after (ops (F := F)) V (Proc.devRef .tc main_cst_12) = ReadP.val_main_cst_12 (F := F) := by
  refine (ssa_nullary writes V 125 rfl (by decide)).trans ?_
  rfl
/-- Operation 126: what the buffer main_v87 ends at. -/
theorem st_main_v87 : after (ops (F := F)) V (Proc.devRef .tc main_v87) = ReadP.val_main_v87 (F := F) := by
  refine (ssa_unary writes V 126 rfl (by decide) (by decide)).trans ?_
  rw [st_main_cst_12 V]
  rfl
/-- Operation 127: what the buffer main_v88 ends at. -/
theorem st_main_v88 : after (ops (F := F)) V (Proc.devRef .tc main_v88) = ReadP.val_main_v88 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg10)) (V (Proc.devRef .tc main_arg11)) (V (Proc.devRef .tc main_arg14)) (V (Proc.devRef .tc main_arg15)) (V (Proc.devRef .tc main_arg18)) (V (Proc.devRef .tc main_arg19)) := by
  refine (ssa_binary writes V 127 rfl (by decide) (by decide) (by decide)).trans ?_
  rw [st_main_v87 V, st_main_v86 V]
  rfl
/-- Operation 128: what the buffer main_v89 ends at. -/
theorem st_main_v89 : after (ops (F := F)) V (Proc.devRef .tc main_v89) = ReadP.val_main_v89 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg10)) (V (Proc.devRef .tc main_arg11)) (V (Proc.devRef .tc main_arg14)) (V (Proc.devRef .tc main_arg15)) (V (Proc.devRef .tc main_arg18)) (V (Proc.devRef .tc main_arg19)) := by
  refine (ssa_unary writes V 128 rfl (by decide) (by decide)).trans ?_
  rw [st_main_v88 V]
  rfl

end Cert.ReferenceIdeal.Stages

end
-- ==== Proof.RefNode.lean ====
/-
  The reference's node side, stage by stage, is the row-wise arithmetic of the specification: the edge message
  is the rectified sum of the gathered source row and the edge row; the node state is the rectified affine image
  of the node row plus the aggregated messages; the projected node distances are a rectified affine layer; the
  node logits are the node head over the two.
-/
import proofs.«426157_j56246891709114_1_alg».proof.Proof.RefRead
import proofs.«426157_j56246891709114_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Node

open Cert.ReferenceIdeal Cert.ReferenceIdeal.Gen Cert.ReferenceIdeal.ReadP
open Idealize.ShloMosaic Idealize.ShloMosaic.TcCoe Idealize.ShloMosaic.ValueIdx Idealize.SL.Sem
open scoped BigOperators

/-! ## A sum over the contracted column plus a bias is the specification's affine layer -/

/-- Whatever names the three indices carry, if they are row `r` with column `k`, row `k` with column `j`, and column
    `j`, the sum of products plus the bias is the affine layer's entry `(r, j)`. -/
theorem affine_of_sum {R K M : ℕ} (A : Spec.Mat R K) (W : Spec.Mat K M) (b : Spec.Vc M)
    (i : (⟨2, ![R, M]⟩ : Shape).Idx)
    (li : Fin K → (⟨2, ![R, K]⟩ : Shape).Idx) (ri : Fin K → (⟨2, ![K, M]⟩ : Shape).Idx)
    (bi : (⟨1, ![M]⟩ : Shape).Idx)
    (hl : ∀ k, li k = ix2 (Spec.rowOf i) k) (hr : ∀ k, ri k = ix2 k (Spec.colOf i))
    (hb : bi = ix1 (Spec.colOf i)) :
    (∑ k : Fin K, A (li k) * W (ri k)) + b bi = Spec.affine A W b i := by
  rw [hb]
  exact congrArg (· + b (ix1 (Spec.colOf i))) (Finset.sum_congr rfl fun k _ => by rw [hl k, hr k])

/-- The same sum rectified is the rectified layer's entry. -/
theorem dense_of_sum {R K M : ℕ} (A : Spec.Mat R K) (W : Spec.Mat K M) (b : Spec.Vc M)
    (i : (⟨2, ![R, M]⟩ : Shape).Idx)
    (li : Fin K → (⟨2, ![R, K]⟩ : Shape).Idx) (ri : Fin K → (⟨2, ![K, M]⟩ : Shape).Idx)
    (bi : (⟨1, ![M]⟩ : Shape).Idx)
    (hl : ∀ k, li k = ix2 (Spec.rowOf i) k) (hr : ∀ k, ri k = ix2 k (Spec.colOf i))
    (hb : bi = ix1 (Spec.colOf i)) :
    max ((∑ k : Fin K, A (li k) * W (ri k)) + b bi) Spec.zero = Spec.dense A W b i :=
  congrArg (fun z => max z Spec.zero) (affine_of_sum A W b i li ri bi hl hr hb)

/-- The node update's entry: the rectified sum over `k` of the node row plus the aggregate row against the weights. -/
theorem nodeX_of_sum {R : ℕ} (nf ag : Spec.Mat R 128) (W : Spec.Mat 128 128) (b : Spec.Vc 128)
    (i : (⟨2, ![R, 128]⟩ : Shape).Idx)
    (li : Fin 128 → (⟨2, ![R, 128]⟩ : Shape).Idx) (ri : Fin 128 → (⟨2, ![128, 128]⟩ : Shape).Idx)
    (bi : (⟨1, ![128]⟩ : Shape).Idx)
    (hl : ∀ k, li k = ix2 (Spec.rowOf i) k) (hr : ∀ k, ri k = ix2 k (Spec.colOf i))
    (hb : bi = ix1 (Spec.colOf i)) :
    max ((∑ k : Fin 128, (nf (li k) + ag (li k)) * W (ri k)) + b bi) Spec.zero = Spec.nodeX nf ag W b i :=
  congrArg (fun z => max z Spec.zero) (affine_of_sum (Spec.add nf ag) W b i li ri bi hl hr hb)

/-- Two matrices with the same rows joined along the columns: a column below 128 reads the first, the others the
    second 128 columns back. -/
theorem cat_of_concat {R : ℕ} (x : Spec.Mat R 128) (y : Spec.Mat R 32)
    (h : Shape.Concatenates [(⟨2, ![R, 128]⟩ : Shape), ⟨2, ![R, 32]⟩] ⟨2, ![R, 160]⟩ 1) :
    concatenate ⟨2, ![R, 160]⟩ 1 [⟨⟨2, ![R, 128]⟩, x⟩, ⟨⟨2, ![R, 32]⟩, y⟩] h = Spec.cat 160 rfl x y := by
  funext i
  obtain ⟨r, j, rfl⟩ : ∃ (r : Fin R) (j : Fin 160), i = ix2 r j :=
    ⟨Spec.rowOf i, Spec.colOf i, (Spec.ix2_rowOf_colOf i).symm⟩
  show _ = (if h' : j.val < 128 then x (ix2 r ⟨j.val, h'⟩) else y (ix2 r ⟨j.val - 128, by have := j.isLt; omega⟩))
  by_cases h' : j.val < 128
  · rw [dif_pos h']
    refine concatenate_pair_apply_left 1 x y _ (ix2 r j) rfl (ix2 r ⟨j.val, h'⟩) (fun b => ?_)
    match b with
    | ⟨0, _⟩ => rfl
    | ⟨1, _⟩ => rfl
  · rw [dif_neg h']
    refine concatenate_pair_apply_right 1 x y _ (ix2 r j) rfl rfl (ix2 r ⟨j.val - 128, by have := j.isLt; omega⟩) (fun b => ?_) ?_
    · match b with
      | ⟨0, _⟩ => exact fun _ => rfl
      | ⟨1, _⟩ => exact fun hb => absurd rfl hb
    · show j.val - 128 + 128 = j.val
      omega

-- the arguments of the reference program at the extended reals, by their positions
variable (x0 : (⟨S50000x128, .f32⟩ : BufTy).Contents (Elt Ideal)) (x1 : (⟨S800000x128, .f32⟩ : BufTy).Contents (Elt Ideal))
  (x2 : (⟨S50000x32, .f32⟩ : BufTy).Contents (Elt Ideal)) (x3 : (⟨S800000x32, .f32⟩ : BufTy).Contents (Elt Ideal))
  (x4 x5 : (⟨S800000, .i32⟩ : BufTy).Contents (Elt Ideal))
  (x6 : (⟨S128x128, .f32⟩ : BufTy).Contents (Elt Ideal)) (x7 : (⟨S128, .f32⟩ : BufTy).Contents (Elt Ideal))
  (x8 : (⟨S32x32, .f32⟩ : BufTy).Contents (Elt Ideal)) (x9 : (⟨S32, .f32⟩ : BufTy).Contents (Elt Ideal))
  (x10 : (⟨S32x32, .f32⟩ : BufTy).Contents (Elt Ideal)) (x11 : (⟨S32, .f32⟩ : BufTy).Contents (Elt Ideal))
  (x12 : (⟨S160x128, .f32⟩ : BufTy).Contents (Elt Ideal)) (x13 : (⟨S128, .f32⟩ : BufTy).Contents (Elt Ideal))
  (x14 : (⟨S288x128, .f32⟩ : BufTy).Contents (Elt Ideal)) (x15 : (⟨S128, .f32⟩ : BufTy).Contents (Elt Ideal))
  (x16 : (⟨S128x2, .f32⟩ : BufTy).Contents (Elt Ideal)) (x17 : (⟨S2, .f32⟩ : BufTy).Contents (Elt Ideal))
  (x18 : (⟨S128x2, .f32⟩ : BufTy).Contents (Elt Ideal)) (x19 : (⟨S2, .f32⟩ : BufTy).Contents (Elt Ideal))

/-! ## The reference's index functions are row and column of the index they start from -/

theorem l13 (i : S50000x128.Idx) (k : Fin 128) : lidx_main_v13 i k = ix2 (Spec.rowOf i) k :=
  funext fun a => Fin.ext (by match a with | ⟨0, _⟩ => rfl | ⟨1, _⟩ => rfl)
theorem r13 (i : S50000x128.Idx) (k : Fin 128) : ridx_main_v13 i k = ix2 k (Spec.colOf i) :=
  funext fun a => Fin.ext (by match a with | ⟨0, _⟩ => rfl | ⟨1, _⟩ => rfl)
theorem b15 (i : S50000x128.Idx) : idx_main_v14 (idx_main_v15 i) = ix1 (Spec.colOf i) :=
  funext fun a => Fin.ext (by match a with | ⟨0, _⟩ => rfl)

theorem l18 (i : S50000x32.Idx) (k : Fin 32) : lidx_main_v18 i k = ix2 (Spec.rowOf i) k :=
  funext fun a => Fin.ext (by match a with | ⟨0, _⟩ => rfl | ⟨1, _⟩ => rfl)
theorem r18 (i : S50000x32.Idx) (k : Fin 32) : ridx_main_v18 i k = ix2 k (Spec.colOf i) :=
  funext fun a => Fin.ext (by match a with | ⟨0, _⟩ => rfl | ⟨1, _⟩ => rfl)
theorem b20 (i : S50000x32.Idx) : idx_main_v19 (idx_main_v20 i) = ix1 (Spec.colOf i) :=
  funext fun a => Fin.ext (by match a with | ⟨0, _⟩ => rfl)

theorem l29 (i : S50000x128.Idx) (k : Fin 160) : lidx_main_v29 i k = ix2 (Spec.rowOf i) k :=
  funext fun a => Fin.ext (by match a with | ⟨0, _⟩ => rfl | ⟨1, _⟩ => rfl)
theorem r29 (i : S50000x128.Idx) (k : Fin 160) : ridx_main_v29 i k = ix2 k (Spec.colOf i) :=
  funext fun a => Fin.ext (by match a with | ⟨0, _⟩ => rfl | ⟨1, _⟩ => rfl)
theorem b31 (i : S50000x128.Idx) : idx_main_v30 (idx_main_v31 i) = ix1 (Spec.colOf i) :=
  funext fun a => Fin.ext (by match a with | ⟨0, _⟩ => rfl)

theorem l34 (i : S50000x2.Idx) (k : Fin 128) : lidx_main_v34 i k = ix2 (Spec.rowOf i) k :=
  funext fun a => Fin.ext (by match a with | ⟨0, _⟩ => rfl | ⟨1, _⟩ => rfl)
theorem r34 (i : S50000x2.Idx) (k : Fin 128) : ridx_main_v34 i k = ix2 k (Spec.colOf i) :=
  funext fun a => Fin.ext (by match a with | ⟨0, _⟩ => rfl | ⟨1, _⟩ => rfl)
theorem b36 (i : S50000x2.Idx) : idx_main_v35 (idx_main_v36 i) = ix1 (Spec.colOf i) :=
  funext fun a => Fin.ext (by match a with | ⟨0, _⟩ => rfl)

/-! ## The hidden layer, which the logits read -/

/-- The node state and the projected distances joined along the columns. -/
theorem joined_eq : val_main_v28 (F := Ideal) x0 x1 x2 x4 x5 x6 x7 x8 x9
    = Spec.cat 160 rfl (val_main_v17 (F := Ideal) x0 x1 x4 x5 x6 x7) (val_main_v22 (F := Ideal) x2 x8 x9) := by
  unfold val_main_v28
  generalize val_main_v17 (F := Ideal) x0 x1 x4 x5 x6 x7 = x
  generalize val_main_v22 (F := Ideal) x2 x8 x9 = y
  exact cat_of_concat x y _

/-- The hidden layer: a rectified affine layer over the joined rows. -/
theorem hid_eq : val_main_v33 (F := Ideal) x0 x1 x2 x4 x5 x6 x7 x8 x9 x12 x13
    = Spec.dense (Spec.cat 160 rfl (val_main_v17 (F := Ideal) x0 x1 x4 x5 x6 x7) (val_main_v22 (F := Ideal) x2 x8 x9))
        x12 x13 := by
  funext i
  rw [val_main_v33_apply, val_main_v32_apply, val_main_v29_apply, val_main_v31_apply, val_main_v30_apply,
    val_main_call4_v0_apply, val_main_call4_cst_apply, joined_eq x0 x1 x2 x4 x5 x6 x7 x8 x9]
  generalize Spec.cat 160 rfl (val_main_v17 (F := Ideal) x0 x1 x4 x5 x6 x7) (val_main_v22 (F := Ideal) x2 x8 x9) = z
  exact dense_of_sum z x12 x13 i (lidx_main_v29 i) (ridx_main_v29 i) (idx_main_v30 (idx_main_v31 i))
    (l29 i) (r29 i) (b31 i)

/-! ## The stages -/

/-- The edge messages: the rectified sum of the gathered source-node rows and the edge rows. -/
theorem msg_eq : val_main_v8 (F := Ideal) x0 x1 x4 = Spec.msg (val_main_v6 (F := Ideal) x0 x4) x1 := by
  funext i
  rw [val_main_v8_apply, val_main_v7_apply, val_main_call0_v0_apply, val_main_call0_cst_apply]
  generalize val_main_v6 (F := Ideal) x0 x4 = ns
  rfl

/-- The node state: the node update of the node rows and the aggregated messages. -/
theorem x_eq : val_main_v17 (F := Ideal) x0 x1 x4 x5 x6 x7
    = Spec.nodeX x0 (val_main_v11 (F := Ideal) x0 x1 x4 x5) x6 x7 := by
  funext i
  rw [val_main_v17_apply, val_main_v16_apply, val_main_v13_apply, val_main_v15_apply, val_main_v14_apply,
    val_main_call1_v0_apply, val_main_call1_cst_apply]
  simp only [val_main_v12_apply]
  generalize val_main_v11 (F := Ideal) x0 x1 x4 x5 = ag
  exact nodeX_of_sum x0 ag x6 x7 i (lidx_main_v13 i) (ridx_main_v13 i) (idx_main_v14 (idx_main_v15 i))
    (l13 i) (r13 i) (b15 i)

/-- The projected node distances: a rectified affine layer. -/
theorem nd_eq : val_main_v22 (F := Ideal) x2 x8 x9 = Spec.dense x2 x8 x9 := by
  funext i
  rw [val_main_v22_apply, val_main_v21_apply, val_main_v18_apply, val_main_v20_apply, val_main_v19_apply,
    val_main_call2_v0_apply, val_main_call2_cst_apply]
  exact dense_of_sum x2 x8 x9 i (lidx_main_v18 i) (ridx_main_v18 i) (idx_main_v19 (idx_main_v20 i))
    (l18 i) (r18 i) (b20 i)

/-- The node logits: the node head over the node state and the projected distances. -/
theorem no_eq : val_main_v37 (F := Ideal) x0 x1 x2 x4 x5 x6 x7 x8 x9 x12 x13 x16 x17
    = Spec.nodeO (val_main_v17 (F := Ideal) x0 x1 x4 x5 x6 x7) (val_main_v22 (F := Ideal) x2 x8 x9) x12 x13 x16 x17 := by
  funext i
  rw [val_main_v37_apply, val_main_v34_apply, val_main_v36_apply, val_main_v35_apply,
    hid_eq x0 x1 x2 x4 x5 x6 x7 x8 x9 x12 x13]
  generalize val_main_v17 (F := Ideal) x0 x1 x4 x5 x6 x7 = xs
  generalize val_main_v22 (F := Ideal) x2 x8 x9 = nd
  exact affine_of_sum (Spec.dense (Spec.cat 160 rfl xs nd) x12 x13) x16 x17 i (lidx_main_v34 i) (ridx_main_v34 i)
    (idx_main_v35 (idx_main_v36 i)) (l34 i) (r34 i) (b36 i)

end Cert.ReferenceIdeal.Node

end
-- ==== Proof.RefEdge.lean ====
/-
  The reference's edge side, stage by stage, is the row-wise arithmetic of the specification: the projected edge
  distances are a rectified affine layer, and the edge logits are the edge head over the two gathered
  endpoint-state arrays and those distances.
-/
import proofs.«426157_j56246891709114_1_alg».proof.Proof.RefRead
import proofs.«426157_j56246891709114_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Edge

open Cert.ReferenceIdeal Cert.ReferenceIdeal.Gen Cert.ReferenceIdeal.ReadP
open Idealize.ShloMosaic Idealize.ShloMosaic.TcCoe Idealize.ShloMosaic.ValueIdx Idealize.SL.Sem

open scoped BigOperators

/-! ## Entry by entry: when a matrix is one of the specification's layers -/

/-- A matrix whose entry `(r, j)` is the sum over `k` of `A r k * W k j` plus `b j`, the operands read through
    index functions that name those coordinates, is the affine layer. -/
theorem affine_of_entries {R K M : ℕ} (A : Spec.Mat R K) (W : Spec.Mat K M) (b : Spec.Vc M) (y : Spec.Mat R M)
    (l : (⟨2, ![R, M]⟩ : Shape).Idx → Fin K → (⟨2, ![R, K]⟩ : Shape).Idx)
    (rr : (⟨2, ![R, M]⟩ : Shape).Idx → Fin K → (⟨2, ![K, M]⟩ : Shape).Idx)
    (bi : (⟨2, ![R, M]⟩ : Shape).Idx → (⟨1, ![M]⟩ : Shape).Idx)
    (hl : ∀ (r : Fin R) (j : Fin M) (k : Fin K), l (ix2 r j) k = ix2 r k)
    (hr : ∀ (r : Fin R) (j : Fin M) (k : Fin K), rr (ix2 r j) k = ix2 k j)
    (hb : ∀ (r : Fin R) (j : Fin M), bi (ix2 r j) = ix1 j)
    (h : ∀ i, y i = (∑ k : Fin K, A (l i k) * W (rr i k)) + b (bi i)) : y = Spec.affine A W b := by
  funext i
  obtain ⟨r, j, rfl⟩ : ∃ (r : Fin R) (j : Fin M), i = ix2 r j :=
    ⟨Spec.rowOf i, Spec.colOf i, (Spec.ix2_rowOf_colOf i).symm⟩
  rw [h, hb]
  show _ = (∑ k : Fin K, A (ix2 r k) * W (ix2 k j)) + b (ix1 j)
  refine congrArg (· + b (ix1 j)) (Finset.sum_congr rfl fun k _ => ?_)
  rw [hl, hr]

/-- Two matrices joined along the columns are the specification's side-by-side matrix. -/
theorem cat_eq {R A B : ℕ} (C : ℕ) (hC : A + B = C)
    (h : Shape.Concatenates [(⟨2, ![R, A]⟩ : Shape), ⟨2, ![R, B]⟩] ⟨2, ![R, C]⟩ 1)
    (x : Spec.Mat R A) (y : Spec.Mat R B) :
    concatenate ⟨2, ![R, C]⟩ 1 [⟨⟨2, ![R, A]⟩, x⟩, ⟨⟨2, ![R, B]⟩, y⟩] h = Spec.cat C hC x y := by
  funext i
  obtain ⟨r, j, rfl⟩ : ∃ (r : Fin R) (j : Fin C), i = ix2 r j :=
    ⟨Spec.rowOf i, Spec.colOf i, (Spec.ix2_rowOf_colOf i).symm⟩
  by_cases hj : j.val < A
  · refine (concatenate_pair_apply_left (1 : Fin 2) x y h (ix2 r j) rfl (ix2 r ⟨j.val, hj⟩) fun b => ?_).trans ?_
    · match b with
      | ⟨0, _⟩ => rfl
      | ⟨1, _⟩ => rfl
    · show _ = if h : j.val < A then x (ix2 r ⟨j.val, h⟩) else y (ix2 r ⟨j.val - A, _⟩)
      rw [dif_pos hj]
  · have hjB : j.val - A < B := by have := j.isLt; omega
    refine (concatenate_pair_apply_right (1 : Fin 2) x y h (ix2 r j) rfl rfl (ix2 r ⟨j.val - A, hjB⟩)
      (fun b hb => ?_) ?_).trans ?_
    · match b with
      | ⟨0, _⟩ => rfl
      | ⟨1, _⟩ => exact absurd rfl hb
    · show j.val - A + A = j.val
      omega
    · show _ = if h : j.val < A then x (ix2 r ⟨j.val, h⟩) else y (ix2 r ⟨j.val - A, _⟩)
      rw [dif_neg hj]

-- the arguments of the reference program at the extended reals, by their positions
variable (x0 : (⟨S50000x128, .f32⟩ : BufTy).Contents (Elt Ideal)) (x1 : (⟨S800000x128, .f32⟩ : BufTy).Contents (Elt Ideal))
  (x2 : (⟨S50000x32, .f32⟩ : BufTy).Contents (Elt Ideal)) (x3 : (⟨S800000x32, .f32⟩ : BufTy).Contents (Elt Ideal))
  (x4 x5 : (⟨S800000, .i32⟩ : BufTy).Contents (Elt Ideal))
  (x6 : (⟨S128x128, .f32⟩ : BufTy).Contents (Elt Ideal)) (x7 : (⟨S128, .f32⟩ : BufTy).Contents (Elt Ideal))
  (x8 : (⟨S32x32, .f32⟩ : BufTy).Contents (Elt Ideal)) (x9 : (⟨S32, .f32⟩ : BufTy).Contents (Elt Ideal))
  (x10 : (⟨S32x32, .f32⟩ : BufTy).Contents (Elt Ideal)) (x11 : (⟨S32, .f32⟩ : BufTy).Contents (Elt Ideal))
  (x12 : (⟨S160x128, .f32⟩ : BufTy).Contents (Elt Ideal)) (x13 : (⟨S128, .f32⟩ : BufTy).Contents (Elt Ideal))
  (x14 : (⟨S288x128, .f32⟩ : BufTy).Contents (Elt Ideal)) (x15 : (⟨S128, .f32⟩ : BufTy).Contents (Elt Ideal))
  (x16 : (⟨S128x2, .f32⟩ : BufTy).Contents (Elt Ideal)) (x17 : (⟨S2, .f32⟩ : BufTy).Contents (Elt Ideal))
  (x18 : (⟨S128x2, .f32⟩ : BufTy).Contents (Elt Ideal)) (x19 : (⟨S2, .f32⟩ : BufTy).Contents (Elt Ideal))

/-! ## The projected edge distances, stage by stage -/

/-- The product with the distance weights plus the bias row is the affine layer. -/
theorem v26_eq : val_main_v26 (F := Ideal) x3 x10 x11 = Spec.affine x3 x10 x11 :=
  affine_of_entries x3 x10 x11 _ lidx_main_v23 ridx_main_v23 (fun i => idx_main_v24 (idx_main_v25 i))
    (fun r j k => funext fun a => Fin.ext (by match a with | ⟨0, _⟩ => rfl | ⟨1, _⟩ => rfl))
    (fun r j k => funext fun a => Fin.ext (by match a with | ⟨0, _⟩ => rfl | ⟨1, _⟩ => rfl))
    (fun r j => funext fun a => Fin.ext (by match a with | ⟨0, _⟩ => rfl))
    (fun i => by rw [val_main_v26_apply, val_main_v23_apply, val_main_v25_apply, val_main_v24_apply]; rfl)

/-- The rectifier call against the broadcast zero is the specification's rectifier. -/
theorem v27_eq : val_main_v27 (F := Ideal) x3 x10 x11 = Spec.relu (val_main_v26 (F := Ideal) x3 x10 x11) := by
  funext i
  rw [val_main_v27_apply, val_main_call3_v0_apply, val_main_call3_cst_apply]
  rfl

/-! ## The edge logits, stage by stage -/

/-- The two gathered endpoint states side by side. -/
theorem v52_eq : val_main_v52 (F := Ideal) x0 x1 x4 x5 x6 x7
    = Spec.cat 256 rfl (val_main_v44 (F := Ideal) x0 x1 x4 x5 x6 x7) (val_main_v51 (F := Ideal) x0 x1 x4 x5 x6 x7) := by
  unfold val_main_v52
  exact cat_eq 256 rfl _ _ _

theorem v53_eq : val_main_v53 (F := Ideal) x0 x1 x4 x5 x6 x7 = Spec.relu (val_main_v52 (F := Ideal) x0 x1 x4 x5 x6 x7) := by
  funext i
  rw [val_main_v53_apply, val_main_call5_v0_apply, val_main_call5_cst_apply]
  rfl

/-- The rectified endpoint states beside the projected distances. -/
theorem v54_eq : val_main_v54 (F := Ideal) x0 x1 x3 x4 x5 x6 x7 x10 x11
    = Spec.cat 288 rfl (val_main_v53 (F := Ideal) x0 x1 x4 x5 x6 x7) (val_main_v27 (F := Ideal) x3 x10 x11) := by
  unfold val_main_v54
  exact cat_eq 288 rfl _ _ _

/-- The hidden layer before its rectifier. -/
theorem v58_eq : val_main_v58 (F := Ideal) x0 x1 x3 x4 x5 x6 x7 x10 x11 x14 x15
    = Spec.affine (val_main_v54 (F := Ideal) x0 x1 x3 x4 x5 x6 x7 x10 x11) x14 x15 :=
  affine_of_entries _ x14 x15 _ lidx_main_v55 ridx_main_v55 (fun i => idx_main_v56 (idx_main_v57 i))
    (fun r j k => funext fun a => Fin.ext (by match a with | ⟨0, _⟩ => rfl | ⟨1, _⟩ => rfl))
    (fun r j k => funext fun a => Fin.ext (by match a with | ⟨0, _⟩ => rfl | ⟨1, _⟩ => rfl))
    (fun r j => funext fun a => Fin.ext (by match a with | ⟨0, _⟩ => rfl))
    (fun i => by rw [val_main_v58_apply, val_main_v55_apply, val_main_v57_apply, val_main_v56_apply]; rfl)

theorem v59_eq : val_main_v59 (F := Ideal) x0 x1 x3 x4 x5 x6 x7 x10 x11 x14 x15 = Spec.relu (val_main_v58 (F := Ideal) x0 x1 x3 x4 x5 x6 x7 x10 x11 x14 x15) := by
  funext i
  rw [val_main_v59_apply, val_main_call6_v0_apply, val_main_call6_cst_apply]
  rfl

/-- The two logits. -/
theorem v63_eq : val_main_v63 (F := Ideal) x0 x1 x3 x4 x5 x6 x7 x10 x11 x14 x15 x18 x19
    = Spec.affine (val_main_v59 (F := Ideal) x0 x1 x3 x4 x5 x6 x7 x10 x11 x14 x15) x18 x19 :=
  affine_of_entries _ x18 x19 _ lidx_main_v60 ridx_main_v60 (fun i => idx_main_v61 (idx_main_v62 i))
    (fun r j k => funext fun a => Fin.ext (by match a with | ⟨0, _⟩ => rfl | ⟨1, _⟩ => rfl))
    (fun r j k => funext fun a => Fin.ext (by match a with | ⟨0, _⟩ => rfl | ⟨1, _⟩ => rfl))
    (fun r j => funext fun a => Fin.ext (by match a with | ⟨0, _⟩ => rfl))
    (fun i => by rw [val_main_v63_apply, val_main_v60_apply, val_main_v62_apply, val_main_v61_apply]; rfl)

/-- The projected edge distances: a rectified affine layer. -/
theorem ed_eq : val_main_v27 (F := Ideal) x3 x10 x11 = Spec.dense x3 x10 x11 := by
  rw [v27_eq, v26_eq]
  rfl

/-- The edge logits: the edge head over the node states gathered at the two endpoints and the projected distances. -/
theorem eo_eq : val_main_v63 (F := Ideal) x0 x1 x3 x4 x5 x6 x7 x10 x11 x14 x15 x18 x19
    = Spec.edgeO (val_main_v44 (F := Ideal) x0 x1 x4 x5 x6 x7) (val_main_v51 (F := Ideal) x0 x1 x4 x5 x6 x7)
        (val_main_v27 (F := Ideal) x3 x10 x11) x14 x15 x18 x19 := by
  rw [v63_eq, v59_eq, v58_eq, v54_eq, v53_eq, v52_eq]
  rfl

end Cert.ReferenceIdeal.Edge

end
-- ==== Proof.RefValue.lean ====
/-
  The reference's two logit arrays as one function of its arguments: the stages put together. The messages are the
  rectified sum of the rows gathered at the source endpoints and the edge rows; their scatter-add per node enters
  the node update; the node head gives the node logits; the node states gathered at both endpoints enter the edge
  head, which gives the edge logits. The gathers and the scatter-add stay as the operations they are.
-/
import proofs.«426157_j56246891709114_1_alg».proof.Proof.RefNode
import proofs.«426157_j56246891709114_1_alg».proof.Proof.RefEdge

set_option maxRecDepth 16384

noncomputable section

namespace Cert.ReferenceIdeal.Whole

open Cert.ReferenceIdeal Cert.ReferenceIdeal.Gen Cert.ReferenceIdeal.ReadP
open Idealize.ShloMosaic Idealize.ShloMosaic.TcCoe Idealize.SL.Sem

-- the arguments of the reference program at the extended reals, by their positions
variable (x0 : (⟨S50000x128, .f32⟩ : BufTy).Contents (Elt Ideal)) (x1 : (⟨S800000x128, .f32⟩ : BufTy).Contents (Elt Ideal))
  (x2 : (⟨S50000x32, .f32⟩ : BufTy).Contents (Elt Ideal)) (x3 : (⟨S800000x32, .f32⟩ : BufTy).Contents (Elt Ideal))
  (x4 x5 : (⟨S800000, .i32⟩ : BufTy).Contents (Elt Ideal))
  (x6 : (⟨S128x128, .f32⟩ : BufTy).Contents (Elt Ideal)) (x7 : (⟨S128, .f32⟩ : BufTy).Contents (Elt Ideal))
  (x8 : (⟨S32x32, .f32⟩ : BufTy).Contents (Elt Ideal)) (x9 : (⟨S32, .f32⟩ : BufTy).Contents (Elt Ideal))
  (x10 : (⟨S32x32, .f32⟩ : BufTy).Contents (Elt Ideal)) (x11 : (⟨S32, .f32⟩ : BufTy).Contents (Elt Ideal))
  (x12 : (⟨S160x128, .f32⟩ : BufTy).Contents (Elt Ideal)) (x13 : (⟨S128, .f32⟩ : BufTy).Contents (Elt Ideal))
  (x14 : (⟨S288x128, .f32⟩ : BufTy).Contents (Elt Ideal)) (x15 : (⟨S128, .f32⟩ : BufTy).Contents (Elt Ideal))
  (x16 : (⟨S128x2, .f32⟩ : BufTy).Contents (Elt Ideal)) (x17 : (⟨S2, .f32⟩ : BufTy).Contents (Elt Ideal))
  (x18 : (⟨S128x2, .f32⟩ : BufTy).Contents (Elt Ideal)) (x19 : (⟨S2, .f32⟩ : BufTy).Contents (Elt Ideal))

/-- The node states, with the aggregate spelled out: the scatter-add of the messages. -/
theorem x_whole : val_main_v17 (F := Ideal) x0 x1 x4 x5 x6 x7
    = Spec.nodeX x0
        (Host.scatterAdd scatter_S50000x128_S800000x1_S800000x128_1_0_0_1 (val_main_v9 (F := Ideal)) (val_main_v10 (F := Ideal) x5)
          (Spec.msg (val_main_v6 (F := Ideal) x0 x4) x1) : FVec Ideal S50000x128 .f32) x6 x7 := by
  rw [Node.x_eq]
  unfold val_main_v11
  rw [Node.msg_eq]

/-- The node logits. -/
theorem no_whole : val_main_v37 (F := Ideal) x0 x1 x2 x4 x5 x6 x7 x8 x9 x12 x13 x16 x17
    = Spec.nodeO (val_main_v17 (F := Ideal) x0 x1 x4 x5 x6 x7) (Spec.dense x2 x8 x9) x12 x13 x16 x17 := by
  rw [Node.no_eq, Node.nd_eq]

/-- The edge logits. -/
theorem eo_whole : val_main_v63 (F := Ideal) x0 x1 x3 x4 x5 x6 x7 x10 x11 x14 x15 x18 x19
    = Spec.edgeO
        (Host.gather gather_S50000x128_S800000x1_S800000x128_1_0_n_n_0_1_1128 (val_main_v17 (F := Ideal) x0 x1 x4 x5 x6 x7) (val_main_v43 (F := Ideal) x4))
        (Host.gather gather_S50000x128_S800000x1_S800000x128_1_0_n_n_0_1_1128 (val_main_v17 (F := Ideal) x0 x1 x4 x5 x6 x7) (val_main_v50 (F := Ideal) x5))
        (Spec.dense x3 x10 x11) x14 x15 x18 x19 := by
  rw [Edge.eo_eq, Edge.ed_eq]
  rfl

end Cert.ReferenceIdeal.Whole

end
-- ==== Proof.Bridge.lean ====
/-
  The two programs meet. Both are now written as the same row-wise layers of the same gathers and the same
  scatter-add of the arguments, followed by the same column operations on the two logit arrays; what is left is to
  see that the kernel program's host operations and the reference's are the same operations: they are printed
  twice, once per program, with the same shapes and dimension numbers.
-/
import proofs.«426157_j56246891709114_1_alg».proof.Proof.KernelValue
import proofs.«426157_j56246891709114_1_alg».proof.Proof.RefValue

set_option maxRecDepth 16384

noncomputable section

namespace Cert.Bridge

open Idealize.ShloMosaic Idealize.ShloMosaic.TcCoe

/-! ## The host operations the two programs share -/

/-- The rows of a table at the source endpoints: the reference's first gather. -/
theorem rowsAt_v6 (x : FVec Ideal Cert.KernelIdeal.S50000x128 .f32) (idx : IVec Cert.KernelIdeal.S800000 32) :
    Cert.KernelIdeal.Whole.rowsAt x idx = Cert.ReferenceIdeal.ReadP.val_main_v6 (F := Ideal) x idx := rfl

/-- The rows of a table at the source endpoints: the reference's second gather. -/
theorem rowsAt_v43 (x : FVec Ideal Cert.KernelIdeal.S50000x128 .f32) (idx : IVec Cert.KernelIdeal.S800000 32) :
    Cert.KernelIdeal.Whole.rowsAt x idx = Host.gather Cert.ReferenceIdeal.gather_S50000x128_S800000x1_S800000x128_1_0_n_n_0_1_1128 x (Cert.ReferenceIdeal.ReadP.val_main_v43 (F := Ideal) idx) := rfl

/-- The rows of a table at the destination endpoints: the reference's third gather. -/
theorem rowsAt_v50 (x : FVec Ideal Cert.KernelIdeal.S50000x128 .f32) (idx : IVec Cert.KernelIdeal.S800000 32) :
    Cert.KernelIdeal.Whole.rowsAt x idx = Host.gather Cert.ReferenceIdeal.gather_S50000x128_S800000x1_S800000x128_1_0_n_n_0_1_1128 x (Cert.ReferenceIdeal.ReadP.val_main_v50 (F := Ideal) idx) := rfl

/-- The per-node sum of messages: the reference's scatter-add into its zero table. -/
theorem aggregate_eq (dst : IVec Cert.KernelIdeal.S800000 32) (msg : FVec Ideal Cert.KernelIdeal.S800000x128 .f32) :
    Cert.KernelIdeal.Entry.aggregate dst msg
      = Host.scatterAdd Cert.ReferenceIdeal.scatter_S50000x128_S800000x1_S800000x128_1_0_0_1 (Cert.ReferenceIdeal.ReadP.val_main_v9 (F := Ideal)) (Cert.ReferenceIdeal.ReadP.val_main_v10 (F := Ideal) dst) msg := rfl

variable (x0 : FVec Ideal Cert.KernelIdeal.S50000x128 .f32) (x1 : FVec Ideal Cert.KernelIdeal.S800000x128 .f32) (x2 : FVec Ideal Cert.KernelIdeal.S50000x32 .f32)
  (x3 : FVec Ideal Cert.KernelIdeal.S800000x32 .f32) (x4 x5 : IVec Cert.KernelIdeal.S800000 32) (x6 : FVec Ideal Cert.KernelIdeal.S128x128 .f32) (x7 : FVec Ideal Cert.KernelIdeal.S128 .f32)
  (x8 : FVec Ideal Cert.KernelIdeal.S32x32 .f32) (x9 : FVec Ideal Cert.KernelIdeal.S32 .f32) (x10 : FVec Ideal Cert.KernelIdeal.S32x32 .f32) (x11 : FVec Ideal Cert.KernelIdeal.S32 .f32)
  (x12 : FVec Ideal Cert.KernelIdeal.S160x128 .f32) (x13 : FVec Ideal Cert.KernelIdeal.S128 .f32) (x14 : FVec Ideal Cert.KernelIdeal.S288x128 .f32) (x15 : FVec Ideal Cert.KernelIdeal.S128 .f32)
  (x16 : FVec Ideal Cert.KernelIdeal.S128x2 .f32) (x17 : FVec Ideal Cert.KernelIdeal.S2 .f32) (x18 : FVec Ideal Cert.KernelIdeal.S128x2 .f32) (x19 : FVec Ideal Cert.KernelIdeal.S2 .f32)

/-! ## The logits -/

/-- The reference's node states are the kernel program's. -/
theorem x_eq : Cert.ReferenceIdeal.ReadP.val_main_v17 (F := Ideal) x0 x1 x4 x5 x6 x7 = Cert.KernelIdeal.Whole.xOf x0 x1 x4 x5 x6 x7 := by
  rw [Cert.ReferenceIdeal.Whole.x_whole]
  unfold Cert.KernelIdeal.Whole.xOf
  rw [aggregate_eq, rowsAt_v6]

/-- The reference's node logits are the kernel program's. -/
theorem no_eq : Cert.ReferenceIdeal.ReadP.val_main_v37 (F := Ideal) x0 x1 x2 x4 x5 x6 x7 x8 x9 x12 x13 x16 x17 = Cert.KernelIdeal.Whole.noOf x0 x1 x2 x4 x5 x6 x7 x8 x9 x12 x13 x16 x17 := by
  rw [Cert.ReferenceIdeal.Whole.no_whole, x_eq]
  rfl

/-- The reference's edge logits are the kernel program's. -/
theorem eo_eq : Cert.ReferenceIdeal.ReadP.val_main_v63 (F := Ideal) x0 x1 x3 x4 x5 x6 x7 x10 x11 x14 x15 x18 x19 = Cert.KernelIdeal.Whole.eoOf x0 x1 x3 x4 x5 x6 x7 x10 x11 x14 x15 x18 x19 := by
  rw [Cert.ReferenceIdeal.Whole.eo_whole, x_eq]
  unfold Cert.KernelIdeal.Whole.eoOf
  rw [rowsAt_v43 (Cert.KernelIdeal.Whole.xOf x0 x1 x4 x5 x6 x7) x4, rowsAt_v50 (Cert.KernelIdeal.Whole.xOf x0 x1 x4 x5 x6 x7) x5]

/-! ## The four results -/

/-- The reference's first result: the node temperature of the node logits. -/
theorem node_t : Cert.ReferenceIdeal.ReadP.val_main_v67 (F := Ideal) x0 x1 x2 x4 x5 x6 x7 x8 x9 x12 x13 x16 x17 = Cert.KernelIdeal.Tail.nodeT (Cert.KernelIdeal.Whole.noOf x0 x1 x2 x4 x5 x6 x7 x8 x9 x12 x13 x16 x17) :=
  (show Cert.ReferenceIdeal.ReadP.val_main_v67 (F := Ideal) x0 x1 x2 x4 x5 x6 x7 x8 x9 x12 x13 x16 x17 = Cert.KernelIdeal.Tail.nodeT (Cert.ReferenceIdeal.ReadP.val_main_v37 (F := Ideal) x0 x1 x2 x4 x5 x6 x7 x8 x9 x12 x13 x16 x17) from rfl).trans
    (congrArg Cert.KernelIdeal.Tail.nodeT (no_eq x0 x1 x2 x4 x5 x6 x7 x8 x9 x12 x13 x16 x17))

/-- The reference's second result: the node probability of the node logits. -/
theorem node_p : Cert.ReferenceIdeal.ReadP.val_main_v76 (F := Ideal) x0 x1 x2 x4 x5 x6 x7 x8 x9 x12 x13 x16 x17 = Cert.KernelIdeal.Tail.nodeP (Cert.KernelIdeal.Whole.noOf x0 x1 x2 x4 x5 x6 x7 x8 x9 x12 x13 x16 x17) :=
  (show Cert.ReferenceIdeal.ReadP.val_main_v76 (F := Ideal) x0 x1 x2 x4 x5 x6 x7 x8 x9 x12 x13 x16 x17 = Cert.KernelIdeal.Tail.nodeP (Cert.ReferenceIdeal.ReadP.val_main_v37 (F := Ideal) x0 x1 x2 x4 x5 x6 x7 x8 x9 x12 x13 x16 x17) from rfl).trans
    (congrArg Cert.KernelIdeal.Tail.nodeP (no_eq x0 x1 x2 x4 x5 x6 x7 x8 x9 x12 x13 x16 x17))

/-- The reference's third result: the edge temperature of the edge logits. -/
theorem edge_t : Cert.ReferenceIdeal.ReadP.val_main_v80 (F := Ideal) x0 x1 x3 x4 x5 x6 x7 x10 x11 x14 x15 x18 x19 = Cert.KernelIdeal.Tail.edgeT (Cert.KernelIdeal.Whole.eoOf x0 x1 x3 x4 x5 x6 x7 x10 x11 x14 x15 x18 x19) :=
  (show Cert.ReferenceIdeal.ReadP.val_main_v80 (F := Ideal) x0 x1 x3 x4 x5 x6 x7 x10 x11 x14 x15 x18 x19 = Cert.KernelIdeal.Tail.edgeT (Cert.ReferenceIdeal.ReadP.val_main_v63 (F := Ideal) x0 x1 x3 x4 x5 x6 x7 x10 x11 x14 x15 x18 x19) from rfl).trans
    (congrArg Cert.KernelIdeal.Tail.edgeT (eo_eq x0 x1 x3 x4 x5 x6 x7 x10 x11 x14 x15 x18 x19))

/-- The reference's fourth result: the edge probability of the edge logits. -/
theorem edge_p : Cert.ReferenceIdeal.ReadP.val_main_v89 (F := Ideal) x0 x1 x3 x4 x5 x6 x7 x10 x11 x14 x15 x18 x19 = Cert.KernelIdeal.Tail.edgeP (Cert.KernelIdeal.Whole.eoOf x0 x1 x3 x4 x5 x6 x7 x10 x11 x14 x15 x18 x19) :=
  (show Cert.ReferenceIdeal.ReadP.val_main_v89 (F := Ideal) x0 x1 x3 x4 x5 x6 x7 x10 x11 x14 x15 x18 x19 = Cert.KernelIdeal.Tail.edgeP (Cert.ReferenceIdeal.ReadP.val_main_v63 (F := Ideal) x0 x1 x3 x4 x5 x6 x7 x10 x11 x14 x15 x18 x19) from rfl).trans
    (congrArg Cert.KernelIdeal.Tail.edgeP (eo_eq x0 x1 x3 x4 x5 x6 x7 x10 x11 x14 x15 x18 x19))

end Cert.Bridge

end
-- ==== Proof.lean ====
/-
  The certificate: a graph layer that sends a message along every edge, sums the messages per node, updates the
  nodes, and scores nodes and edges, computed by three row-band kernels with gathers and a scatter-add between
  them, against the same layer written as whole-array operations.

  Both programs are read at the extended reals. Each kernel walks its rows in bands and does, per row, what the
  reference does per row, so each array a kernel leaves is that layer of the whole arrays (the band of a row-wise
  layer is the layer of the band). The kernel program looks rows up with a fill for endpoints outside the table
  where the reference's gather clamps; under the precondition every endpoint is a row number of the table, the fill
  never happens, and the two lookups are one gather. The scatter-add and the closing column operations are the same
  operations in both programs. The reference's run is read one host operation at a time: the program is a straight
  line in single assignment, so each buffer ends at its operation's function of its operands' final contents.
  The three frames come with the run of each program; nothing was rewritten between the kernel as printed and its
  reading at the extended reals, so that conjunct is empty.
-/
import proofs.«426157_j56246891709114_1_alg».proof.Defs
import proofs.«426157_j56246891709114_1_alg».proof.Proof.Gen.Kernel
import proofs.«426157_j56246891709114_1_alg».proof.Proof.Gen.Kernel.Frame
import proofs.«426157_j56246891709114_1_alg».proof.Proof.Gen.KernelIdeal
import proofs.«426157_j56246891709114_1_alg».proof.Proof.Gen.KernelIdeal.Frame
import proofs.«426157_j56246891709114_1_alg».proof.Proof.Gen.ReferenceIdeal
import proofs.«426157_j56246891709114_1_alg».proof.Proof.Gen.Pre_finite_inputs
import proofs.«426157_j56246891709114_1_alg».proof.Proof.KernelRun
import proofs.«426157_j56246891709114_1_alg».proof.Proof.KernelValue
import proofs.«426157_j56246891709114_1_alg».proof.Proof.PreDecode
import proofs.«426157_j56246891709114_1_alg».proof.Proof.RefStages
import proofs.«426157_j56246891709114_1_alg».proof.Proof.Bridge
import Idealize.ShloMosaic.Adequacy
import Idealize.ShloMosaic.Init

noncomputable section

namespace Cert.Proof

open Idealize.ShloMosaic Idealize.ShloMosaic.TcCoe Idealize.SL.Sem

/-! ## The reference's run, its four results named by their stages -/

/-- Every weakly fair execution of the reference terminates with each result at its stage function of the argument
    arrays and the argument arrays unchanged: the straight line's run, each buffer read one operation at a time. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v67) = Cert.ReferenceIdeal.ReadP.val_main_v67 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))
      ∧ r.2.mem ((c.tc : Thread Cert.ReferenceIdeal.nD Cert.ReferenceIdeal.τ).loc Cert.ReferenceIdeal.main_v76) = Cert.ReferenceIdeal.ReadP.val_main_v76 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))
      ∧ r.2.mem ((c.tc : Thread Cert.ReferenceIdeal.nD Cert.ReferenceIdeal.τ).loc Cert.ReferenceIdeal.main_v80) = Cert.ReferenceIdeal.ReadP.val_main_v80 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))
      ∧ r.2.mem ((c.tc : Thread Cert.ReferenceIdeal.nD Cert.ReferenceIdeal.τ).loc Cert.ReferenceIdeal.main_v89) = Cert.ReferenceIdeal.ReadP.val_main_v89 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)) :=
  (θ_run (Cert.ReferenceIdeal.defs (F := Ideal)) _ _).mono (fun _ h c =>
    ⟨(h c Cert.ReferenceIdeal.main_v67).trans (Cert.ReferenceIdeal.Stages.st_main_v67 _), (h c Cert.ReferenceIdeal.main_v76).trans (Cert.ReferenceIdeal.Stages.st_main_v76 _),
     (h c Cert.ReferenceIdeal.main_v80).trans (Cert.ReferenceIdeal.Stages.st_main_v80 _), (h c Cert.ReferenceIdeal.main_v89).trans (Cert.ReferenceIdeal.Stages.st_main_v89 _),
     (h c Cert.ReferenceIdeal.main_arg0).trans (Cert.ReferenceIdeal.Stages.kept_main_arg0 _),
     (h c Cert.ReferenceIdeal.main_arg1).trans (Cert.ReferenceIdeal.Stages.kept_main_arg1 _),
     (h c Cert.ReferenceIdeal.main_arg2).trans (Cert.ReferenceIdeal.Stages.kept_main_arg2 _),
     (h c Cert.ReferenceIdeal.main_arg3).trans (Cert.ReferenceIdeal.Stages.kept_main_arg3 _),
     (h c Cert.ReferenceIdeal.main_arg4).trans (Cert.ReferenceIdeal.Stages.kept_main_arg4 _),
     (h c Cert.ReferenceIdeal.main_arg5).trans (Cert.ReferenceIdeal.Stages.kept_main_arg5 _),
     (h c Cert.ReferenceIdeal.main_arg6).trans (Cert.ReferenceIdeal.Stages.kept_main_arg6 _),
     (h c Cert.ReferenceIdeal.main_arg7).trans (Cert.ReferenceIdeal.Stages.kept_main_arg7 _),
     (h c Cert.ReferenceIdeal.main_arg8).trans (Cert.ReferenceIdeal.Stages.kept_main_arg8 _),
     (h c Cert.ReferenceIdeal.main_arg9).trans (Cert.ReferenceIdeal.Stages.kept_main_arg9 _),
     (h c Cert.ReferenceIdeal.main_arg10).trans (Cert.ReferenceIdeal.Stages.kept_main_arg10 _),
     (h c Cert.ReferenceIdeal.main_arg11).trans (Cert.ReferenceIdeal.Stages.kept_main_arg11 _),
     (h c Cert.ReferenceIdeal.main_arg12).trans (Cert.ReferenceIdeal.Stages.kept_main_arg12 _),
     (h c Cert.ReferenceIdeal.main_arg13).trans (Cert.ReferenceIdeal.Stages.kept_main_arg13 _),
     (h c Cert.ReferenceIdeal.main_arg14).trans (Cert.ReferenceIdeal.Stages.kept_main_arg14 _),
     (h c Cert.ReferenceIdeal.main_arg15).trans (Cert.ReferenceIdeal.Stages.kept_main_arg15 _),
     (h c Cert.ReferenceIdeal.main_arg16).trans (Cert.ReferenceIdeal.Stages.kept_main_arg16 _),
     (h c Cert.ReferenceIdeal.main_arg17).trans (Cert.ReferenceIdeal.Stages.kept_main_arg17 _),
     (h c Cert.ReferenceIdeal.main_arg18).trans (Cert.ReferenceIdeal.Stages.kept_main_arg18 _),
     (h c Cert.ReferenceIdeal.main_arg19).trans (Cert.ReferenceIdeal.Stages.kept_main_arg19 _)⟩)
    (Cert.ReferenceIdeal.RunP.run_after (F := Ideal) m ρ)

/-! ## The claims -/

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run (Cert.ReferenceIdeal.defs (F := Ideal)) _ _).mono (fun _ h c => (h c).2.2.2.2) (ref_run m ρ)

theorem preserves : Cert.preserves_Kernel_KernelIdeal := trivial

/-- From memories that agree on the arguments, the kernel program and the reference end with equal results: each
    result is the same column function of the same logits, as functions of the arguments. -/
theorem algebraic : Cert.algebraic_KernelIdeal_ReferenceIdeal := by
  intro m ρ m' ρ' hpre hagree
  have hin : ∀ c : Dev Cert.KernelIdeal.nD, Spec.InRange (m ((c.tc : Thread Cert.KernelIdeal.nD Cert.KernelIdeal.τ).loc Cert.KernelIdeal.main_arg4)) ∧ Spec.InRange (m ((c.tc : Thread Cert.KernelIdeal.nD Cert.KernelIdeal.τ).loc Cert.KernelIdeal.main_arg5)) := fun c =>
    Cert.Pre_finite_inputs.Decode.inRange_of_pre _ _ _ _ _ _ _ _ _ _ _ _ _ _ _ _ _ _ _ _ (hpre c)
  refine ⟨fun c => Cert.KernelIdeal.Tail.nodeT (Cert.KernelIdeal.Whole.noOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))),
    fun c => Cert.KernelIdeal.Tail.nodeP (Cert.KernelIdeal.Whole.noOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))),
    fun c => Cert.KernelIdeal.Tail.edgeT (Cert.KernelIdeal.Whole.eoOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))),
    fun c => Cert.KernelIdeal.Tail.edgeP (Cert.KernelIdeal.Whole.eoOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))), ?_, ?_⟩
  · refine (θ_run (Cert.KernelIdeal.defs (F := Ideal)) _ _).mono (fun r h c => ?_) (Cert.KernelIdeal.Results.run_results (F := Ideal) m ρ)
    obtain ⟨h12, h21, h25, h34, hargs⟩ := h c
    obtain ⟨r1, r2, r3, r4⟩ := Cert.KernelIdeal.Whole.results m ρ c (hin c).1 (hin c).2
    exact ⟨h12.trans r1, h21.trans r2, h25.trans r3, h34.trans r4, hargs⟩
  · refine (θ_run (Cert.ReferenceIdeal.defs (F := Ideal)) _ _).mono (fun r h c => ?_) (ref_run m' ρ')
    obtain ⟨h67, h76, h80, h89, hargs⟩ := h c
    obtain ⟨e0, e1, e2, e3, e4, e5, e6, e7, e8, e9, e10, e11, e12, e13, e14, e15, e16, e17, e18, e19⟩ := hagree c
    refine ⟨h67.trans ?_, h76.trans ?_, h80.trans ?_, h89.trans ?_, hargs⟩
    · rw [e0, e1, e2, e4, e5, e6, e7, e8, e9, e12, e13, e16, e17]; exact Cert.Bridge.node_t _ _ _ _ _ _ _ _ _ _ _ _ _
    · rw [e0, e1, e2, e4, e5, e6, e7, e8, e9, e12, e13, e16, e17]; exact Cert.Bridge.node_p _ _ _ _ _ _ _ _ _ _ _ _ _
    · rw [e0, e1, e3, e4, e5, e6, e7, e10, e11, e14, e15, e18, e19]; exact Cert.Bridge.edge_t _ _ _ _ _ _ _ _ _ _ _ _ _
    · rw [e0, e1, e3, e4, e5, e6, e7, e10, e11, e14, e15, e18, e19]; exact Cert.Bridge.edge_p _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
